-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192 : Shape := ⟨1, ![8192]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel

variable [Facts]

def fn {F : FTy → Type} [FloatOps F] (main_arg0 : FVec F S8192x128 .f32) (main_arg1 : IVec S8192 32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  main_v3
-- ==== Kernel.lean ====
abbrev S8192x128 : Shape := ⟨2, ![8192, 128]⟩
abbrev S8192 : Shape := ⟨1, ![8192]⟩
abbrev S8192x1 : Shape := ⟨2, ![8192, 1]⟩
abbrev S1x8192 : Shape := ⟨2, ![1, 8192]⟩
abbrev S1024x128 : Shape := ⟨2, ![1024, 128]⟩
abbrev S1024x1 : Shape := ⟨2, ![1024, 1]⟩
abbrev S1x1024 : Shape := ⟨2, ![1, 1024]⟩
abbrev S1024 : Shape := ⟨1, ![1024]⟩
abbrev S128x1024 : Shape := ⟨2, ![128, 1024]⟩
abbrev S1024x1024 : Shape := ⟨2, ![1024, 1024]⟩
abbrev S_ : Shape := ⟨0, ![]⟩

abbrev nBuf : Space → Nat
  | .hbm => 19
  | .vmem => 14
  | .smem => 0
  | _ => 0

abbrev bufTy : (tb : Table) → Fin (tcTables nBuf tb) → BufTy
  | .hbm, ⟨0, _⟩ => ⟨S8192x128, .f32⟩
  | .hbm, ⟨1, _⟩ => ⟨S8192, .i32⟩
  | .hbm, ⟨2, _⟩ => ⟨S8192x1, .i32⟩
  | .hbm, ⟨3, _⟩ => ⟨S1x8192, .i32⟩
  | .hbm, ⟨4, _⟩ => ⟨S8192x1, .f32⟩
  | .hbm, ⟨5, _⟩ => ⟨S8192x1, .f32⟩
  | .hbm, ⟨6, _⟩ => ⟨S8192, .f32⟩
  | .hbm, ⟨7, _⟩ => ⟨S8192, .f32⟩
  | .hbm, ⟨8, _⟩ => ⟨S8192, .f32⟩
  | .hbm, ⟨9, _⟩ => ⟨S_, .f32⟩
  | .hbm, ⟨10, _⟩ => ⟨S8192, .f32⟩
  | .hbm, ⟨11, _⟩ => ⟨S8192, .f32⟩
  | .hbm, ⟨12, _⟩ => ⟨S_, .f32⟩
  | .hbm, ⟨13, _⟩ => ⟨S8192, .f32⟩
  | .hbm, ⟨14, _⟩ => ⟨S8192, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024x1, .i32⟩
  | .local _ .vmem, ⟨5, _⟩ => ⟨S1024x1, .i32⟩
  | .local _ .vmem, ⟨6, _⟩ => ⟨S1x1024, .i32⟩
  | .local _ .vmem, ⟨7, _⟩ => ⟨S1x1024, .i32⟩
  | .local _ .vmem, ⟨8, _⟩ => ⟨S1024x1, .f32⟩
  | .local _ .vmem, ⟨9, _⟩ => ⟨S1024x1, .f32⟩
  | .local _ .vmem, ⟨10, _⟩ => ⟨S1024x1, .f32⟩
  | .local _ .vmem, ⟨11, _⟩ => ⟨S1024x1, .f32⟩
  | .local _ .vmem, ⟨12, _⟩ => ⟨S1024x1, .f32⟩
  | .local _ .vmem, ⟨13, _⟩ => ⟨S1024x1, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v57 : BitVec 1 := Scalar.cmpi .eq arg1 c7_i32
  let v58 : BitVec 32 := Scalar.extui v57
  let c0_i32_28 : BitVec 32 := 0#32
  let v59 : BitVec 1 := Scalar.cmpi .ne v58 c0_i32_28
  v59

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  shapeCasts_S8192_S8192x1 : S8192.ShapeCasts S8192x1
  shapeCasts_S8192_S1x8192 : S8192.ShapeCasts S1x8192
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x128_S1024x128_0_0 : ∀ a, (![0, 0] : Fin 2 → Nat) a + S1024x128.size a ≤ S1024x128.size a
  h_S1024x128 : 0 < S1024x128.numel
  bitsLt_bf16_f32 : FTy.bits .bf16 < FTy.bits .f32
  reduces_S1024x128_S1024 : S1024x128.Reduces [1] S1024
  shapeCasts_S1024_S1024x1 : S1024.ShapeCasts S1024x1
  shapeCasts_S1024_S1x1024 : S1024.ShapeCasts S1x1024
  transposes_S1024x128_p1_0_S128x1024 : S1024x128.Transposes [1, 0] S128x1024
  broadcasts_S1024x1_S1024x1024 : S1024x1.Broadcasts S1024x1024
  broadcasts_S1x1024_S1024x1024 : S1x1024.Broadcasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  reduces_S1024x1024_S1024 : S1024x1024.Reduces [1] S1024
  shapeCasts_S8192x1_S8192 : S8192x1.ShapeCasts S8192
  bcast_S_S8192 : S_.BroadcastsInDim S8192 (![] : Fin 0 → Fin S8192.rank)
  reducesTo_S8192_S_d0 : S8192.ReducesTo [0] S_
  h_S_ : 0 < S_.numel
  dot_S1024x128_S128x1024_S1024x1024_1_0_0_1_n_n_wf : DotDims.WF S1024x128 S128x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S8192x128.size a
  hwx0_0 : ∀ i : grid0.Coords, EltTy.bits .f32 = 32 ∨ (Rect.block (s := S8192x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S8192x128.size a
  hwx0_1 : ∀ i : grid0.Coords, EltTy.bits .f32 = 32 ∨ (Rect.block (s := S8192x128) S1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .i32 = 32 ∨ (Rect.block (s := S8192x1) S1024x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x8192.size a
  hwx0_3 : ∀ i : grid0.Coords, EltTy.bits .i32 = 32 ∨ (Rect.block (s := S1x8192) S1x1024.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S8192x1.size a
  hwx0_4 : ∀ i : grid0.Coords, EltTy.bits .f32 = 32 ∨ (Rect.block (s := S8192x1) S1024x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1.size a ≤ S8192x1.size a
  hwx0_5 : ∀ i : grid0.Coords, EltTy.bits .f32 = 32 ∨ (Rect.block (s := S8192x1) S1024x1.size (cc0_transform_5 i) (hinb0_5 i)).WholeWords (EltTy.packing .f32)

variable [Facts₀]

def dot_S1024x128_S128x1024_S1024x1024_1_0_0_1_n_n : DotDims S1024x128 S128x1024 S1024x1024 where
  lhsContracting := [1]
  rhsContracting := [0]
  lhsNonContracting := [0]
  rhsNonContracting := [1]
  lhsBatch := []
  rhsBatch := []
  wf := dot_S1024x128_S128x1024_S1024x1024_1_0_0_1_n_n_wf

abbrev win0_0 : Pipeline.Window sig grid0 :=
  Pipeline.Window.ofSpec (Memref.whole main_arg0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_0) S1024x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2_1) S1024x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond2 i == 1#1) | 5 => fun i => !(k0_cond2 i == 1#1) | ⟨_ + 6, h⟩ => absurd h (Nat.not_lt.2 (Nat.le_add_left _ _))

class Facts : Prop extends Facts₀ where

variable [Facts]
-- ==== ReferenceIdeal.lean ====
abbrev S8192x128 : Shape := ⟨2, ![8192, 128]⟩
abbrev S8192 : Shape := ⟨1, ![8192]⟩
abbrev S_ : Shape := ⟨0, ![]⟩
abbrev S8192x1 : Shape := ⟨2, ![8192, 1]⟩
abbrev S1x8192 : Shape := ⟨2, ![1, 8192]⟩
abbrev S8192x8192 : Shape := ⟨2, ![8192, 8192]⟩
abbrev S128x8192 : Shape := ⟨2, ![128, 8192]⟩

abbrev nBuf : Space → Nat
  | .hbm => 60
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192, .i32⟩
  | .hbm, ⟨2, _⟩ => ⟨S8192x128, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S1x8192, .f32⟩
  | .hbm, ⟨7, _⟩ => ⟨S8192x8192, .f32⟩
  | .hbm, ⟨8, _⟩ => ⟨S8192x8192, .f32⟩
  | .hbm, ⟨9, _⟩ => ⟨S8192x8192, .f32⟩
  | .hbm, ⟨10, _⟩ => ⟨S128x8192, .f32⟩
  | .hbm, ⟨11, _⟩ => ⟨S8192x8192, .f32⟩
  | .hbm, ⟨12, _⟩ => ⟨S_, .f32⟩
  | .hbm, ⟨13, _⟩ => ⟨S8192x8192, .f32⟩
  | .hbm, ⟨14, _⟩ => ⟨S8192x8192, .f32⟩
  | .hbm, ⟨15, _⟩ => ⟨S8192x8192, .f32⟩
  | .hbm, ⟨16, _⟩ => ⟨S_, .f32⟩
  | .hbm, ⟨17, _⟩ => ⟨S8192x8192, .f32⟩
  | .hbm, ⟨18, _⟩ => ⟨S8192x8192, .f32⟩
  | .hbm, ⟨19, _⟩ => ⟨S_, .f32⟩
  | .hbm, ⟨20, _⟩ => ⟨S8192x8192, .f32⟩
  | .hbm, ⟨21, _⟩ => ⟨S8192x8192, .i1⟩
  | .hbm, ⟨22, _⟩ => ⟨S_, .f32⟩
  | .hbm, ⟨23, _⟩ => ⟨S_, .f32⟩
  | .hbm, ⟨24, _⟩ => ⟨S8192x8192, .f32⟩
  | .hbm, ⟨25, _⟩ => ⟨S8192x8192, .f32⟩
  | .hbm, ⟨26, _⟩ => ⟨S8192x8192, .f32⟩
  | .hbm, ⟨27, _⟩ => ⟨S_, .f32⟩
  | .hbm, ⟨28, _⟩ => ⟨S8192x8192, .f32⟩
  | .hbm, ⟨29, _⟩ => ⟨S8192x8192, .i1⟩
  | .hbm, ⟨30, _⟩ => ⟨S_, .f32⟩
  | .hbm, ⟨31, _⟩ => ⟨S_, .f32⟩
  | .hbm, ⟨32, _⟩ => ⟨S8192x8192, .f32⟩
  | .hbm, ⟨33, _⟩ => ⟨S8192x8192, .f32⟩
  | .hbm, ⟨34, _⟩ => ⟨S8192x1, .i32⟩
  | .hbm, ⟨35, _⟩ => ⟨S1x8192, .i32⟩
  | .hbm, ⟨36, _⟩ => ⟨S8192x8192, .i32⟩
  | .hbm, ⟨37, _⟩ => ⟨S8192x8192, .i32⟩
  | .hbm, ⟨38, _⟩ => ⟨S8192x8192, .i1⟩
  | .hbm, ⟨39, _⟩ => ⟨S_, .f32⟩
  | .hbm, ⟨40, _⟩ => ⟨S8192x8192, .f32⟩
  | .hbm, ⟨41, _⟩ => ⟨S8192x8192, .f32⟩
  | .hbm, ⟨42, _⟩ => ⟨S_, .f32⟩
  | .hbm, ⟨43, _⟩ => ⟨S8192, .f32⟩
  | .hbm, ⟨44, _⟩ => ⟨S_, .f32⟩
  | .hbm, ⟨45, _⟩ => ⟨S8192x8192, .f32⟩
  | .hbm, ⟨46, _⟩ => ⟨S8192x8192, .f32⟩
  | .hbm, ⟨47, _⟩ => ⟨S_, .f32⟩
  | .hbm, ⟨48, _⟩ => ⟨S8192, .f32⟩
  | .hbm, ⟨49, _⟩ => ⟨S8192, .f32⟩
  | .hbm, ⟨50, _⟩ => ⟨S_, .f32⟩
  | .hbm, ⟨51, _⟩ => ⟨S8192, .f32⟩
  | .hbm, ⟨52, _⟩ => ⟨S8192, .f32⟩
  | .hbm, ⟨53, _⟩ => ⟨S_, .f32⟩
  | .hbm, ⟨54, _⟩ => ⟨S8192, .f32⟩
  | .hbm, ⟨55, _⟩ => ⟨S8192, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_call0_v0 : Ref sig .tc := ⟨.hbm, 23, rfl⟩
abbrev main_call0_v1 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_call1_v0 : Ref sig .tc := ⟨.hbm, 31, rfl⟩
abbrev main_call1_v1 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_6 : Ref sig .tc := ⟨.hbm, 39, rfl⟩
abbrev main_call2_v0 : Ref sig .tc := ⟨.hbm, 40, rfl⟩
abbrev main_v26 : Ref sig .tc := ⟨.hbm, 41, rfl⟩
abbrev main_cst_7 : Ref sig .tc := ⟨.hbm, 42, rfl⟩
abbrev main_v27 : Ref sig .tc := ⟨.hbm, 43, rfl⟩
abbrev main_cst_8 : Ref sig .tc := ⟨.hbm, 44, rfl⟩
abbrev main_call3_v0 : Ref sig .tc := ⟨.hbm, 45, rfl⟩
abbrev main_v28 : Ref sig .tc := ⟨.hbm, 46, rfl⟩
abbrev main_cst_9 : Ref sig .tc := ⟨.hbm, 47, rfl⟩
abbrev main_v29 : Ref sig .tc := ⟨.hbm, 48, rfl⟩
abbrev main_v30 : Ref sig .tc := ⟨.hbm, 49, rfl⟩
abbrev main_cst_10 : Ref sig .tc := ⟨.hbm, 50, rfl⟩
abbrev main_v31 : Ref sig .tc := ⟨.hbm, 51, rfl⟩
abbrev main_v32 : Ref sig .tc := ⟨.hbm, 52, rfl⟩
abbrev main_cst_11 : Ref sig .tc := ⟨.hbm, 53, rfl⟩
abbrev main_v33 : Ref sig .tc := ⟨.hbm, 54, rfl⟩
abbrev main_v34 : Ref sig .tc := ⟨.hbm, 55, rfl⟩
abbrev main_cst_12 : Ref sig .tc := ⟨.hbm, 56, rfl⟩
abbrev main_v35 : Ref sig .tc := ⟨.hbm, 57, rfl⟩
abbrev main_cst_13 : Ref sig .tc := ⟨.hbm, 58, rfl⟩
abbrev main_v36 : Ref sig .tc := ⟨.hbm, 59, rfl⟩

abbrev nD : Nat := 1
abbrev τ : Topo := Topo.v7x

variable {F : FTy → Type} [FloatOps F]

class Facts₀ : Prop where
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x128_S128x8192_1_0 : S8192x128.Transposes [1, 0] S128x8192
  bcast_S_S8192x8192 : S_.BroadcastsInDim S8192x8192 (![] : Fin 0 → Fin S8192x8192.rank)
  reducesTo_S8192x8192_S8192_d1 : S8192x8192.ReducesTo [1] S8192
  bcast_S_S8192 : S_.BroadcastsInDim S8192 (![] : Fin 0 → Fin S8192.rank)
  reducesTo_S8192_S_d0 : S8192.ReducesTo [0] S_
  dot_S8192x128_S128x8192_S8192x8192_1_0_0_1_n_n_wf : DotDims.WF S8192x128 S128x8192 S8192x8192 [1] [0] [0] [1] [] []

variable [Facts₀]

def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.Spec.lean ====
/-
  The mathematics both programs compute, as one function of the feature matrix `x` [8192, 128] and the label
  vector `tg` [8192], over the extended reals.

  For rows `i`, `j`: the squared norms `n i = Σ_k x[i,k]²`, the inner product `g i j = Σ_k x[i,k]·x[j,k]`, the
  clamped squared distance `max (n i + n j − 2·g i j) 0` and its guarded square root (`distOf`: the scalar chain,
  spelled with the programs' own scalar operations so that either program's pointwise text is this by unfolding).
  The hardest positive of row `i` is the maximum over `j` with the same label of the distance (`-∞` elsewhere), the
  hardest negative the minimum over `j` with another label (`+∞` elsewhere); the loss is the mean over `i` of
  `max (pos i − neg i + 0.3) 0` (`lossOf`, the programs' common last lines).
-/
import Idealize.ShloMosaic.PureOps
import Idealize.ShloMosaic.PureOps.Ideal
import Idealize.ShloMosaic.Lib.ValueIdx

noncomputable section

namespace Cert.Spec

open Idealize.ShloMosaic Idealize.ShloMosaic.ValueIdx

abbrev S8192x128 : Shape := ⟨2, ![8192, 128]⟩
abbrev S8192 : Shape := ⟨1, ![8192]⟩
abbrev S_ : Shape := ⟨0, ![]⟩

/-- Entry (i, k) of a [8192, 128] array. -/
abbrev at2 (x : FVec Ideal S8192x128 .f32) (i : Fin 8192) (k : Fin 128) : Ideal .f32 := x (ix2 (n0 := 8192) (n1 := 128) i k)
/-- Entry i of a [8192] array. -/
abbrev at1 {α : Type} (v : S8192.Idx → α) (i : Fin 8192) : α := v (ix1 (n := 8192) i)

/-- The squared norm of row `i`. -/
def sqn (x : FVec Ideal S8192x128 .f32) (i : Fin 8192) : Ideal .f32 := ∑ k : Fin 128, at2 x i k * at2 x i k
/-- The inner product of rows `i` and `j`. -/
def gram (x : FVec Ideal S8192x128 .f32) (i j : Fin 8192) : Ideal .f32 := ∑ k : Fin 128, at2 x i k * at2 x j k

/-- From two squared norms and the inner product to the distance, by the programs' own scalar chain:
    `sq = max (ni + nj − 2·g) 0`, then `√(sq > 0 ? sq : 1)` where `sq > 0` and `0` elsewhere. -/
def distOf (ni nj g : Ideal .f32) : Ideal .f32 :=
  let sq : Ideal .f32 := FloatOps.maximumf (FloatOps.subf (FloatOps.addf ni nj) (FloatOps.mulf (FloatOps.ofBits .f32 0x40000000#32) g)) (FloatOps.ofBits .f32 0x00000000#32)
  Scalar.select (FloatOps.cmpf .ogt sq (FloatOps.ofBits .f32 0x00000000#32))
    (FloatOps.sqrt (Scalar.select (FloatOps.cmpf .ogt sq (FloatOps.ofBits .f32 0x00000000#32)) sq (FloatOps.ofBits .f32 0x3F800000#32)))
    (FloatOps.ofBits .f32 0x00000000#32)

/-- The distance between rows `i` and `j`. -/
def dist (x : FVec Ideal S8192x128 .f32) (i j : Fin 8192) : Ideal .f32 := distOf (sqn x i) (sqn x j) (gram x i j)

/-- The candidate row `j` offers row `i` as a positive: the distance where the labels agree, `-∞` elsewhere. -/
def posCand (x : FVec Ideal S8192x128 .f32) (tg : IVec S8192 32) (i j : Fin 8192) : Ideal .f32 :=
  Scalar.select (IntOp.cmpi .eq (at1 tg i) (at1 tg j)) (dist x i j) (FloatOps.ofBits .f32 0xFF800000#32)
/-- The candidate row `j` offers row `i` as a negative: `+∞` where the labels agree, the distance elsewhere. -/
def negCand (x : FVec Ideal S8192x128 .f32) (tg : IVec S8192 32) (i j : Fin 8192) : Ideal .f32 :=
  Scalar.select (IntOp.cmpi .eq (at1 tg i) (at1 tg j)) (FloatOps.ofBits .f32 0x7F800000#32) (dist x i j)

/-- The hardest positive of every row: the maximum of its candidates, from `-∞`. -/
def dpos (x : FVec Ideal S8192x128 .f32) (tg : IVec S8192 32) : FVec Ideal S8192 .f32 := fun i =>
  (Finset.univ : Finset (Fin 8192)).fold max (FloatOps.ofBits .f32 0xFF800000#32 : Ideal .f32) (posCand x tg (i 0))
/-- The hardest negative of every row: the minimum of its candidates, from `+∞`. -/
def dneg (x : FVec Ideal S8192x128 .f32) (tg : IVec S8192 32) : FVec Ideal S8192 .f32 := fun i =>
  (Finset.univ : Finset (Fin 8192)).fold min (FloatOps.ofBits .f32 0x7F800000#32 : Ideal .f32) (negCand x tg (i 0))

theorem hb : S_.BroadcastsInDim S8192 (![] : Fin 0 → Fin S8192.rank) := by decide
theorem hr : S8192.ReducesTo [0] S_ := by decide
theorem hn : 0 < S_.numel := by decide

/-- The programs' common last lines: the mean over the rows of `max (pos − neg + 0.3) 0`, as the host operations
    spell it (subtract, add a broadcast constant, maximum with a broadcast zero, sum from zero, divide by 8192). -/
def lossOf (dp dn : FVec Ideal S8192 .f32) : FVec Ideal S_ .f32 :=
  Host.divf (Host.reduceAdd (maximumf (addf (subf dp dn) (broadcastInDim S8192 ![] hb (constant (F := Ideal) S_ .f32 0x3E99999A#32)))
      (broadcastInDim S8192 ![] hb (constant (F := Ideal) S_ .f32 0x00000000#32))) (constant (F := Ideal) S_ .f32 0x00000000#32) hr hn)
    (constant (F := Ideal) S_ .f32 0x46000000#32)

/-- The loss of a feature matrix and a label vector. -/
def loss (x : FVec Ideal S8192x128 .f32) (tg : IVec S8192 32) : FVec Ideal S_ .f32 :=
  lossOf (dpos x tg) (dneg x tg)

end Cert.Spec

end
-- ==== Proof.RefValue.lean ====
/-
  The reference program's result is the specification's loss of its two arguments.
-/
import proofs.«152201_j11381663334709_1_alg».proof.Proof.Spec
import proofs.«152201_j11381663334709_1_alg».proof.Proof.Gen.ReferenceIdeal.Run
import proofs.«152201_j11381663334709_1_alg».proof.Proof.Gen.ReferenceIdeal.Read
import Idealize.ShloMosaic.PureOps.Ideal.Laws
import Idealize.ShloMosaic.Lib.ValueIdx
import Idealize.ShloMosaic.Lib.Pipeline.Value

noncomputable section

namespace Cert.ReferenceIdeal.RefValue

open Cert.ReferenceIdeal Cert.ReferenceIdeal.Gen Idealize.ShloMosaic Idealize.ShloMosaic.TcCoe Idealize.SL.Sem Idealize.ShloMosaic.ValueIdx

open Cert.ReferenceIdeal.Read

/-! ## The reference's stages read at an index given by its coordinates -/

/-- The row norms: the reference's sum of squares over the 128 features, from the zero word, is the specification's. -/
theorem v1_at (x : (⟨S8192x128, .f32⟩ : BufTy).Contents (Elt Ideal)) (a : Fin 8192) :
    val_main_v1 (F := Ideal) x (ix1 a) = Spec.sqn x a := by
  rw [val_main_v1_apply]
  simp only [val_main_cst_apply, val_main_v0_apply]
  have e : ∀ k : Fin 128, idx_main_v1 (ix1 a) k = ix2 a k := fun k => by
    funext d; match d with | ⟨0, _⟩ => rfl | ⟨1, _⟩ => rfl
  simp only [e]
  show Ideal.ofBits .f32 0x00000000#32 + _ = _
  rw [Ideal.ofBits_zero_f32, zero_add]
  rfl

/-- The norms broadcast down the columns: entry (a, b) is row a's norm. -/
theorem v4_at (x : (⟨S8192x128, .f32⟩ : BufTy).Contents (Elt Ideal)) (a b : Fin 8192) :
    val_main_v4 (F := Ideal) x (ix2 a b) = Spec.sqn x a := by
  rw [val_main_v4_apply, val_main_v2_apply]
  have e : idx_main_v2 (idx_main_v4 (ix2 a b)) = ix1 a := by
    funext d; match d with | ⟨0, _⟩ => rfl
  rw [e, v1_at]

/-- The norms broadcast along the rows: entry (a, b) is row b's norm. -/
theorem v5_at (x : (⟨S8192x128, .f32⟩ : BufTy).Contents (Elt Ideal)) (a b : Fin 8192) :
    val_main_v5 (F := Ideal) x (ix2 a b) = Spec.sqn x b := by
  rw [val_main_v5_apply, val_main_v3_apply]
  have e : idx_main_v3 (idx_main_v5 (ix2 a b)) = ix1 b := by
    funext d; match d with | ⟨0, _⟩ => rfl
  rw [e, v1_at]

/-- The Gram entry (a, b): the product of the matrix with its transpose is the inner product of rows a and b. -/
theorem v8_at (x : (⟨S8192x128, .f32⟩ : BufTy).Contents (Elt Ideal)) (a b : Fin 8192) :
    val_main_v8 (F := Ideal) x (ix2 a b) = Spec.gram x a b := by
  rw [val_main_v8_apply]
  simp only [val_main_v7_apply]
  have el : ∀ k : Fin 128, lidx_main_v8 (ix2 a b) k = ix2 a k := fun k => by
    funext d; match d with | ⟨0, _⟩ => rfl | ⟨1, _⟩ => rfl
  have er : ∀ k : Fin 128, idx_main_v7 (ridx_main_v8 (ix2 a b) k) = ix2 b k := fun k => by
    funext d; match d with | ⟨0, _⟩ => rfl | ⟨1, _⟩ => rfl
  simp only [el, er]
  rfl

/-- The clamped squared distance at (a, b). -/
theorem v13_at (x : (⟨S8192x128, .f32⟩ : BufTy).Contents (Elt Ideal)) (a b : Fin 8192) :
    val_main_v13 (F := Ideal) x (ix2 a b)
      = FloatOps.maximumf (FloatOps.subf (FloatOps.addf (Spec.sqn x a) (Spec.sqn x b))
          (FloatOps.mulf (FloatOps.ofBits .f32 0x40000000#32) (Spec.gram x a b))) (FloatOps.ofBits .f32 0x00000000#32) := by
  rw [val_main_v13_apply, val_main_v11_apply, val_main_v6_apply, val_main_v10_apply, val_main_v12_apply,
    val_main_cst_1_apply, val_main_v9_apply, val_main_cst_0_apply, v4_at, v5_at, v8_at]

/-- The distance at (a, b): the guarded square root of the clamped squared distance. -/
theorem v20_at (x : (⟨S8192x128, .f32⟩ : BufTy).Contents (Elt Ideal)) (a b : Fin 8192) :
    val_main_v20 (F := Ideal) x (ix2 a b) = Spec.dist x a b := by
  rw [val_main_v20_apply, val_main_v19_apply, val_main_v17_apply, val_main_v16_apply, val_main_v15_apply,
    val_main_v18_apply, val_main_cst_4_apply, val_main_v14_apply, val_main_cst_2_apply, val_main_call0_v1_apply,
    val_main_call0_v0_apply, val_main_cst_3_apply, val_main_call1_v1_apply, val_main_call1_v0_apply,
    val_main_cst_5_apply, v13_at]
  rfl

/-- The label comparison at (a, b). -/
theorem v25_at (tg : (⟨S8192, .i32⟩ : BufTy).Contents (Elt Ideal)) (a b : Fin 8192) :
    val_main_v25 (F := Ideal) tg (ix2 a b) = IntOp.cmpi .eq (Spec.at1 tg a) (Spec.at1 tg b) := by
  rw [val_main_v25_apply, val_main_v23_apply, val_main_v21_apply, val_main_v24_apply, val_main_v22_apply]
  have e1 : idx_main_v21 (idx_main_v23 (ix2 a b)) = ix1 a := by
    funext d; match d with | ⟨0, _⟩ => rfl
  have e2 : idx_main_v22 (idx_main_v24 (ix2 a b)) = ix1 b := by
    funext d; match d with | ⟨0, _⟩ => rfl
  rw [e1, e2]

/-- The positive candidate at (a, b). -/
theorem v26_at (x : (⟨S8192x128, .f32⟩ : BufTy).Contents (Elt Ideal)) (tg : (⟨S8192, .i32⟩ : BufTy).Contents (Elt Ideal))
    (a b : Fin 8192) : val_main_v26 (F := Ideal) x tg (ix2 a b) = Spec.posCand x tg a b := by
  rw [val_main_v26_apply, v25_at, v20_at, val_main_call2_v0_apply, val_main_cst_6_apply]
  rfl

/-- The negative candidate at (a, b). -/
theorem v28_at (x : (⟨S8192x128, .f32⟩ : BufTy).Contents (Elt Ideal)) (tg : (⟨S8192, .i32⟩ : BufTy).Contents (Elt Ideal))
    (a b : Fin 8192) : val_main_v28 (F := Ideal) x tg (ix2 a b) = Spec.negCand x tg a b := by
  rw [val_main_v28_apply, v25_at, v20_at, val_main_call3_v0_apply, val_main_cst_8_apply]
  rfl

/-! ## The two reductions over the columns -/

/-- Reducing axis 1 of an [8192, 8192] array into [8192]. -/
theorem red_h : S8192x8192.Reduces [1] S8192 := by decide

/-- The source index over row index i with column k is (i, k). -/
theorem lift_eq (i : S8192.Idx) (k : Fin 8192) : red_h.lift i k = ix2 (n0 := 8192) (n1 := 8192) (i 0) k := by
  funext d; apply Fin.ext; match d with | ⟨0, _⟩ => rfl | ⟨1, _⟩ => rfl

/-- The reference's maximum over the columns is the specification's hardest positive. -/
theorem v27_eq (x : (⟨S8192x128, .f32⟩ : BufTy).Contents (Elt Ideal)) (tg : (⟨S8192, .i32⟩ : BufTy).Contents (Elt Ideal)) :
    val_main_v27 (F := Ideal) x tg = Spec.dpos x tg := by
  funext i
  unfold val_main_v27
  refine (Host.reduce_eq_fold_single FloatOps.maximumf _ _ reducesTo_S8192x8192_S8192_d1 red_h h_S_ i).trans ?_
  show (Finset.univ : Finset (Fin 8192)).fold max (FloatOps.ofBits .f32 0xFF800000#32 : Ideal .f32)
      (fun k : Fin 8192 => val_main_v26 (F := Ideal) x tg (red_h.lift i k))
    = (Finset.univ : Finset (Fin 8192)).fold max (FloatOps.ofBits .f32 0xFF800000#32 : Ideal .f32) (Spec.posCand x tg (i 0))
  refine Finset.fold_congr fun k _ => ?_
  exact (congrArg (val_main_v26 (F := Ideal) x tg) (lift_eq i k)).trans (v26_at x tg (i 0) k)

/-- The reference's minimum over the columns is the specification's hardest negative. -/
theorem v29_eq (x : (⟨S8192x128, .f32⟩ : BufTy).Contents (Elt Ideal)) (tg : (⟨S8192, .i32⟩ : BufTy).Contents (Elt Ideal)) :
    val_main_v29 (F := Ideal) x tg = Spec.dneg x tg := by
  funext i
  unfold val_main_v29
  refine (Host.reduce_eq_fold_single FloatOps.minimumf _ _ reducesTo_S8192x8192_S8192_d1 red_h h_S_ i).trans ?_
  show (Finset.univ : Finset (Fin 8192)).fold min (FloatOps.ofBits .f32 0x7F800000#32 : Ideal .f32)
      (fun k : Fin 8192 => val_main_v28 (F := Ideal) x tg (red_h.lift i k))
    = (Finset.univ : Finset (Fin 8192)).fold min (FloatOps.ofBits .f32 0x7F800000#32 : Ideal .f32) (Spec.negCand x tg (i 0))
  refine Finset.fold_congr fun k _ => ?_
  exact (congrArg (val_main_v28 (F := Ideal) x tg) (lift_eq i k)).trans (v28_at x tg (i 0) k)

/-! ## The last lines, and the result -/

/-- The reference's last stage is the specification's common tail, of the two reduced vectors. -/
theorem v36_eq (x : (⟨S8192x128, .f32⟩ : BufTy).Contents (Elt Ideal)) (tg : (⟨S8192, .i32⟩ : BufTy).Contents (Elt Ideal)) :
    val_main_v36 (F := Ideal) x tg = Spec.lossOf (val_main_v27 (F := Ideal) x tg) (val_main_v29 (F := Ideal) x tg) := by
  unfold val_main_v36 val_main_v35 val_main_v34 val_main_v32 val_main_v30 val_main_v33 val_main_v31 val_main_cst_10
    val_main_cst_11 val_main_cst_12 val_main_cst_13 Spec.lossOf
  rfl

/-- The reference's composed result term at the ideal instance is the loss of the specification, of the launch
    contents of its two arguments. -/
theorem result_eq (m : (ℓ : Loc nD τ sig) → Buf (Elt Ideal) ℓ) (c : Dev nD) :
    Cert.ReferenceIdeal.Value.res_out0 (F := Ideal) m c
      = Cert.Spec.loss (m ((c.tc : Thread nD τ).loc main_arg0)) (m ((c.tc : Thread nD τ).loc main_arg1)) := by
  show Cert.ReferenceIdeal.Value.res_main_v36 (F := Ideal) m c = _
  rw [val_main_v36_eq, v36_eq, v27_eq, v29_eq]
  rfl

end Cert.ReferenceIdeal.RefValue

end
-- ==== Proof.KI.Setup.lean ====
/-
  What the hand frame of the idealized kernel program shares: the buffers' contents when the region is entered
  (the two reshapes of the labels have run), each window's block of its array at a grid point, the two branch
  conditions of the body decided over the grid (the accumulators are reset where the column-block coordinate is 0
  and copied to the outputs where it is 7), where the output windows are idle, and the memrefs the body is called on.
-/
import proofs.«152201_j11381663334709_1_alg».proof.Proof.Gen.KernelIdeal.Launch
import proofs.«152201_j11381663334709_1_alg».proof.Proof.Gen.KernelIdeal.Skeleton
import proofs.«152201_j11381663334709_1_alg».proof.Proof.Gen.KernelIdeal.Points
import Idealize.ShloMosaic.Lib.Pipeline.FrameBody
import Idealize.ShloMosaic.Lib.Pipeline.Regions
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the region is entered -/

/-- Core `c`'s buffers at launch, as a valuation. -/
abbrev V₀ (c : Dev nD) : Valuation τ sig (Elt F) := fun b => m (c, b)
/-- Core `c`'s buffers when the region is entered: the two reshapes of the label vector have run. -/
abbrev V0 (c : Dev nD) : Valuation τ sig (Elt F) := StableHlo.after hostOps0 (V₀ m c)
/-- The same read at a TensorCore reference. -/
abbrev V (c : Dev nD) (b : Ref sig .tc) : Buf (Elt F) ((c : Thread nD τ).loc b) := V0 m c (Proc.devRef .tc b)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's two branch conditions -/

/-- The accumulators are reset: the column-block coordinate is 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- The accumulators are copied to the outputs: the column-block coordinate is 7. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Where the accumulators are not copied out the output windows are idle and not written back. -/
theorem idleAt0_4 : ∀ t : Fin cfg0.N, ¬cond0_1 (grid0.coords t) → cfg0.idle 4 (grid0.coords t) = true := by decide +kernel
theorem idleAt0_5 : ∀ t : Fin cfg0.N, ¬cond0_1 (grid0.coords t) → cfg0.idle 5 (grid0.coords t) = true := by decide +kernel
theorem noFlush0_4 : ∀ t : Fin cfg0.N, ¬cond0_1 (grid0.coords t) → (cfg0.win 4).flush t = false := by decide +kernel
theorem noFlush0_5 : ∀ t : Fin cfg0.N, ¬cond0_1 (grid0.coords t) → (cfg0.win 5).flush t = false := by decide +kernel
theorem liveAt0_4 : ∀ t : Fin cfg0.N, cond0_1 (grid0.coords t) → cfg0.idle 4 (grid0.coords t) = false := by decide +kernel
theorem liveAt0_5 : ∀ t : Fin cfg0.N, cond0_1 (grid0.coords t) → cfg0.idle 5 (grid0.coords t) = false := by decide +kernel

/-! ## The memrefs the body is called on -/

abbrev ms0_0 (t : Fin cfg0.N) : Memref sig .tc .vmem S1024x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x1 .f32 := win0_5.stage (cfg0.slots t 5)
abbrev hs0_5 (t : Fin cfg0.N) : (ms0_5 t).IsWhole := hstage0_5 ((cfg0.slots t 5).cast nbuf0_5)
/-- The running maximum and the running minimum live in the two scratch buffers. -/
abbrev scM0_0 : Memref sig .tc .vmem S1024x1 .f32 := Memref.whole cc0_scratch0
abbrev scM0_1 : Memref sig .tc .vmem S1024x1 .f32 := Memref.whole cc0_scratch1
/-- Views through which the contents of a [1024, 1] buffer are stated. -/
abbrev VS0_0 : View sig .tc .vmem S1024x1 .f32 := scM0_0.view
abbrev VS0_1 : View sig .tc .vmem S1024x1 .f32 := scM0_1.view
abbrev VO0_4 : View sig .tc .vmem S1024x1 .f32 := (Memref.whole cc0_stg4_0 : Memref sig .tc .vmem S1024x1 .f32).view
abbrev VO0_5 : View sig .tc .vmem S1024x1 .f32 := (Memref.whole cc0_stg5_0 : Memref sig .tc .vmem S1024x1 .f32).view

/-- The scoped buffers that are no staging buffer are the two scratch buffers, as memrefs owned at some contents. -/
theorem scopedRest0_owns (c : Dev nD) :
    (Pipeline.scopedRest (Ix := Unit) (Name := ℕ) (U := UR sig nD τ) (Lvl := ℕ) (Val := Elt F) spec0 c : sProp 𝕄)
      = iprop((∃ d, owns (c : Thread nD τ) scM0_0 fullShare d) ∗ (∃ d, owns (c : Thread nD τ) scM0_1 fullShare d)) := by
  rw [scopedRest0_eq]; simp only [scM0_0, scM0_1, owns_whole]; try rfl

end Cert.KernelIdeal.Hand

end
-- ==== Proof.KI.RunB.lean ====
/-
  The body of the kernel at a point where the column-block coordinate is neither 0 nor 7: the accumulators are
  neither reset nor copied out. On whole memrefs, the four input blocks at their contents, the two output buffers
  at anything (handed back untouched), the two scratch buffers at what the point before left, the body runs and
  leaves the scratch buffers with the pieces its stores wrote.
-/
import proofs.«152201_j11381663334709_1_alg».proof.Proof.KI.Setup

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the two scratch buffers in this case, with the body's triple. -/
noncomputable def kernelRun0_B (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : ¬cond0_1 i)
    (x0 : Vec F S1024x128 .f32) (x1 : Vec F S1024x128 .f32) (x2 : Vec F S1024x1 .i32) (x3 : Vec F S1x1024 .i32)
    (xs0 : Vec F S1024x1 .f32) (xs1 : Vec F S1024x1 .f32) :
    Σ' (LS0 : List (View.Piece (Elt F) S1024x1 .f32)), { LS1 : List (View.Piece (Elt F) S1024x1 .f32) //
      ∀ (xi4 xi5 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi4 ∗ owns (c : Thread nD τ) arg7 fullShare xi5
            ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3
                ∗ owns (c : Thread nD τ) arg6 fullShare xi4 ∗ owns (c : Thread nD τ) arg7 fullShare xi5
                ∗ (∃ f, arg8.view.loc (c : Thread nD τ) ↦[arg8.view.set]{fullShare} arg8.view.writes (Elt F) f LS0)
                ∗ (∃ f, arg9.view.loc (c : Thread nD τ) ↦[arg9.view.set]{fullShare} arg9.view.writes (Elt F) f LS1)) -∗ K ⟨⟩))
          ⊢ wp frame (wpE (defs₀ (F := F)) Variants.none c none) E (cc0__mining_kernel i arg2 harg2 arg3 harg3 arg4 harg4 arg5 harg5 arg6 harg6 arg7 harg7 arg8 harg8 arg9 harg9) K } := by
  refine ⟨?_, ?_, fun xi4 xi5 E K => ?run⟩
  case run =>
    simp only [cc0__mining_kernel_eq_skeleton]; unfold cc0__mining_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5; obtain rfl := harg8.eq_unread hfs0; obtain rfl := harg9.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]
    · iexists _; iexact HS0
    iexists _; iexact HS1

end Cert.KernelIdeal.Hand

end
-- ==== Proof.KI.RunA.lean ====
/-
  The body of the kernel at a point where the column-block coordinate is 0: the accumulators are reset (to -∞ and
  +∞) and then updated with this block's row maxima and minima; nothing is copied out. On whole memrefs, the four
  input blocks at their contents, the two output buffers at anything (handed back untouched), the two scratch
  buffers at anything, the body runs and leaves the scratch buffers with the pieces its stores wrote.
-/
import proofs.«152201_j11381663334709_1_alg».proof.Proof.KI.RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the two scratch buffers in this case, with the body's triple. -/
noncomputable def kernelRun0_A (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond0_0 i) (hc1 : ¬cond0_1 i)
    (x0 : Vec F S1024x128 .f32) (x1 : Vec F S1024x128 .f32) (x2 : Vec F S1024x1 .i32) (x3 : Vec F S1x1024 .i32) :
    Σ' (LS0 : List (View.Piece (Elt F) S1024x1 .f32)), { LS1 : List (View.Piece (Elt F) S1024x1 .f32) //
      ∀ (xi4 xi5 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi4 ∗ owns (c : Thread nD τ) arg7 fullShare xi5
            ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3
                ∗ owns (c : Thread nD τ) arg6 fullShare xi4 ∗ owns (c : Thread nD τ) arg7 fullShare xi5
                ∗ (∃ f, arg8.view.loc (c : Thread nD τ) ↦[arg8.view.set]{fullShare} arg8.view.writes (Elt F) f LS0)
                ∗ (∃ f, arg9.view.loc (c : Thread nD τ) ↦[arg9.view.set]{fullShare} arg9.view.writes (Elt F) f LS1)) -∗ K ⟨⟩))
          ⊢ wp frame (wpE (defs₀ (F := F)) Variants.none c none) E (cc0__mining_kernel i arg2 harg2 arg3 harg3 arg4 harg4 arg5 harg5 arg6 harg6 arg7 harg7 arg8 harg8 arg9 harg9) K } := by
  refine ⟨?_, ?_, fun xi4 xi5 E K => ?run⟩
  case run =>
    simp only [cc0__mining_kernel_eq_skeleton]; unfold cc0__mining_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]
    · iexists _; iexact HS0
    iexists _; iexact HS1

end Cert.KernelIdeal.Hand

end
-- ==== Proof.KI.RunC.lean ====
/-
  The body of the kernel at a point where the column-block coordinate is 7: the accumulators are updated with this
  block's row maxima and minima and then copied to the two output buffers. On whole memrefs, the four input blocks
  at their contents, the two output buffers at anything, the two scratch buffers at what the point before left,
  the body runs and leaves the scratch buffers and the output buffers with the pieces its stores wrote.
-/
import proofs.«152201_j11381663334709_1_alg».proof.Proof.KI.RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the two output buffers and the two scratch buffers in this case, with the
    body's triple. -/
noncomputable def kernelRun0_C (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i)
    (x0 : Vec F S1024x128 .f32) (x1 : Vec F S1024x128 .f32) (x2 : Vec F S1024x1 .i32) (x3 : Vec F S1x1024 .i32)
    (xs0 : Vec F S1024x1 .f32) (xs1 : Vec F S1024x1 .f32) :
    Σ' (L4 : List (View.Piece (Elt F) S1024x1 .f32)) (L5 : List (View.Piece (Elt F) S1024x1 .f32)) (LS0 : List (View.Piece (Elt F) S1024x1 .f32)), { LS1 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ (∃ d, owns (c : Thread nD τ) arg7 fullShare d)
            ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f L5)
                ∗ (∃ f, arg8.view.loc (c : Thread nD τ) ↦[arg8.view.set]{fullShare} arg8.view.writes (Elt F) f LS0)
                ∗ (∃ f, arg9.view.loc (c : Thread nD τ) ↦[arg9.view.set]{fullShare} arg9.view.writes (Elt F) f LS1)) -∗ K ⟨⟩))
          ⊢ wp frame (wpE (defs₀ (F := F)) Variants.none c none) E (cc0__mining_kernel i arg2 harg2 arg3 harg3 arg4 harg4 arg5 harg5 arg6 harg6 arg7 harg7 arg8 harg8 arg9 harg9) K } := by
  refine ⟨?_, ?_, ?_, ?_, fun E K => ?run⟩
  case run =>
    simp only [cc0__mining_kernel_eq_skeleton]; unfold cc0__mining_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3
    obtain rfl := harg8.eq_unread hfs0; obtain rfl := harg9.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    isplitl [H5]
    · iexists _; iexact H5
    isplitl [HS0]
    · iexists _; iexact HS0
    iexists _; iexact HS1

end Cert.KernelIdeal.Hand

end
-- ==== Proof.KI.Data.lean ====
/-
  The proof data of the kernel's pipeline and its body obligation.

  What the two scratch buffers hold after each grid point (the running row maxima of the same-label distances and
  the running row minima of the other-label distances over the column blocks met so far in the current row block)
  is defined by recursion on the point: where the column-block coordinate is 0 the body's stores start from the
  reset values, elsewhere from what the point before left. Where the column-block coordinate is 7 the two output
  buffers receive the accumulators; elsewhere the output windows are idle. The region invariant after a point is
  the two scratch buffers at those contents; the body obligation is, point by point, the body's run in the
  point's case.
-/
import proofs.«152201_j11381663334709_1_alg».proof.Proof.KI.RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case's stores leave -/

/-- The pieces the reset case leaves in the running-maximum buffer cover the buffer (one whole-buffer store last). -/
theorem scover0_A_0 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond0_0 i) (hc1 : ¬cond0_1 i) (x0 : Vec F S1024x128 .f32) (x1 : Vec F S1024x128 .f32) (x2 : Vec F S1024x1 .i32) (x3 : Vec F S1x1024 .i32)  (y : S1024x1.Idx) :
    ∃ pc ∈ (kernelRun0_A c i arg2 harg2 arg3 harg3 arg4 harg4 arg5 harg5 arg6 harg6 arg7 harg7 arg8 harg8 arg9 harg9 hc0 hc1 x0 x1 x2 x3).1, y ∈ pc.1.set :=
  View.cover_of_tiledL (kernelRun0_A c i arg2 harg2 arg3 harg3 arg4 harg4 arg5 harg5 arg6 harg6 arg7 harg7 arg8 harg8 arg9 harg9 hc0 hc1 x0 x1 x2 x3).1 S1024x1.size (by sl_kernel_rfl) y

/-- The pieces the reset case leaves in the running-maximum buffer read back. -/
def sout0_A_0 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond0_0 i) (hc1 : ¬cond0_1 i) (x0 : Vec F S1024x128 .f32) (x1 : Vec F S1024x128 .f32) (x2 : Vec F S1024x1 .i32) (x3 : Vec F S1x1024 .i32)  : Vec F S1024x1 .f32 :=
  VS0_0.read (Elt F) (VS0_0.writes (Elt F) VS0_0.junk (kernelRun0_A c i arg2 harg2 arg3 harg3 arg4 harg4 arg5 harg5 arg6 harg6 arg7 harg7 arg8 harg8 arg9 harg9 hc0 hc1 x0 x1 x2 x3).1)

/-- The pieces the reset case leaves in the running-minimum buffer cover the buffer (one whole-buffer store last). -/
theorem scover0_A_1 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond0_0 i) (hc1 : ¬cond0_1 i) (x0 : Vec F S1024x128 .f32) (x1 : Vec F S1024x128 .f32) (x2 : Vec F S1024x1 .i32) (x3 : Vec F S1x1024 .i32)  (y : S1024x1.Idx) :
    ∃ pc ∈ (kernelRun0_A c i arg2 harg2 arg3 harg3 arg4 harg4 arg5 harg5 arg6 harg6 arg7 harg7 arg8 harg8 arg9 harg9 hc0 hc1 x0 x1 x2 x3).2.1, y ∈ pc.1.set :=
  View.cover_of_tiledL (kernelRun0_A c i arg2 harg2 arg3 harg3 arg4 harg4 arg5 harg5 arg6 harg6 arg7 harg7 arg8 harg8 arg9 harg9 hc0 hc1 x0 x1 x2 x3).2.1 S1024x1.size (by sl_kernel_rfl) y

/-- The pieces the reset case leaves in the running-minimum buffer read back. -/
def sout0_A_1 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond0_0 i) (hc1 : ¬cond0_1 i) (x0 : Vec F S1024x128 .f32) (x1 : Vec F S1024x128 .f32) (x2 : Vec F S1024x1 .i32) (x3 : Vec F S1x1024 .i32)  : Vec F S1024x1 .f32 :=
  VS0_1.read (Elt F) (VS0_1.writes (Elt F) VS0_1.junk (kernelRun0_A c i arg2 harg2 arg3 harg3 arg4 harg4 arg5 harg5 arg6 harg6 arg7 harg7 arg8 harg8 arg9 harg9 hc0 hc1 x0 x1 x2 x3).2.1)

/-- The pieces the middle case leaves in the running-maximum buffer cover the buffer (one whole-buffer store last). -/
theorem scover0_B_0 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : ¬cond0_1 i) (x0 : Vec F S1024x128 .f32) (x1 : Vec F S1024x128 .f32) (x2 : Vec F S1024x1 .i32) (x3 : Vec F S1x1024 .i32) (xs0 : Vec F S1024x1 .f32) (xs1 : Vec F S1024x1 .f32) (y : S1024x1.Idx) :
    ∃ pc ∈ (kernelRun0_B c i arg2 harg2 arg3 harg3 arg4 harg4 arg5 harg5 arg6 harg6 arg7 harg7 arg8 harg8 arg9 harg9 hc0 hc1 x0 x1 x2 x3 xs0 xs1).1, y ∈ pc.1.set :=
  View.cover_of_tiledL (kernelRun0_B c i arg2 harg2 arg3 harg3 arg4 harg4 arg5 harg5 arg6 harg6 arg7 harg7 arg8 harg8 arg9 harg9 hc0 hc1 x0 x1 x2 x3 xs0 xs1).1 S1024x1.size (by sl_kernel_rfl) y

/-- The pieces the middle case leaves in the running-maximum buffer read back. -/
def sout0_B_0 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : ¬cond0_1 i) (x0 : Vec F S1024x128 .f32) (x1 : Vec F S1024x128 .f32) (x2 : Vec F S1024x1 .i32) (x3 : Vec F S1x1024 .i32) (xs0 : Vec F S1024x1 .f32) (xs1 : Vec F S1024x1 .f32) : Vec F S1024x1 .f32 :=
  VS0_0.read (Elt F) (VS0_0.writes (Elt F) VS0_0.junk (kernelRun0_B c i arg2 harg2 arg3 harg3 arg4 harg4 arg5 harg5 arg6 harg6 arg7 harg7 arg8 harg8 arg9 harg9 hc0 hc1 x0 x1 x2 x3 xs0 xs1).1)

/-- The pieces the middle case leaves in the running-minimum buffer cover the buffer (one whole-buffer store last). -/
theorem scover0_B_1 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : ¬cond0_1 i) (x0 : Vec F S1024x128 .f32) (x1 : Vec F S1024x128 .f32) (x2 : Vec F S1024x1 .i32) (x3 : Vec F S1x1024 .i32) (xs0 : Vec F S1024x1 .f32) (xs1 : Vec F S1024x1 .f32) (y : S1024x1.Idx) :
    ∃ pc ∈ (kernelRun0_B c i arg2 harg2 arg3 harg3 arg4 harg4 arg5 harg5 arg6 harg6 arg7 harg7 arg8 harg8 arg9 harg9 hc0 hc1 x0 x1 x2 x3 xs0 xs1).2.1, y ∈ pc.1.set :=
  View.cover_of_tiledL (kernelRun0_B c i arg2 harg2 arg3 harg3 arg4 harg4 arg5 harg5 arg6 harg6 arg7 harg7 arg8 harg8 arg9 harg9 hc0 hc1 x0 x1 x2 x3 xs0 xs1).2.1 S1024x1.size (by sl_kernel_rfl) y

/-- The pieces the middle case leaves in the running-minimum buffer read back. -/
def sout0_B_1 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : ¬cond0_1 i) (x0 : Vec F S1024x128 .f32) (x1 : Vec F S1024x128 .f32) (x2 : Vec F S1024x1 .i32) (x3 : Vec F S1x1024 .i32) (xs0 : Vec F S1024x1 .f32) (xs1 : Vec F S1024x1 .f32) : Vec F S1024x1 .f32 :=
  VS0_1.read (Elt F) (VS0_1.writes (Elt F) VS0_1.junk (kernelRun0_B c i arg2 harg2 arg3 harg3 arg4 harg4 arg5 harg5 arg6 harg6 arg7 harg7 arg8 harg8 arg9 harg9 hc0 hc1 x0 x1 x2 x3 xs0 xs1).2.1)

/-- The pieces the last-column-block case leaves in the first output buffer cover the buffer (one whole-buffer store last). -/
theorem cover0_C_4 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i) (x0 : Vec F S1024x128 .f32) (x1 : Vec F S1024x128 .f32) (x2 : Vec F S1024x1 .i32) (x3 : Vec F S1x1024 .i32) (xs0 : Vec F S1024x1 .f32) (xs1 : Vec F S1024x1 .f32) (y : S1024x1.Idx) :
    ∃ pc ∈ (kernelRun0_C c i arg2 harg2 arg3 harg3 arg4 harg4 arg5 harg5 arg6 harg6 arg7 harg7 arg8 harg8 arg9 harg9 hc0 hc1 x0 x1 x2 x3 xs0 xs1).1, y ∈ pc.1.set :=
  View.cover_of_tiledL (kernelRun0_C c i arg2 harg2 arg3 harg3 arg4 harg4 arg5 harg5 arg6 harg6 arg7 harg7 arg8 harg8 arg9 harg9 hc0 hc1 x0 x1 x2 x3 xs0 xs1).1 S1024x1.size (by sl_kernel_rfl) y

/-- The pieces the last-column-block case leaves in the first output buffer read back. -/
def out0_C_4 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i) (x0 : Vec F S1024x128 .f32) (x1 : Vec F S1024x128 .f32) (x2 : Vec F S1024x1 .i32) (x3 : Vec F S1x1024 .i32) (xs0 : Vec F S1024x1 .f32) (xs1 : Vec F S1024x1 .f32) : Vec F S1024x1 .f32 :=
  VO0_4.read (Elt F) (VO0_4.writes (Elt F) VO0_4.junk (kernelRun0_C c i arg2 harg2 arg3 harg3 arg4 harg4 arg5 harg5 arg6 harg6 arg7 harg7 arg8 harg8 arg9 harg9 hc0 hc1 x0 x1 x2 x3 xs0 xs1).1)

/-- The pieces the last-column-block case leaves in the second output buffer cover the buffer (one whole-buffer store last). -/
theorem cover0_C_5 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i) (x0 : Vec F S1024x128 .f32) (x1 : Vec F S1024x128 .f32) (x2 : Vec F S1024x1 .i32) (x3 : Vec F S1x1024 .i32) (xs0 : Vec F S1024x1 .f32) (xs1 : Vec F S1024x1 .f32) (y : S1024x1.Idx) :
    ∃ pc ∈ (kernelRun0_C c i arg2 harg2 arg3 harg3 arg4 harg4 arg5 harg5 arg6 harg6 arg7 harg7 arg8 harg8 arg9 harg9 hc0 hc1 x0 x1 x2 x3 xs0 xs1).2.1, y ∈ pc.1.set :=
  View.cover_of_tiledL (kernelRun0_C c i arg2 harg2 arg3 harg3 arg4 harg4 arg5 harg5 arg6 harg6 arg7 harg7 arg8 harg8 arg9 harg9 hc0 hc1 x0 x1 x2 x3 xs0 xs1).2.1 S1024x1.size (by sl_kernel_rfl) y

/-- The pieces the last-column-block case leaves in the second output buffer read back. -/
def out0_C_5 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i) (x0 : Vec F S1024x128 .f32) (x1 : Vec F S1024x128 .f32) (x2 : Vec F S1024x1 .i32) (x3 : Vec F S1x1024 .i32) (xs0 : Vec F S1024x1 .f32) (xs1 : Vec F S1024x1 .f32) : Vec F S1024x1 .f32 :=
  VO0_5.read (Elt F) (VO0_5.writes (Elt F) VO0_5.junk (kernelRun0_C c i arg2 harg2 arg3 harg3 arg4 harg4 arg5 harg5 arg6 harg6 arg7 harg7 arg8 harg8 arg9 harg9 hc0 hc1 x0 x1 x2 x3 xs0 xs1).2.1)

/-- The pieces the last-column-block case leaves in the running-maximum buffer cover the buffer (one whole-buffer store last). -/
theorem scover0_C_0 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i) (x0 : Vec F S1024x128 .f32) (x1 : Vec F S1024x128 .f32) (x2 : Vec F S1024x1 .i32) (x3 : Vec F S1x1024 .i32) (xs0 : Vec F S1024x1 .f32) (xs1 : Vec F S1024x1 .f32) (y : S1024x1.Idx) :
    ∃ pc ∈ (kernelRun0_C c i arg2 harg2 arg3 harg3 arg4 harg4 arg5 harg5 arg6 harg6 arg7 harg7 arg8 harg8 arg9 harg9 hc0 hc1 x0 x1 x2 x3 xs0 xs1).2.2.1, y ∈ pc.1.set :=
  View.cover_of_tiledL (kernelRun0_C c i arg2 harg2 arg3 harg3 arg4 harg4 arg5 harg5 arg6 harg6 arg7 harg7 arg8 harg8 arg9 harg9 hc0 hc1 x0 x1 x2 x3 xs0 xs1).2.2.1 S1024x1.size (by sl_kernel_rfl) y

/-- The pieces the last-column-block case leaves in the running-maximum buffer read back. -/
def sout0_C_0 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i) (x0 : Vec F S1024x128 .f32) (x1 : Vec F S1024x128 .f32) (x2 : Vec F S1024x1 .i32) (x3 : Vec F S1x1024 .i32) (xs0 : Vec F S1024x1 .f32) (xs1 : Vec F S1024x1 .f32) : Vec F S1024x1 .f32 :=
  VS0_0.read (Elt F) (VS0_0.writes (Elt F) VS0_0.junk (kernelRun0_C c i arg2 harg2 arg3 harg3 arg4 harg4 arg5 harg5 arg6 harg6 arg7 harg7 arg8 harg8 arg9 harg9 hc0 hc1 x0 x1 x2 x3 xs0 xs1).2.2.1)

/-- The pieces the last-column-block case leaves in the running-minimum buffer cover the buffer (one whole-buffer store last). -/
theorem scover0_C_1 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i) (x0 : Vec F S1024x128 .f32) (x1 : Vec F S1024x128 .f32) (x2 : Vec F S1024x1 .i32) (x3 : Vec F S1x1024 .i32) (xs0 : Vec F S1024x1 .f32) (xs1 : Vec F S1024x1 .f32) (y : S1024x1.Idx) :
    ∃ pc ∈ (kernelRun0_C c i arg2 harg2 arg3 harg3 arg4 harg4 arg5 harg5 arg6 harg6 arg7 harg7 arg8 harg8 arg9 harg9 hc0 hc1 x0 x1 x2 x3 xs0 xs1).2.2.2.1, y ∈ pc.1.set :=
  View.cover_of_tiledL (kernelRun0_C c i arg2 harg2 arg3 harg3 arg4 harg4 arg5 harg5 arg6 harg6 arg7 harg7 arg8 harg8 arg9 harg9 hc0 hc1 x0 x1 x2 x3 xs0 xs1).2.2.2.1 S1024x1.size (by sl_kernel_rfl) y

/-- The pieces the last-column-block case leaves in the running-minimum buffer read back. -/
def sout0_C_1 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i) (x0 : Vec F S1024x128 .f32) (x1 : Vec F S1024x128 .f32) (x2 : Vec F S1024x1 .i32) (x3 : Vec F S1x1024 .i32) (xs0 : Vec F S1024x1 .f32) (xs1 : Vec F S1024x1 .f32) : Vec F S1024x1 .f32 :=
  VS0_1.read (Elt F) (VS0_1.writes (Elt F) VS0_1.junk (kernelRun0_C c i arg2 harg2 arg3 harg3 arg4 harg4 arg5 harg5 arg6 harg6 arg7 harg7 arg8 harg8 arg9 harg9 hc0 hc1 x0 x1 x2 x3 xs0 xs1).2.2.2.1)

/-! ## What the buffers hold after each point -/

/-- After the body at position `n`: (first output buffer, second output buffer, running maximum, running minimum).
    The output components matter only where the column-block coordinate is 7 (elsewhere the windows are idle and
    the components are placeholders nothing consults). -/
def outsAt0 (c : Dev nD) : (n : ℕ) → n < cfg0.N → Vec F S1024x1 .f32 × Vec F S1024x1 .f32 × Vec F S1024x1 .f32 × Vec F S1024x1 .f32
  | 0, hn => (sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩))
  | n + 1, hn =>
    if h0 : (n + 1) % 8 = 0 then
      if h1 : (n + 1) % 8 = 7 then
        False.elim (by omega)
      else
        (sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩))
    else
      if h1 : (n + 1) % 8 = 7 then
        (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.1 (outsAt0 c n (Nat.lt_of_succ_lt hn)).2.2.2, out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.1 (outsAt0 c n (Nat.lt_of_succ_lt hn)).2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.1 (outsAt0 c n (Nat.lt_of_succ_lt hn)).2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.1 (outsAt0 c n (Nat.lt_of_succ_lt hn)).2.2.2)
      else
        (sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.1 (outsAt0 c n (Nat.lt_of_succ_lt hn)).2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.1 (outsAt0 c n (Nat.lt_of_succ_lt hn)).2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.1 (outsAt0 c n (Nat.lt_of_succ_lt hn)).2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.1 (outsAt0 c n (Nat.lt_of_succ_lt hn)).2.2.2)

theorem outsAt0_A (c : Dev nD) (t : Fin cfg0.N) (h0 : t.val % 8 = 0) (h1 : ¬t.val % 8 = 7) :
    outsAt0 m c t.val t.isLt = (sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t)) := by
  obtain ⟨n, hn⟩ := t
  cases n with
  | zero => exact rfl
  | succ n => exact (dif_pos h0).trans ((dif_neg h1).trans rfl)

theorem outsAt0_B (c : Dev nD) (t : Fin cfg0.N) (h0 : ¬t.val % 8 = 0) (h1 : ¬t.val % 8 = 7) :
    outsAt0 m c t.val t.isLt = (sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 8 = 0) (h1 : t.val % 8 = 7) :
    outsAt0 m c t.val t.isLt = (out0_C_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2, out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the two scratch buffers at anything;
    afterwards at what the point before left in them. -/
def PhiS (c : Dev nD) : (n : ℕ) → n ≤ cfg0.N → sProp 𝕄
  | 0, _ => Pipeline.scopedRest (Ix := Unit) (Name := ℕ) (U := UR sig nD τ) (Lvl := ℕ) (Val := Elt F) spec0 c
  | n + 1, hn => iprop(owns (c : Thread nD τ) scM0_0 fullShare ((outsAt0 m c n hn).2.2.1) ∗ owns (c : Thread nD τ) scM0_1 fullShare ((outsAt0 m c n hn).2.2.2))

theorem PhiS_zero (c : Dev nD) (n : ℕ) (h : n ≤ cfg0.N) (hz : n = 0) :
    PhiS m c n h = Pipeline.scopedRest (Ix := Unit) (Name := ℕ) (U := UR sig nD τ) (Lvl := ℕ) (Val := Elt F) spec0 c := by
  subst hz; rfl

theorem PhiS_succ (c : Dev nD) (n : ℕ) (hn : n < cfg0.N) :
    PhiS m c (n + 1) hn = iprop(owns (c : Thread nD τ) scM0_0 fullShare ((outsAt0 m c n hn).2.2.1) ∗ owns (c : Thread nD τ) scM0_1 fullShare ((outsAt0 m c n hn).2.2.2)) := rfl

theorem PhiS_pos (c : Dev nD) (n : ℕ) (h : n ≤ cfg0.N) (hz : n ≠ 0) :
    PhiS m c n h = iprop(owns (c : Thread nD τ) scM0_0 fullShare ((outsAt0 m c (n - 1) (by omega)).2.2.1) ∗ owns (c : Thread nD τ) scM0_1 fullShare ((outsAt0 m c (n - 1) (by omega)).2.2.2)) := by
  cases n with
  | zero => exact absurd rfl hz
  | succ n => rfl

/-! ## The pipeline's proof data -/

/-- The proof data on core `c`: the arrays as the region finds them; after the body at point `t` each input's
    buffer at its block, the outputs' at `outsAt0`'s first two components; the invariant `PhiS`; nothing owed;
    the feature matrix, which two windows read, held by each at one half of the full share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
    | ⟨5, _⟩ => (outsAt0 m c t.val t.isLt).2.1
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]
theorem after0_5 (c : Dev nD) (t : Fin cfg0.N) : (dats m 0 c).after 5 t = (outsAt0 m c t.val t.isLt).2.1 := by dsimp only [dats]

/-- Input window 0's current staging buffer holds its block at every point, fetched there or not. -/
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)

/-- Input window 1's current staging buffer holds its block at every point, fetched there or not. -/
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)

/-- Input window 2's current staging buffer holds its block at every point, fetched there or not. -/
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)

/-- Input window 3's current staging buffer holds its block at every point, fetched there or not. -/
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 4800000 in
/-- The body at any point: the inputs' buffers hold their blocks; the closed forms of the two conditions say which
    case the point is in; the invariant hands the body the scratch buffers at what the point before left (at
    anything at the first point) and takes them back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  by_cases h0 : t.val % 8 = 0
  · by_cases h1 : t.val % 8 = 7
    · exfalso; omega
    · rw [Dat.leavesExact_idle (dats m 0 c) 4 t (idleAt0_4 t (fun h => h1 ((hcond0_1 t).mp h))) (noFlush0_4 t (fun h => h1 ((hcond0_1 t).mp h)))]
      rw [Dat.leavesExact_idle (dats m 0 c) 5 t (idleAt0_5 t (fun h => h1 ((hcond0_1 t).mp h))) (noFlush0_5 t (fun h => h1 ((hcond0_1 t).mp h)))]
      rw [outsAt0_A m c t h0 h1]
      unfold sout0_A_0 sout0_A_1; (try dsimp only)
      by_cases hz : t.val = 0
      · rw [PhiS_castSucc m c t, PhiS_zero m c _ _ hz, scopedRest0_owns]
        iintro ⟨⟨HS0, HS1⟩, Ho, ⟨%d0, H0⟩, ⟨%d1, H1⟩, ⟨%d2, H2⟩, ⟨%d3, H3⟩, ⟨%d4, H4⟩, ⟨%d5, H5⟩⟩
        iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t)).2.2 _ _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        iintro ⟨H0, H1, H2, H3, H4, H5, ⟨%es0, HS0⟩, ⟨%es1, HS1⟩⟩
        isplitl [HS0 HS1]
        isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _)
        · unfold owns; iexists _; isplitr
          swap; · iexact HS1
          ipureintro; exact View.read_writes_of_cover _ _ _ _ _ (scover0_A_1 c _ _ _ _ _ _ _ _ _ _ _ _ _ _ _ _ _ _ _ _ _ _ _)
        isplitl [Ho]; · iexact Ho
        isplitl [H0]; · iexact H0
        isplitl [H1]; · iexact H1
        isplitl [H2]; · iexact H2
        isplitl [H3]; · iexact H3
        isplitl [H4]; · iexists _; iexact H4
        iexists _; iexact H5
      · rw [PhiS_castSucc m c t, PhiS_pos m c _ _ hz]
        iintro ⟨⟨HS0, HS1⟩, Ho, ⟨%d0, H0⟩, ⟨%d1, H1⟩, ⟨%d2, H2⟩, ⟨%d3, H3⟩, ⟨%d4, H4⟩, ⟨%d5, H5⟩⟩
        iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t)).2.2 _ _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        isplitl [HS1]; · iexists _; iexact HS1
        iintro ⟨H0, H1, H2, H3, H4, H5, ⟨%es0, HS0⟩, ⟨%es1, HS1⟩⟩
        isplitl [HS0 HS1]
        isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _)
        · unfold owns; iexists _; isplitr
          swap; · iexact HS1
          ipureintro; exact View.read_writes_of_cover _ _ _ _ _ (scover0_A_1 c _ _ _ _ _ _ _ _ _ _ _ _ _ _ _ _ _ _ _ _ _ _ _)
        isplitl [Ho]; · iexact Ho
        isplitl [H0]; · iexact H0
        isplitl [H1]; · iexact H1
        isplitl [H2]; · iexact H2
        isplitl [H3]; · iexact H3
        isplitl [H4]; · iexists _; iexact H4
        iexists _; iexact H5
  · have hz : t.val ≠ 0 := fun hz => h0 (by rw [hz])
    by_cases h1 : t.val % 8 = 7
    · rw [show (dats m 0 c).leavesExact 4 t = owns (c : Thread nD τ) (ms0_4 t) fullShare ((dats m 0 c).after 4 t) from by
        unfold Dat.leavesExact; rw [liveAt0_4 t ((hcond0_1 t).mpr h1)], after0_4]
      rw [show (dats m 0 c).leavesExact 5 t = owns (c : Thread nD τ) (ms0_5 t) fullShare ((dats m 0 c).after 5 t) from by
        unfold Dat.leavesExact; rw [liveAt0_5 t ((hcond0_1 t).mpr h1)], after0_5]
      rw [outsAt0_C m c t h0 h1]
      unfold out0_C_4 out0_C_5 sout0_C_0 sout0_C_1; (try dsimp only)
      rw [PhiS_castSucc m c t, PhiS_pos m c _ _ hz]
      iintro ⟨⟨HS0, HS1⟩, Ho, ⟨%d0, H0⟩, ⟨%d1, H1⟩, ⟨%d2, H2⟩, ⟨%d3, H3⟩, ⟨%d4, H4⟩, ⟨%d5, H5⟩⟩
      iapply ((kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) _ _).2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      isplitl [HS1]; · iexact HS1
      iintro ⟨H0, H1, H2, H3, ⟨%e4, H4⟩, ⟨%e5, H5⟩, ⟨%es0, HS0⟩, ⟨%es1, HS1⟩⟩
      isplitl [HS0 HS1]
      isplitl [HS0]
      · unfold owns; iexists _; isplitr
        swap; · iexact HS0
        ipureintro; exact View.read_writes_of_cover _ _ _ _ _ (scover0_C_0 c _ _ _ _ _ _ _ _ _ _ _ _ _ _ _ _ _ _ _ _ _ _ _ _ _)
      · unfold owns; iexists _; isplitr
        swap; · iexact HS1
        ipureintro; exact View.read_writes_of_cover _ _ _ _ _ (scover0_C_1 c _ _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover0_C_4 c _ _ _ _ _ _ _ _ _ _ _ _ _ _ _ _ _ _ _ _ _ _ _ _ _)
      · unfold owns; iexists _; isplitr
        swap; · iexact H5
        ipureintro; exact View.read_writes_of_cover _ _ _ _ _ (cover0_C_5 c _ _ _ _ _ _ _ _ _ _ _ _ _ _ _ _ _ _ _ _ _ _ _ _ _)
    · rw [Dat.leavesExact_idle (dats m 0 c) 4 t (idleAt0_4 t (fun h => h1 ((hcond0_1 t).mp h))) (noFlush0_4 t (fun h => h1 ((hcond0_1 t).mp h)))]
      rw [Dat.leavesExact_idle (dats m 0 c) 5 t (idleAt0_5 t (fun h => h1 ((hcond0_1 t).mp h))) (noFlush0_5 t (fun h => h1 ((hcond0_1 t).mp h)))]
      rw [outsAt0_B m c t h0 h1]
      unfold sout0_B_0 sout0_B_1; (try dsimp only)
      rw [PhiS_castSucc m c t, PhiS_pos m c _ _ hz]
      iintro ⟨⟨HS0, HS1⟩, Ho, ⟨%d0, H0⟩, ⟨%d1, H1⟩, ⟨%d2, H2⟩, ⟨%d3, H3⟩, ⟨%d4, H4⟩, ⟨%d5, H5⟩⟩
      iapply ((kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) _ _).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, ⟨%es0, HS0⟩, ⟨%es1, HS1⟩⟩
      isplitl [HS0 HS1]
      isplitl [HS0]
      · unfold owns; iexists _; isplitr
        swap; · iexact HS0
        ipureintro; exact View.read_writes_of_cover _ _ _ _ _ (scover0_B_0 c _ _ _ _ _ _ _ _ _ _ _ _ _ _ _ _ _ _ _ _ _ _ _ _ _)
      · unfold owns; iexists _; isplitr
        swap; · iexact HS1
        ipureintro; exact View.read_writes_of_cover _ _ _ _ _ (scover0_B_1 c _ _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexists _; iexact H4
      iexists _; iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-- Before the first point the invariant is the two scratch buffers at anything. -/
theorem Phi_zero (c : Dev nD) :
    (dats m 0 c).Φ 0 = Pipeline.scopedRest (Ix := Unit) (Name := ℕ) (U := UR sig nD τ) (Lvl := ℕ) (Val := Elt F) spec0 c := rfl

/-- After the last point the invariant gives the two scratch buffers back, their contents forgotten. -/
theorem Phi_last (c : Dev nD) :
    (dats m 0 c).Φ (Fin.last cfg0.N) ⊢ (Pipeline.scopedRest (Ix := Unit) (Name := ℕ) (U := UR sig nD τ) (Lvl := ℕ) (Val := Elt F) spec0 c : sProp 𝕄) := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 64 := N_0; omega), scopedRest0_owns]
  iintro ⟨HS0, HS1⟩
  isplitl [HS0]
  · iexists _; iexact HS0
  · iexists _; iexact HS1

end Cert.KernelIdeal.Hand

end
-- ==== Proof.KI.Launch.lean ====
/-
  The run of the idealized kernel program: @main as the two reshapes of the labels, the kernel region, the thirteen
  host operations after it, composed by the library's theorem for an @main given as a list of segments.

  Between segments core `c` holds every unscoped buffer whole at a valuation. The region is entered by handing the
  pipeline its five arrays — the feature matrix, which two windows read, split into two half shares —, and left by
  taking them back, the two results at what the pipeline's write-backs left there (stated as the valuation after two
  fictitious constant operations that write exactly those contents), every other buffer as it was.
-/
import proofs.«152201_j11381663334709_1_alg».proof.Proof.KI.Data

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pipeline library's algebra is the certificate's. -/
abbrev EP : Emb (UR sig nD τ) (MT nD τ sig Unit (Elt F) ℕ (UR sig nD τ) ℕ) := emb₁
/-- No core owes another anything: no level is assigned. -/
abbrev L : GSem nD τ sig → Finset Unit := fun _ => ∅
abbrev lv : GSem nD τ sig → Unit → ℕ := fun _ _ => 0
/-- No prefetched table. -/
abbrev adm : (p : Fin 1) → (pcfgs (F := F) p).Adm := fun p => (cfgs p).toPCfg_adm
abbrev 𝒱₀ : Variants := Variants.none
/-- What rides beside the buffers: the core owes nothing. -/
abbrev R (c : Dev nD) : sProp 𝕄 := iprop(∃ W, owes (c : Thread nD τ) (0 : CellTallies nD τ sig Unit) W)

/-! ## The buffers when the region is left -/

/-- Two constant operations writing the two results' final contents: the valuation after them is the region's exit. -/
abbrev exitOps (c : Dev nD) : List (HloOp τ sig (Elt F)) :=
  [ StableHlo.nullary main_v2_0 ((dats m 0 c).arrAt 4 cfg0.N),
    StableHlo.nullary main_v2_1 ((dats m 0 c).arrAt 5 cfg0.N) ]
/-- Core `c`'s buffers when the region is left. -/
abbrev Vx (c : Dev nD) : Valuation τ sig (Elt F) := StableHlo.after (exitOps m c) (V0 m c)
/-- Core `c`'s buffers at the end. -/
abbrev Vend (c : Dev nD) : Valuation τ sig (Elt F) := StableHlo.after hostOps1 (Vx m c)

/-! ## The arrays, listed -/

/-- The distinct buffers behind the windows' arrays. -/
theorem arrBufs0_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_arg0) ↦{fullShare} W main_arg0) ∗ (((c : Thread nD τ).loc main_v0) ↦{fullShare} W main_v0) ∗ (((c : Thread nD τ).loc main_v1) ↦{fullShare} W main_v1) ∗ (((c : Thread nD τ).loc main_v2_0) ↦{fullShare} W main_v2_0) ∗ (((c : Thread nD τ).loc main_v2_1) ↦{fullShare} W main_v2_1)) := by
  unfold Pipeline.arrBufs
  exact bigSep_eq_bigSepL_of_eq [main_arg0, main_v0, main_v1, main_v2_0, main_v2_1] (by decide) (by decide) _

/-- Every window's array is a whole buffer. -/
theorem arrSet0_0 : (cfg0.win 0).arr.view.set = Finset.univ := (arr_whole0 0).set_eq_univ
theorem arrSet0_1 : (cfg0.win 1).arr.view.set = Finset.univ := (arr_whole0 1).set_eq_univ
theorem arrSet0_2 : (cfg0.win 2).arr.view.set = Finset.univ := (arr_whole0 2).set_eq_univ
theorem arrSet0_3 : (cfg0.win 3).arr.view.set = Finset.univ := (arr_whole0 3).set_eq_univ
theorem arrSet0_4 : (cfg0.win 4).arr.view.set = Finset.univ := (arr_whole0 4).set_eq_univ
theorem arrSet0_5 : (cfg0.win 5).arr.view.set = Finset.univ := (arr_whole0 5).set_eq_univ
/-- The shares the windows hold their arrays at: the feature matrix's two readers a half each. -/
theorem share0_0 (c : Dev nD) : (dats m 0 c).share 0 = fullShare.left := rfl
theorem share0_1 (c : Dev nD) : (dats m 0 c).share 1 = fullShare.right := rfl
theorem share0_2 (c : Dev nD) : (dats m 0 c).share 2 = fullShare := rfl
theorem share0_3 (c : Dev nD) : (dats m 0 c).share 3 = fullShare := rfl
theorem share0_4 (c : Dev nD) : (dats m 0 c).share 4 = fullShare := rfl
theorem share0_5 (c : Dev nD) : (dats m 0 c).share 5 = fullShare := rfl

/-- The pipeline's arrays at contents `G`, window by window: the feature matrix twice, at the two halves. -/
theorem arrays0_eq (c : Dev nD) (G : (w : Fin cfg0.W) → Buf (Elt F) ((cfg0.win w).arr.view.loc (c : Thread nD τ))) :
    ((dats m 0 c).arrays G : sProp 𝕄)
      = iprop((((c : Thread nD τ).loc main_arg0) ↦{fullShare.left} G 0) ∗ (((c : Thread nD τ).loc main_arg0) ↦{fullShare.right} G 1) ∗ (((c : Thread nD τ).loc main_v0) ↦{fullShare} G 2) ∗ (((c : Thread nD τ).loc main_v1) ↦{fullShare} G 3) ∗ (((c : Thread nD τ).loc main_v2_0) ↦{fullShare} G 4) ∗ (((c : Thread nD τ).loc main_v2_1) ↦{fullShare} G 5)) := by
  unfold Dat.arrays
  rw [bigSep_W0, arrSet0_0, arrSet0_2, arrSet0_3, arrSet0_4, arrSet0_5, share0_0, share0_1, share0_2, share0_3, share0_4, share0_5]
  try rfl

/-- Every unscoped buffer of the core, listed: the five arrays of the pipeline, then the buffers that bypass it. -/
theorem unscopedBufs0_eq (c : Dev nD) (W : (b : Ref sig .tc) → Buf (Elt F) ((c : Thread nD τ).loc b)) :
    (unscopedBufs (Ix := Unit) (Name := ℕ) (U := UR sig nD τ) (Lvl := ℕ) c W : sProp 𝕄)
      = iprop((((c : Thread nD τ).loc main_arg0) ↦{fullShare} W main_arg0) ∗ (((c : Thread nD τ).loc main_v0) ↦{fullShare} W main_v0) ∗ (((c : Thread nD τ).loc main_v1) ↦{fullShare} W main_v1) ∗ (((c : Thread nD τ).loc main_v2_0) ↦{fullShare} W main_v2_0) ∗ (((c : Thread nD τ).loc main_v2_1) ↦{fullShare} W main_v2_1) ∗ (((c : Thread nD τ).loc main_arg1) ↦{fullShare} W main_arg1) ∗ (((c : Thread nD τ).loc main_v3) ↦{fullShare} W main_v3) ∗ (((c : Thread nD τ).loc main_v4) ↦{fullShare} W main_v4) ∗ (((c : Thread nD τ).loc main_v5) ↦{fullShare} W main_v5) ∗ (((c : Thread nD τ).loc main_cst) ↦{fullShare} W main_cst) ∗ (((c : Thread nD τ).loc main_v6) ↦{fullShare} W main_v6) ∗ (((c : Thread nD τ).loc main_v7) ↦{fullShare} W main_v7) ∗ (((c : Thread nD τ).loc main_cst_0) ↦{fullShare} W main_cst_0) ∗ (((c : Thread nD τ).loc main_v8) ↦{fullShare} W main_v8) ∗ (((c : Thread nD τ).loc main_v9) ↦{fullShare} W main_v9) ∗ (((c : Thread nD τ).loc main_cst_1) ↦{fullShare} W main_cst_1) ∗ (((c : Thread nD τ).loc main_v10) ↦{fullShare} W main_v10) ∗ (((c : Thread nD τ).loc main_cst_2) ↦{fullShare} W main_cst_2) ∗ (((c : Thread nD τ).loc main_v11) ↦{fullShare} W main_v11)) := by
  unfold unscopedBufs
  exact bigSep_eq_bigSepL_of_eq [main_arg0, main_v0, main_v1, main_v2_0, main_v2_1, main_arg1, main_v3, main_v4, main_v5, main_cst, main_v6, main_v7, main_cst_0, main_v8, main_v9, main_cst_1, main_v10, main_cst_2, main_v11] (by decide) (by decide) _

/-! ## What the exit valuation holds -/

/-- A buffer that is neither result keeps its region-entry contents. -/
theorem Vx_of_ne (c : Dev nD) (b : Ref sig .tc) (h0 : b ≠ main_v2_0) (h1 : b ≠ main_v2_1) :
    Vx m c (Proc.devRef .tc b) = V0 m c (Proc.devRef .tc b) :=
  StableHlo.after_of_forall_not_mem _ _ fun op hop => by
    simp only [List.mem_cons, List.mem_nil_iff, or_false] at hop
    rcases hop with rfl | rfl <;> simp only [StableHlo.nullary_writes, Finset.mem_singleton] <;>
      exact StableHlo.devRef_ne_of_ne ‹_›

theorem Vx_v2_0 (c : Dev nD) : Vx m c (Proc.devRef .tc main_v2_0) = (dats m 0 c).arrAt 4 cfg0.N := by
  dsimp only [Vx, exitOps]; after_results
theorem Vx_v2_1 (c : Dev nD) : Vx m c (Proc.devRef .tc main_v2_1) = (dats m 0 c).arrAt 5 cfg0.N := by
  dsimp only [Vx, exitOps]; after_results

/-- No host operation before the region writes an argument. -/
theorem V0_of_ne (c : Dev nD) (b : Ref sig .tc) (h0 : b ≠ main_v0) (h1 : b ≠ main_v1) :
    V0 m c (Proc.devRef .tc b) = m ((c : Thread nD τ).loc b) :=
  StableHlo.after_of_forall_not_mem (b := Proc.devRef .tc b) hostOps0 (V₀ m c) fun op hop => by
    simp only [List.mem_cons, List.mem_nil_iff, or_false] at hop
    rcases hop with rfl | rfl <;> simp only [StableHlo.reshape_writes, Finset.mem_singleton] <;>
      exact StableHlo.devRef_ne_of_ne ‹_›

/-- The feature matrix's full share is its two halves. -/
theorem arg0_split (c : Dev nD) (f : Buf (Elt F) ((c : Thread nD τ).loc main_arg0)) :
    ((((c : Thread nD τ).loc main_arg0) ↦{fullShare} f) : sProp 𝕄)
      ⊣⊢ iprop((((c : Thread nD τ).loc main_arg0) ↦{fullShare.left} f) ∗ (((c : Thread nD τ).loc main_arg0) ↦{fullShare.right} f)) :=
  pointsTo_share (PosShare.mem_left_op_right fullShare)

/-! ## @main as segments -/

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The two reshapes of the label vector, over the unscoped buffers. -/
def seg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (V₀ m) R

/-- The thirteen operations after the region, from the region's exit. -/
def seg1 : Pipeline.HostSeg (Name := ℕ) (U := UR sig nD τ) (pcfgs (F := F)) defs₀ 𝒱₀ L lv :=
  Pipeline.HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (Vx m) R

/-- The unscoped buffers held at a valuation, as the launch's set. -/
theorem held_eq (c : Dev nD) (W : Valuation τ sig (Elt F)) :
    (StableHlo.held (c : Thread nD τ) (Pipeline.ucRefs τ sig) W : sProp 𝕄)
      = unscopedBufs (Ix := Unit) (Name := ℕ) (U := UR sig nD τ) (Lvl := ℕ) c (fun b => W (Proc.devRef .tc b)) :=
  (Pipeline.unscopedBufs_held c W).symm

set_option backward.isDefEq.respectTransparency.types false in
set_option maxHeartbeats 1600000 in
/-- The region: entered from the buffers after the reshapes — the five arrays to the pipeline, the feature matrix
    halved between its two readers, the rest bypassing —, left with the arrays taken back, the halves rejoined. -/
def reg0 : Pipeline.RegionSeg (pcfgs (F := F)) adm (dats m) () defs₀ 𝒱₀ L lv 0 where
  win := winFacts₀0
  block_pos := block_pos0
  stage_whole := stage_whole0
  K := PEmpty
  osem := fun k => k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (V0 m c) ∗ R c)
  post c := iprop(StableHlo.held (c : Thread nD τ) (Pipeline.ucRefs τ sig) (Vx m c) ∗ R c)
  X c := iprop(emp)
  Y c := iprop(emp)
  Z c := iprop((((c : Thread nD τ).loc main_arg1) ↦{fullShare} V m c main_arg1) ∗ (((c : Thread nD τ).loc main_v3) ↦{fullShare} V m c main_v3) ∗ (((c : Thread nD τ).loc main_v4) ↦{fullShare} V m c main_v4) ∗ (((c : Thread nD τ).loc main_v5) ↦{fullShare} V m c main_v5) ∗ (((c : Thread nD τ).loc main_cst) ↦{fullShare} V m c main_cst) ∗ (((c : Thread nD τ).loc main_v6) ↦{fullShare} V m c main_v6) ∗ (((c : Thread nD τ).loc main_v7) ↦{fullShare} V m c main_v7) ∗ (((c : Thread nD τ).loc main_cst_0) ↦{fullShare} V m c main_cst_0) ∗ (((c : Thread nD τ).loc main_v8) ↦{fullShare} V m c main_v8) ∗ (((c : Thread nD τ).loc main_v9) ↦{fullShare} V m c main_v9) ∗ (((c : Thread nD τ).loc main_cst_1) ↦{fullShare} V m c main_cst_1) ∗ (((c : Thread nD τ).loc main_v10) ↦{fullShare} V m c main_v10) ∗ (((c : Thread nD τ).loc main_cst_2) ↦{fullShare} V m c main_cst_2) ∗ (((c : Thread nD τ).loc main_v11) ↦{fullShare} V m c main_v11))
  hentry c := by
    rw [held_eq, unscopedBufs0_eq, arrays0_eq]
    refine (sep_mono (sep_mono (sep_mono (arg0_split (F := F) c _).1 .rfl) .rfl) .rfl).trans ?_
    iintro ⟨⟨⟨⟨HL, HR⟩, H_v0, H_v1, H_v2_0, H_v2_1, H_arg1, H_v3, H_v4, H_v5, H_cst, H_v6, H_v7, H_cst_0, H_v8, H_v9, H_cst_1, H_v10, H_cst_2, H_v11⟩, HO⟩, -, -⟩
    imodintro
    isplitl [HL HR H_v0 H_v1 H_v2_0 H_v2_1]
    · isplitl [HL]; · iexact HL
      isplitl [HR]; · iexact HR
      isplitl [H_v0]; · iexact H_v0
      isplitl [H_v1]; · iexact H_v1
      isplitl [H_v2_0]; · iexact H_v2_0
      iexact H_v2_1
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [H_arg1]; · iexact H_arg1
    isplitl [H_v3]; · iexact H_v3
    isplitl [H_v4]; · iexact H_v4
    isplitl [H_v5]; · iexact H_v5
    isplitl [H_cst]; · iexact H_cst
    isplitl [H_v6]; · iexact H_v6
    isplitl [H_v7]; · iexact H_v7
    isplitl [H_cst_0]; · iexact H_cst_0
    isplitl [H_v8]; · iexact H_v8
    isplitl [H_v9]; · iexact H_v9
    isplitl [H_cst_1]; · iexact H_cst_1
    isplitl [H_v10]; · iexact H_v10
    isplitl [H_cst_2]; · iexact H_cst_2
    iexact H_v11
  hin c := by
    rw [Phi_zero]
    iintro ⟨-, -, Hr⟩; iexact Hr
  hout c := by
    refine (Phi_last m c).trans ?_
    rw [Pipeline.ownSems0_none]
    iintro Hr
    isplitr; · iempintro
    isplitr; · iempintro
    iexact Hr
  hexit c := by
    rw [held_eq, unscopedBufs0_eq, arrays0_eq]
    rw [Vx_of_ne m c main_arg0 (by decide) (by decide), Vx_v2_0, Vx_v2_1,
      Vx_of_ne m c main_v0 (by decide) (by decide), Vx_of_ne m c main_v1 (by decide) (by decide),
      Vx_of_ne m c main_arg1 (by decide) (by decide), Vx_of_ne m c main_v3 (by decide) (by decide), Vx_of_ne m c main_v4 (by decide) (by decide), Vx_of_ne m c main_v5 (by decide) (by decide), Vx_of_ne m c main_cst (by decide) (by decide), Vx_of_ne m c main_v6 (by decide) (by decide), Vx_of_ne m c main_v7 (by decide) (by decide), Vx_of_ne m c main_cst_0 (by decide) (by decide), Vx_of_ne m c main_v8 (by decide) (by decide), Vx_of_ne m c main_v9 (by decide) (by decide), Vx_of_ne m c main_cst_1 (by decide) (by decide), Vx_of_ne m c main_v10 (by decide) (by decide), Vx_of_ne m c main_cst_2 (by decide) (by decide), Vx_of_ne m c main_v11 (by decide) (by decide)]
    rw [(dats m 0 c).arrAt_in 0 rfl _, (dats m 0 c).arrAt_in 1 rfl _, (dats m 0 c).arrAt_in 2 rfl _, (dats m 0 c).arrAt_in 3 rfl _]
    iintro ⟨⟨HL, HR, H_v0, H_v1, H_v2_0, H_v2_1⟩, HO, -, ⟨H_arg1, H_v3, H_v4, H_v5, H_cst, H_v6, H_v7, H_cst_0, H_v8, H_v9, H_cst_1, H_v10, H_cst_2, H_v11⟩⟩
    imodintro
    isplitr [HO]
    · isplitl [HL HR]
      · iapply (arg0_split (F := F) c _).2
        isplitl [HL]; · iexact HL
        iexact HR
      isplitl [H_v0]; · iexact H_v0
      isplitl [H_v1]; · iexact H_v1
      isplitl [H_v2_0]; · iexact H_v2_0
      isplitl [H_v2_1]; · iexact H_v2_1
      isplitl [H_arg1]; · iexact H_arg1
      isplitl [H_v3]; · iexact H_v3
      isplitl [H_v4]; · iexact H_v4
      isplitl [H_v5]; · iexact H_v5
      isplitl [H_cst]; · iexact H_cst
      isplitl [H_v6]; · iexact H_v6
      isplitl [H_v7]; · iexact H_v7
      isplitl [H_cst_0]; · iexact H_cst_0
      isplitl [H_v8]; · iexact H_v8
      isplitl [H_v9]; · iexact H_v9
      isplitl [H_cst_1]; · iexact H_cst_1
      isplitl [H_v10]; · iexact H_v10
      isplitl [H_cst_2]; · iexact H_cst_2
      iexact H_v11
    · unfold Pipeline.Dat.owesAt Pipeline.owesWithin
      icases HO with ⟨%W, -, HO⟩; iexists W; iexact HO

/-! ## The run -/

/-- No host operation after the region writes an argument. -/
theorem Vend_of_arg (c : Dev nD) (b : Ref sig .tc) (hb : b = main_arg0 ∨ b = main_arg1) :
    Vend m c (Proc.devRef .tc b) = Vx m c (Proc.devRef .tc b) :=
  StableHlo.after_of_forall_not_mem (b := Proc.devRef .tc b) hostOps1 (Vx m c) fun op hop => by
    simp only [List.mem_cons, List.mem_nil_iff, or_false] at hop
    rcases hb with rfl | rfl <;>
    rcases hop with rfl | rfl | rfl | rfl | rfl | rfl | rfl | rfl | rfl | rfl | rfl | rfl | rfl <;>
      simp only [StableHlo.unary_writes, StableHlo.binary_writes, StableHlo.nullary_writes, StableHlo.reshape_writes, Finset.mem_singleton] <;>
      exact StableHlo.devRef_ne_of_ne (by decide)

/-- The arguments end as launched. -/
theorem Vend_arg0 (c : Dev nD) : Vend m c (Proc.devRef .tc main_arg0) = m ((c : Thread nD τ).loc main_arg0) :=
  (Vend_of_arg m c main_arg0 (.inl rfl)).trans ((Vx_of_ne m c main_arg0 (by decide) (by decide)).trans (V0_of_ne m c main_arg0 (by decide) (by decide)))
theorem Vend_arg1 (c : Dev nD) : Vend m c (Proc.devRef .tc main_arg1) = m ((c : Thread nD τ).loc main_arg1) :=
  (Vend_of_arg m c main_arg1 (.inr rfl)).trans ((Vx_of_ne m c main_arg1 (by decide) (by decide)).trans (V0_of_ne m c main_arg1 (by decide) (by decide)))

/-- @main as the list of its three segments. -/
abbrev segs : List (Pipeline.Seg (pcfgs (F := F)) adm (dats m) () defs₀ 𝒱₀ L lv) := [.host (seg0 m), .region (reg0 m), .host (seg1 m)]

/-- The launch element: the pipeline library's at the staging cells and the pipeline's transfers. -/
def u₀ : UR sig nD τ := initOf (Pipeline.cells cfgs cellOf_inj) (Pipeline.launchToks cfgs cellOf_inj)

/-- The run's post: the result at the valuation the three segments end with, the arguments as launched. -/
def QC : PUnit × MemSt nD τ sig (Elt F) → Prop := fun r => ∀ c : Dev nD,
  r.2.mem ((c : Thread nD τ).loc main_v11) = Vend m c (Proc.devRef .tc main_v11)
    ∧ r.2.mem ((c : Thread nD τ).loc main_arg0) = m ((c : Thread nD τ).loc main_arg0)
    ∧ r.2.mem ((c : Thread nD τ).loc main_arg1) = m ((c : Thread nD τ).loc main_arg1)

set_option backward.isDefEq.respectTransparency.types false in
set_option maxHeartbeats 1600000 in
/-- At the compiled mesh, for any float values, from any memory with zero counters: every weakly fair execution of
    @main terminates, the result holding what the host operations after the region compute from the pipeline's two
    results, the two arguments unchanged. -/
theorem run_main : θ_run defs (onTc (τ := τ) (main (F := F))) ⟨m, fun _ => 0, ρ⟩ (QC m) :=
  Pipeline.θ_run_regions_kit (pcfgs (F := F)) adm (dats m) () cellOf_inj EP defs₀ 𝒱₀ L lv m ρ main (segs m)
    (fun c Q => by rw [main_segs adm (dats m) () 𝒱₀ L lv (seg0 m) (seg1 m) (reg0 m) rfl rfl c])
    (by simp only [Pipeline.Seg.pipes_host, Pipeline.Seg.pipes_region, Pipeline.Seg.pipes_nil]; decide) (O₀ := 0) (hL := fun _ _ => rfl) (G := fun _ => iprop(emp)) (u₀ := u₀)
    (hu₀ := by
      unfold u₀
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m c) ∗ R c))
    (Tₙ := fun c => StableHlo.held (c : Thread nD τ) (Pipeline.ucRefs τ sig) (Vend m c))
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V₀ m c) from Pipeline.unscopedBufs_held c (V₀ m c)]
      iintro ⟨⟨Hh, -, HO, -, -, -⟩, -⟩
      imodintro
      isplitl [Hh]; · iexact Hh
      iexists ∅; iexact HO)
    (QY := fun c s => s.mem ((c : Thread nD τ).loc main_v11) = Vend m c (Proc.devRef .tc main_v11)
      ∧ s.mem ((c : Thread nD τ).loc main_arg0) = m ((c : Thread nD τ).loc main_arg0)
      ∧ s.mem ((c : Thread nD τ).loc main_arg1) = m ((c : Thread nD τ).loc main_arg1))
    (hfin := fun c s' => by
      rw [held_eq, unscopedBufs0_eq]
      iintro ⟨⟨H_arg0, H_v0, H_v1, H_v2_0, H_v2_1, H_arg1, H_v3, H_v4, H_v5, H_cst, H_v6, H_v7, H_cst_0, H_v8, H_v9, H_cst_1, H_v10, H_cst_2, H_v11⟩, HSI⟩
      icombine HSI H_arg0 gives %h0
      icombine HSI H_arg1 gives %h1
      icombine HSI H_v11 gives %h11
      imodintro
      isplitr
      · ipureintro
        exact ⟨Buf.eq_of_forall_mem_univ h11, (Buf.eq_of_forall_mem_univ h0).trans (Vend_arg0 m c), (Buf.eq_of_forall_mem_univ h1).trans (Vend_arg1 m c)⟩
      iexact HSI)
    (hQ := fun _ h => h)

end Cert.KernelIdeal.Hand

end
-- ==== Proof.KI.Blocks.lean ====
/-
  The windows' blocks read at an index, at the ideal instance: at grid point `t` (row block `t / 8`, column block
  `t % 8`) the first window's block is rows `1024·(t/8) …` of the feature matrix, the second window's rows
  `1024·(t%8) …` of the same matrix, the third and fourth the labels of those rows (through the two reshapes of the
  label vector that ran before the region).
-/
import proofs.«152201_j11381663334709_1_alg».proof.Proof.KI.Data
import proofs.«152201_j11381663334709_1_alg».proof.Proof.Spec
import Idealize.ShloMosaic.Lib.ValueIdx
import Idealize.ShloMosaic.Lib.Pipeline.Value
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (m : (ℓ : Loc nD τ sig) → Buf (Elt Ideal) ℓ)

/-- Row `r` of row block `I` of an 8192-row array. -/
def rowIdx (I : ℕ) (r : Fin 1024) : Fin 8192 := ⟨(1024 * I + r.val) % 8192, Nat.mod_lt _ (by decide)⟩

/-- The feature matrix and the label vector at launch. -/
abbrev xArr (c : Dev nD) : FVec Ideal Cert.Spec.S8192x128 .f32 := m ((c : Thread nD τ).loc main_arg0)
abbrev tgArr (c : Dev nD) : IVec Cert.Spec.S8192 32 := m ((c : Thread nD τ).loc main_arg1)

/-! ## The index maps over the grid, and the arrays when the region is entered -/

/-- The four input windows' block indices at point `t`: the row block `t / 8` or the column block `t % 8` on the
    axis the window moves along, `0` on the other. -/
theorem idx_facts : ∀ t : Fin cfg0.N,
    win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = t.val / 8 ∧ win0_2.index t (1 : Fin 2) = 0
    ∧ win0_3.index t (0 : Fin 2) = 0 ∧ win0_3.index t (1 : Fin 2) = t.val % 8 :=
  (by decide +kernel : ∀ t : Fin grid0.N, _)

/-- The grid has 64 points. -/
theorem t_lt (t : Fin cfg0.N) : t.val < 64 := lt_of_lt_of_eq t.isLt N_0

/-- A buffer neither reshape writes holds its launch contents when the region is entered. -/
theorem V0_untouched (c : Dev nD) (b : Ref sig .tc) (h0 : b ≠ main_v0) (h1 : b ≠ main_v1) :
    V0 m c (Proc.devRef .tc b) = m ((c : Thread nD τ).loc b) :=
  StableHlo.after_of_forall_not_mem (b := Proc.devRef .tc b) hostOps0 (V₀ m c) fun op hop => by
    simp only [List.mem_cons, List.mem_nil_iff, or_false] at hop
    rcases hop with rfl | rfl <;> simp only [StableHlo.reshape_writes, Finset.mem_singleton] <;>
      exact StableHlo.devRef_ne_of_ne ‹_›

/-- The feature matrix is as launched. -/
theorem V_arg0 (c : Dev nD) : V m c main_arg0 = m ((c : Thread nD τ).loc main_arg0) :=
  V0_untouched m c main_arg0 (by decide) (by decide)

/-- The label column the third window reads is the label vector, cast to [8192, 1]. -/
theorem V_v0 (c : Dev nD) :
    (V m c main_v0 : S8192x1.Idx → BitVec 32) = shapeCast S8192x1 (m ((c : Thread nD τ).loc main_arg1)) shapeCasts_S8192_S8192x1 := by
  dsimp only [V, V0, hostOps0]; after_results; rfl

/-- The label row the fourth window reads is the label vector, cast to [1, 8192]. -/
theorem V_v1 (c : Dev nD) :
    (V m c main_v1 : S1x8192.Idx → BitVec 32) = shapeCast S1x8192 (m ((c : Thread nD τ).loc main_arg1)) shapeCasts_S8192_S1x8192 := by
  dsimp only [V, V0, hostOps0]; after_results; rfl

/-- The row block of the feature matrix at point `t`. -/
theorem iblk0_at (c : Dev nD) (t : Fin cfg0.N) (r : Fin 1024) (k : Fin 128) :
    (iblk m c 0 t : Vec Ideal S1024x128 .f32) (ix2 r k) = xArr m c (ix2 (rowIdx (t.val / 8) r) k) := by
  obtain ⟨e0, e1, -⟩ := idx_facts t
  have ht := t_lt t
  show V m c main_arg0 (((cfg0.win 0).blk t).view.emb (ix2 r k)) = m ((c : Thread nD τ).loc main_arg0) (ix2 (rowIdx (t.val / 8) r) k)
  refine (congrFun (V_arg0 m c) _).trans (congrArg _ ?_)
  funext a; apply Fin.ext
  match a with
  | ⟨0, _⟩ =>
    show win0_0.index t (0 : Fin 2) * 1024 + 1 * r.val = (1024 * (t.val / 8) + r.val) % 8192
    have hr := r.isLt; omega
  | ⟨1, _⟩ =>
    show win0_0.index t (1 : Fin 2) * 128 + 1 * k.val = k.val
    omega

/-- The column block of the feature matrix at point `t`. -/
theorem iblk1_at (c : Dev nD) (t : Fin cfg0.N) (q : Fin 1024) (k : Fin 128) :
    (iblk m c 1 t : Vec Ideal S1024x128 .f32) (ix2 q k) = xArr m c (ix2 (rowIdx (t.val % 8) q) k) := by
  obtain ⟨-, -, e0, e1, -⟩ := idx_facts t
  show V m c main_arg0 (((cfg0.win 1).blk t).view.emb (ix2 q k)) = m ((c : Thread nD τ).loc main_arg0) (ix2 (rowIdx (t.val % 8) q) k)
  refine (congrFun (V_arg0 m c) _).trans (congrArg _ ?_)
  funext a; apply Fin.ext
  match a with
  | ⟨0, _⟩ =>
    show win0_1.index t (0 : Fin 2) * 1024 + 1 * q.val = (1024 * (t.val % 8) + q.val) % 8192
    have hq := q.isLt; omega
  | ⟨1, _⟩ =>
    show win0_1.index t (1 : Fin 2) * 128 + 1 * k.val = k.val
    omega

/-- The row block's labels at point `t`. -/
theorem iblk2_at (c : Dev nD) (t : Fin cfg0.N) (r : Fin 1024) :
    (iblk m c 2 t : Vec Ideal S1024x1 .i32) (ix2 r (0 : Fin 1)) = tgArr m c (ix1 (rowIdx (t.val / 8) r)) := by
  obtain ⟨-, -, -, -, e0, e1, -⟩ := idx_facts t
  have ht := t_lt t
  show V m c main_v0 (((cfg0.win 2).blk t).view.emb (ix2 r (0 : Fin 1))) = m ((c : Thread nD τ).loc main_arg1) (ix1 (rowIdx (t.val / 8) r))
  refine (congrFun (V_v0 m c) _).trans ?_
  refine shapeCast_apply _ _ _ _ ?_
  show (S8192.rowMajor (ix1 (rowIdx (t.val / 8) r))).val = (S8192x1.rowMajor (((cfg0.win 2).blk t).view.emb (ix2 r (0 : Fin 1)))).val
  rw [Shape.rowMajor_val_one, Shape.rowMajor_val_two]
  show (1024 * (t.val / 8) + r.val) % 8192 = (win0_2.index t (0 : Fin 2) * 1024 + 1 * r.val) * 1 + (win0_2.index t (1 : Fin 2) * 1 + 1 * 0)
  have hr := r.isLt; omega

/-- The column block's labels at point `t`. -/
theorem iblk3_at (c : Dev nD) (t : Fin cfg0.N) (q : Fin 1024) :
    (iblk m c 3 t : Vec Ideal S1x1024 .i32) (ix2 (0 : Fin 1) q) = tgArr m c (ix1 (rowIdx (t.val % 8) q)) := by
  obtain ⟨-, -, -, -, -, -, e0, e1⟩ := idx_facts t
  show V m c main_v1 (((cfg0.win 3).blk t).view.emb (ix2 (0 : Fin 1) q)) = m ((c : Thread nD τ).loc main_arg1) (ix1 (rowIdx (t.val % 8) q))
  refine (congrFun (V_v1 m c) _).trans ?_
  refine shapeCast_apply _ _ _ _ ?_
  show (S8192.rowMajor (ix1 (rowIdx (t.val % 8) q))).val = (S1x8192.rowMajor (((cfg0.win 3).blk t).view.emb (ix2 (0 : Fin 1) q))).val
  rw [Shape.rowMajor_val_one, Shape.rowMajor_val_two]
  show (1024 * (t.val % 8) + q.val) % 8192 = (win0_3.index t (0 : Fin 2) * 1 + 1 * 0) * 8192 + (win0_3.index t (1 : Fin 2) * 1024 + 1 * q.val)
  have hq := q.isLt; omega

end Cert.KernelIdeal.Hand

end
-- ==== Proof.KI.Pieces.lean ====
/-
  What each case's stores leave in the scratch and output buffers, as the body's arithmetic: the running maximum
  (minimum) after a point is the body's update of the one it started from — the reset constant where the
  column-block coordinate is 0, what the point before left elsewhere —, and where the accumulators are copied out the
  output buffers receive exactly those.

  Every store of the body writes its whole [1024, 1] buffer through the rectangle at zero offsets, so what a buffer
  reads after the stores is the payload of the last one; every load reads a whole buffer through such a rectangle,
  so it reads the buffer's contents: the block handed in, or, after a store of the same run, that store's payload.
-/
import proofs.«152201_j11381663334709_1_alg».proof.Proof.KI.Data
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a rank-2 rectangle, as the constant function. -/
private theorem hz : (![0, 0] : Fin 2 → Nat) = fun _ => 0 := funext fun a => by fin_cases a <;> rfl

/-- Reset case: the running maximum is the update of the reset constant. -/
theorem sout0_A_0_eq (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond0_0 i) (hc1 : ¬cond0_1 i) (x0 : Vec F S1024x128 .f32) (x1 : Vec F S1024x128 .f32) (x2 : Vec F S1024x1 .i32) (x3 : Vec F S1x1024 .i32)  :
    sout0_A_0 c i arg2 harg2 arg3 harg3 arg4 harg4 arg5 harg5 arg6 harg6 arg7 harg7 arg8 harg8 arg9 harg9 hc0 hc1 x0 x1 x2 x3 = k0_pay2 (k0_pay6 x0 x1) (k0_pay7 (F := F) x2) (k0_pay8 (F := F) x3) (k0_pay4 (F := F)) := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1 x2 x3)]
  unfold kernelRun0_A
  dsimp only
  sl_unfold_words
  rw [View.canon_cons_unit_zero (S := S1024x1) hz, View.readCov_unit_zero (S := S1024x1) _ hz]
  simp only [View.readAt_eq_ld, harg2.read_unread, harg3.read_unread, harg4.read_unread, harg5.read_unread,
    harg8.read_unread, harg9.read_unread, View.ld_unit_zero (S := S1024x128) hz, View.ld_unit_zero (S := S1024x1) hz,
    View.ld_unit_zero (S := S1x1024) hz]

/-- Reset case: the running minimum is the update of the reset constant. -/
theorem sout0_A_1_eq (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond0_0 i) (hc1 : ¬cond0_1 i) (x0 : Vec F S1024x128 .f32) (x1 : Vec F S1024x128 .f32) (x2 : Vec F S1024x1 .i32) (x3 : Vec F S1x1024 .i32)  :
    sout0_A_1 c i arg2 harg2 arg3 harg3 arg4 harg4 arg5 harg5 arg6 harg6 arg7 harg7 arg8 harg8 arg9 harg9 hc0 hc1 x0 x1 x2 x3 = k0_pay3 (k0_pay6 x0 x1) (k0_pay7 (F := F) x2) (k0_pay8 (F := F) x3) (k0_pay5 (F := F)) := by
  unfold sout0_A_1
  rw [View.read_writes_eq_canon _ _ _ (scover0_A_1 c i arg2 harg2 arg3 harg3 arg4 harg4 arg5 harg5 arg6 harg6 arg7 harg7 arg8 harg8 arg9 harg9 hc0 hc1 x0 x1 x2 x3)]
  unfold kernelRun0_A
  dsimp only
  sl_unfold_words
  rw [View.canon_cons_unit_zero (S := S1024x1) hz, View.readCov_unit_zero (S := S1024x1) _ hz]
  simp only [View.readAt_eq_ld, harg2.read_unread, harg3.read_unread, harg4.read_unread, harg5.read_unread,
    harg8.read_unread, harg9.read_unread, View.ld_unit_zero (S := S1024x128) hz, View.ld_unit_zero (S := S1024x1) hz,
    View.ld_unit_zero (S := S1x1024) hz]

/-- Middle case: the running maximum is the update of what the point before left. -/
theorem sout0_B_0_eq (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : ¬cond0_1 i) (x0 : Vec F S1024x128 .f32) (x1 : Vec F S1024x128 .f32) (x2 : Vec F S1024x1 .i32) (x3 : Vec F S1x1024 .i32) (xs0 : Vec F S1024x1 .f32) (xs1 : Vec F S1024x1 .f32) :
    sout0_B_0 c i arg2 harg2 arg3 harg3 arg4 harg4 arg5 harg5 arg6 harg6 arg7 harg7 arg8 harg8 arg9 harg9 hc0 hc1 x0 x1 x2 x3 xs0 xs1 = k0_pay2 (k0_pay6 x0 x1) (k0_pay7 (F := F) x2) (k0_pay8 (F := F) x3) xs0 := by
  unfold sout0_B_0
  rw [View.read_writes_eq_canon _ _ _ (scover0_B_0 c i arg2 harg2 arg3 harg3 arg4 harg4 arg5 harg5 arg6 harg6 arg7 harg7 arg8 harg8 arg9 harg9 hc0 hc1 x0 x1 x2 x3 xs0 xs1)]
  unfold kernelRun0_B
  dsimp only
  sl_unfold_words
  rw [View.canon_unit_zero hz]
  simp only [View.readAt_eq_ld, harg2.read_unread, harg3.read_unread, harg4.read_unread, harg5.read_unread,
    harg8.read_unread, harg9.read_unread, View.ld_unit_zero (S := S1024x128) hz, View.ld_unit_zero (S := S1024x1) hz,
    View.ld_unit_zero (S := S1x1024) hz]

/-- Middle case: the running minimum is the update of what the point before left. -/
theorem sout0_B_1_eq (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : ¬cond0_1 i) (x0 : Vec F S1024x128 .f32) (x1 : Vec F S1024x128 .f32) (x2 : Vec F S1024x1 .i32) (x3 : Vec F S1x1024 .i32) (xs0 : Vec F S1024x1 .f32) (xs1 : Vec F S1024x1 .f32) :
    sout0_B_1 c i arg2 harg2 arg3 harg3 arg4 harg4 arg5 harg5 arg6 harg6 arg7 harg7 arg8 harg8 arg9 harg9 hc0 hc1 x0 x1 x2 x3 xs0 xs1 = k0_pay3 (k0_pay6 x0 x1) (k0_pay7 (F := F) x2) (k0_pay8 (F := F) x3) xs1 := by
  unfold sout0_B_1
  rw [View.read_writes_eq_canon _ _ _ (scover0_B_1 c i arg2 harg2 arg3 harg3 arg4 harg4 arg5 harg5 arg6 harg6 arg7 harg7 arg8 harg8 arg9 harg9 hc0 hc1 x0 x1 x2 x3 xs0 xs1)]
  unfold kernelRun0_B
  dsimp only
  sl_unfold_words
  rw [View.canon_unit_zero hz]
  simp only [View.readAt_eq_ld, harg2.read_unread, harg3.read_unread, harg4.read_unread, harg5.read_unread,
    harg8.read_unread, harg9.read_unread, View.ld_unit_zero (S := S1024x128) hz, View.ld_unit_zero (S := S1024x1) hz,
    View.ld_unit_zero (S := S1x1024) hz]

/-- Last column block: the running maximum is the update of what the point before left. -/
theorem sout0_C_0_eq (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i) (x0 : Vec F S1024x128 .f32) (x1 : Vec F S1024x128 .f32) (x2 : Vec F S1024x1 .i32) (x3 : Vec F S1x1024 .i32) (xs0 : Vec F S1024x1 .f32) (xs1 : Vec F S1024x1 .f32) :
    sout0_C_0 c i arg2 harg2 arg3 harg3 arg4 harg4 arg5 harg5 arg6 harg6 arg7 harg7 arg8 harg8 arg9 harg9 hc0 hc1 x0 x1 x2 x3 xs0 xs1 = k0_pay2 (k0_pay6 x0 x1) (k0_pay7 (F := F) x2) (k0_pay8 (F := F) x3) xs0 := by
  unfold sout0_C_0
  rw [View.read_writes_eq_canon _ _ _ (scover0_C_0 c i arg2 harg2 arg3 harg3 arg4 harg4 arg5 harg5 arg6 harg6 arg7 harg7 arg8 harg8 arg9 harg9 hc0 hc1 x0 x1 x2 x3 xs0 xs1)]
  unfold kernelRun0_C
  dsimp only
  sl_unfold_words
  rw [View.canon_unit_zero hz]
  simp only [View.readAt_eq_ld, harg2.read_unread, harg3.read_unread, harg4.read_unread, harg5.read_unread,
    harg8.read_unread, harg9.read_unread, View.ld_unit_zero (S := S1024x128) hz, View.ld_unit_zero (S := S1024x1) hz,
    View.ld_unit_zero (S := S1x1024) hz]

/-- Last column block: the running minimum is the update of what the point before left. -/
theorem sout0_C_1_eq (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i) (x0 : Vec F S1024x128 .f32) (x1 : Vec F S1024x128 .f32) (x2 : Vec F S1024x1 .i32) (x3 : Vec F S1x1024 .i32) (xs0 : Vec F S1024x1 .f32) (xs1 : Vec F S1024x1 .f32) :
    sout0_C_1 c i arg2 harg2 arg3 harg3 arg4 harg4 arg5 harg5 arg6 harg6 arg7 harg7 arg8 harg8 arg9 harg9 hc0 hc1 x0 x1 x2 x3 xs0 xs1 = k0_pay3 (k0_pay6 x0 x1) (k0_pay7 (F := F) x2) (k0_pay8 (F := F) x3) xs1 := by
  unfold sout0_C_1
  rw [View.read_writes_eq_canon _ _ _ (scover0_C_1 c i arg2 harg2 arg3 harg3 arg4 harg4 arg5 harg5 arg6 harg6 arg7 harg7 arg8 harg8 arg9 harg9 hc0 hc1 x0 x1 x2 x3 xs0 xs1)]
  unfold kernelRun0_C
  dsimp only
  sl_unfold_words
  rw [View.canon_unit_zero hz]
  simp only [View.readAt_eq_ld, harg2.read_unread, harg3.read_unread, harg4.read_unread, harg5.read_unread,
    harg8.read_unread, harg9.read_unread, View.ld_unit_zero (S := S1024x128) hz, View.ld_unit_zero (S := S1024x1) hz,
    View.ld_unit_zero (S := S1x1024) hz]

/-- Last column block: the first output buffer receives the updated running maximum. -/
theorem out0_C_4_eq (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i) (x0 : Vec F S1024x128 .f32) (x1 : Vec F S1024x128 .f32) (x2 : Vec F S1024x1 .i32) (x3 : Vec F S1x1024 .i32) (xs0 : Vec F S1024x1 .f32) (xs1 : Vec F S1024x1 .f32) :
    out0_C_4 c i arg2 harg2 arg3 harg3 arg4 harg4 arg5 harg5 arg6 harg6 arg7 harg7 arg8 harg8 arg9 harg9 hc0 hc1 x0 x1 x2 x3 xs0 xs1 = k0_pay2 (k0_pay6 x0 x1) (k0_pay7 (F := F) x2) (k0_pay8 (F := F) x3) xs0 := by
  unfold out0_C_4
  rw [View.read_writes_eq_canon _ _ _ (cover0_C_4 c i arg2 harg2 arg3 harg3 arg4 harg4 arg5 harg5 arg6 harg6 arg7 harg7 arg8 harg8 arg9 harg9 hc0 hc1 x0 x1 x2 x3 xs0 xs1)]
  unfold kernelRun0_C
  dsimp only
  sl_unfold_words
  dsimp only
  rw [View.canon_unit_zero hz, View.readCov_unit_zero (S := S1024x1) _ hz]
  simp only [View.readAt_eq_ld, harg2.read_unread, harg3.read_unread, harg4.read_unread, harg5.read_unread,
    harg8.read_unread, harg9.read_unread, View.ld_unit_zero (S := S1024x128) hz, View.ld_unit_zero (S := S1024x1) hz,
    View.ld_unit_zero (S := S1x1024) hz]

/-- Last column block: the second output buffer receives the updated running minimum. -/
theorem out0_C_5_eq (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i) (x0 : Vec F S1024x128 .f32) (x1 : Vec F S1024x128 .f32) (x2 : Vec F S1024x1 .i32) (x3 : Vec F S1x1024 .i32) (xs0 : Vec F S1024x1 .f32) (xs1 : Vec F S1024x1 .f32) :
    out0_C_5 c i arg2 harg2 arg3 harg3 arg4 harg4 arg5 harg5 arg6 harg6 arg7 harg7 arg8 harg8 arg9 harg9 hc0 hc1 x0 x1 x2 x3 xs0 xs1 = k0_pay3 (k0_pay6 x0 x1) (k0_pay7 (F := F) x2) (k0_pay8 (F := F) x3) xs1 := by
  unfold out0_C_5
  rw [View.read_writes_eq_canon _ _ _ (cover0_C_5 c i arg2 harg2 arg3 harg3 arg4 harg4 arg5 harg5 arg6 harg6 arg7 harg7 arg8 harg8 arg9 harg9 hc0 hc1 x0 x1 x2 x3 xs0 xs1)]
  unfold kernelRun0_C
  dsimp only
  sl_unfold_words
  dsimp only
  rw [View.canon_unit_zero hz, View.readCov_unit_zero (S := S1024x1) _ hz]
  simp only [View.readAt_eq_ld, harg2.read_unread, harg3.read_unread, harg4.read_unread, harg5.read_unread,
    harg8.read_unread, harg9.read_unread, View.ld_unit_zero (S := S1024x128) hz, View.ld_unit_zero (S := S1024x1) hz,
    View.ld_unit_zero (S := S1x1024) hz]

end Cert.KernelIdeal.Hand

end
-- ==== Proof.KI.Tile.lean ====
/-
  What the body's two accumulator updates compute on one pair of blocks, at the ideal instance, row by row.

  With `x0` the row block [1024, 128] and `x1` the column block [1024, 128] of the feature matrix, `x2` the row
  block's labels [1024, 1] and `x3` the column block's labels [1, 1024]: the updated running maximum at row `r` is
  the maximum of the old one and of the candidates `q ↦ (label r = label q ? dist r q : -∞)` over the block's 1024
  columns, the updated running minimum the minimum of the old one and of `q ↦ (label r = label q ? +∞ : dist r q)`;
  the distance is the specification's scalar chain of the two squared norms and the inner product, each a sum over
  the 128 features. The reset values are the constants -∞ and +∞.
-/
import proofs.«152201_j11381663334709_1_alg».proof.Proof.Spec
import proofs.«152201_j11381663334709_1_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Tile

open Cert.KernelIdeal Cert.KernelIdeal.Gen Idealize.ShloMosaic Idealize.ShloMosaic.ValueIdx

/-! ## Layout operations at an index given by its coordinates -/

section Layout
variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The reductions along the columns -/

/-- The source index over row `r` with coordinate `k` on the reduced axis of a [1024, 128] block is `(r, k)`. -/
theorem lift128 (r : Fin 1024) (k : Fin 128) : reduces_S1024x128_S1024.lift (ix1 r) k = ix2 (n0 := 1024) (n1 := 128) r k := by
  funext d; apply Fin.ext; match d with | ⟨0, _⟩ => rfl | ⟨1, _⟩ => rfl

/-- The same over a [1024, 1024] block. -/
theorem lift1024 (r q : Fin 1024) : reduces_S1024x1024_S1024.lift (ix1 r) q = ix2 (n0 := 1024) (n1 := 1024) r q := by
  funext d; apply Fin.ext; match d with | ⟨0, _⟩ => rfl | ⟨1, _⟩ => rfl

/-- A row's sum of squares: the lane sum of the block times itself, at row `r`. -/
theorem sumsq_at (v : FVec Ideal S1024x128 .f32) (r : Fin 1024) :
    multiReduction (F := Ideal) .add [1] S1024 (mulf v v) 0x00000000#32 reduces_S1024x128_S1024 (.inl rfl) rfl (ix1 r)
      = ∑ k : Fin 128, v (ix2 r k) * v (ix2 r k) := by
  refine (Ideal.multiReduction_add_single (mulf v v) 0x00000000#32 reduces_S1024x128_S1024 (.inl rfl) rfl (ix1 r)).trans ?_
  show ∑ k : Fin 128, (mulf v v) (reduces_S1024x128_S1024.lift (ix1 r) k) = _
  refine Finset.sum_congr rfl fun k _ => ?_
  rw [lift128]; rfl

/-- A minimum over one axis, at the ideal instance: the fold of `min` from the accumulator's value over that axis's coordinates. -/
theorem multiReduction_minimumf_single {s t : Shape} {φ : FTy} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-! ## The product with the transpose -/

theorem lhs_dot_0 (i : S1024x1024.Idx) (q : dot_S1024x128_S128x1024_S1024x1024_1_0_0_1_n_n.contr.Idx) :
    (dot_S1024x128_S128x1024_S1024x1024_1_0_0_1_n_n.lhsIdx i q 0).val = (i 0).val := by
  unfold DotDims.lhsIdx
  rw [dif_neg (show ¬(0 : Fin S1024x128.rank) ∈ dot_S1024x128_S128x1024_S1024x1024_1_0_0_1_n_n.lhsBatch by decide), dif_pos (show (0 : Fin S1024x128.rank) ∈ dot_S1024x128_S128x1024_S1024x1024_1_0_0_1_n_n.lhsNonContracting by decide)]
  rfl
theorem lhs_dot_1 (i : S1024x1024.Idx) (q : dot_S1024x128_S128x1024_S1024x1024_1_0_0_1_n_n.contr.Idx) :
    (dot_S1024x128_S128x1024_S1024x1024_1_0_0_1_n_n.lhsIdx i q 1).val = (q ⟨0, by decide⟩).val :=
  dot_S1024x128_S128x1024_S1024x1024_1_0_0_1_n_n.lhsIdx_val_of_single rfl i q
theorem rhs_dot_0 (i : S1024x1024.Idx) (q : dot_S1024x128_S128x1024_S1024x1024_1_0_0_1_n_n.contr.Idx) :
    (dot_S1024x128_S128x1024_S1024x1024_1_0_0_1_n_n.rhsIdx i q 0).val = (q ⟨0, by decide⟩).val :=
  dot_S1024x128_S128x1024_S1024x1024_1_0_0_1_n_n.rhsIdx_val_of_single rfl i q
theorem rhs_dot_1 (i : S1024x1024.Idx) (q : dot_S1024x128_S128x1024_S1024x1024_1_0_0_1_n_n.contr.Idx) :
    (dot_S1024x128_S128x1024_S1024x1024_1_0_0_1_n_n.rhsIdx i q 1).val = (i 1).val := by
  unfold DotDims.rhsIdx
  rw [dif_neg (show ¬(1 : Fin S128x1024.rank) ∈ dot_S1024x128_S128x1024_S1024x1024_1_0_0_1_n_n.rhsBatch by decide), dif_pos (show (1 : Fin S128x1024.rank) ∈ dot_S1024x128_S128x1024_S1024x1024_1_0_0_1_n_n.rhsNonContracting by decide)]
  rfl

/-- The product of the row block with the transposed column block, into zero, at `(r, q)`: the inner product of row `r`
    of the one and row `q` of the other (the narrowing of the operands is the identity at the ideal instance). -/
theorem gram_at (x0 x1 : FVec Ideal S1024x128 .f32) (r q : Fin 1024) :
    matmul (F := Ideal) dot_S1024x128_S128x1024_S1024x1024_1_0_0_1_n_n none (truncf .bf16 x0 bitsLt_bf16_f32)
        (transpose S128x1024 [1, 0] (truncf .bf16 x1 bitsLt_bf16_f32) transposes_S1024x128_p1_0_S128x1024)
        (constant (F := Ideal) S1024x1024 .f32 0x00000000#32) (ix2 r q)
      = ∑ k : Fin 128, x0 (ix2 r k) * x1 (ix2 q k) := by
  simp only [matmul]
  rw [Ideal.matmul_constant_zero_apply, ← Equiv.sum_comp (contrEquiv1 dot_S1024x128_S128x1024_S1024x1024_1_0_0_1_n_n 128 rfl rfl).symm]
  refine Finset.sum_congr rfl fun k _ => ?_
  have hk := contrEquiv1_symm_val dot_S1024x128_S128x1024_S1024x1024_1_0_0_1_n_n 128 rfl rfl k
  have el : dot_S1024x128_S128x1024_S1024x1024_1_0_0_1_n_n.lhsIdx (ix2 r q) ((contrEquiv1 dot_S1024x128_S128x1024_S1024x1024_1_0_0_1_n_n 128 rfl rfl).symm k) = ix2 (n0 := 1024) (n1 := 128) r k := funext fun a => Fin.ext (by
    match a with
    | ⟨0, _⟩ => exact lhs_dot_0 _ _
    | ⟨1, _⟩ => exact (lhs_dot_1 _ _).trans hk)
  have er : dot_S1024x128_S128x1024_S1024x1024_1_0_0_1_n_n.rhsIdx (ix2 r q) ((contrEquiv1 dot_S1024x128_S128x1024_S1024x1024_1_0_0_1_n_n 128 rfl rfl).symm k) = ix2 (n0 := 128) (n1 := 1024) k q := funext fun a => Fin.ext (by
    match a with
    | ⟨0, _⟩ => exact (rhs_dot_0 _ _).trans hk
    | ⟨1, _⟩ => exact rhs_dot_1 _ _)
  rw [el, er, transpose_ix2_apply]
  rfl

/-! ## The payloads at an index -/

/-- A row's squared norm, cast to a column and broadcast along the rows of the square block, at `(r, q)`. -/
theorem normCol_at (v : FVec Ideal S1024x128 .f32) (r q : Fin 1024) :
    broadcastTo S1024x1024 (shapeCast S1024x1 (multiReduction (F := Ideal) .add [1] S1024 (mulf v v) 0x00000000#32
        reduces_S1024x128_S1024 (.inl rfl) rfl) shapeCasts_S1024_S1024x1) broadcasts_S1024x1_S1024x1024 (ix2 r q)
      = ∑ k : Fin 128, v (ix2 r k) * v (ix2 r k) := by
  rw [broadcastTo_a1_ab_apply, shapeCast_a_a1_apply, sumsq_at]

/-- A row's squared norm, cast to a row and broadcast down the columns of the square block, at `(r, q)`. -/
theorem normRow_at (v : FVec Ideal S1024x128 .f32) (r q : Fin 1024) :
    broadcastTo S1024x1024 (shapeCast S1x1024 (multiReduction (F := Ideal) .add [1] S1024 (mulf v v) 0x00000000#32
        reduces_S1024x128_S1024 (.inl rfl) rfl) shapeCasts_S1024_S1x1024) broadcasts_S1x1024_S1024x1024 (ix2 r q)
      = ∑ k : Fin 128, v (ix2 q k) * v (ix2 q k) := by
  rw [broadcastTo_1b_ab_apply, shapeCast_a_1a_apply, sumsq_at]

/-- The block's distance matrix at (r, q). -/
theorem pay6_at (x0 x1 : Vec Ideal S1024x128 .f32) (r q : Fin 1024) :
    k0_pay6 (F := Ideal) x0 x1 (ix2 r q) = (Cert.Spec.distOf (∑ k : Fin 128, x0 (ix2 r k) * x0 (ix2 r k)) (∑ k : Fin 128, x1 (ix2 q k) * x1 (ix2 q k)) (∑ k : Fin 128, x0 (ix2 r k) * x1 (ix2 q k))) := by
  refine Eq.trans ?_ (congrArg₂ (fun a b => Cert.Spec.distOf a b _) (normCol_at x0 r q) (normRow_at x1 r q))
  refine Eq.trans ?_ (congrArg (Cert.Spec.distOf _ _) (gram_at x0 x1 r q))
  unfold k0_pay6
  rfl

/-- The row block's labels broadcast along the rows, at `(r, q)`. -/
theorem pay7_at (x2 : Vec Ideal S1024x1 .i32) (r q : Fin 1024) :
    k0_pay7 (F := Ideal) x2 (ix2 r q) = x2 (ix2 r (0 : Fin 1)) := by
  unfold k0_pay7
  show broadcastTo S1024x1024 (shapeCast S1024x1 x2 shapeCasts_S1024x1_S1024x1) broadcasts_S1024x1_S1024x1024 (ix2 r q) = _
  rw [shapeCast_self, broadcastTo_a1_ab_apply]

/-- The column block's labels broadcast down the columns, at `(r, q)`. -/
theorem pay8_at (x3 : Vec Ideal S1x1024 .i32) (r q : Fin 1024) :
    k0_pay8 (F := Ideal) x3 (ix2 r q) = x3 (ix2 (0 : Fin 1) q) := by
  unfold k0_pay8
  show broadcastTo S1024x1024 (shapeCast S1x1024 x3 shapeCasts_S1x1024_S1x1024) broadcasts_S1x1024_S1024x1024 (ix2 r q) = _
  rw [shapeCast_self, broadcastTo_1b_ab_apply]

/-- The label comparison at `(r, q)`. -/
theorem pay1_at (x2 : Vec Ideal S1024x1 .i32) (x3 : Vec Ideal S1x1024 .i32) (r q : Fin 1024) :
    k0_pay1 (k0_pay7 (F := Ideal) x2) (k0_pay8 (F := Ideal) x3) (ix2 r q)
      = IntOp.cmpi .eq (x2 (ix2 r (0 : Fin 1))) (x3 (ix2 (0 : Fin 1) q)) := by
  show IntOp.cmpi .eq (k0_pay7 (F := Ideal) x2 (ix2 r q)) (k0_pay8 (F := Ideal) x3 (ix2 r q)) = _
  rw [pay7_at, pay8_at]

/-- The running maximum's update at row `r`, of any square block of candidates: the maximum of the old value and of the
    row's candidates. -/
theorem rowMax_at (src : FVec Ideal S1024x1024 .f32) (acc : FVec Ideal S1024x1 .f32) (r : Fin 1024) :
    shapeCast S1024x1 (maximumf acc (shapeCast S1024x1 (multiReduction (F := Ideal) .maximumf [1] S1024 src 0xFF800000#32
        reduces_S1024x1024_S1024 (.inl rfl) rfl) shapeCasts_S1024_S1024x1)) shapeCasts_S1024x1_S1024x1 (ix2 r (0 : Fin 1))
      = max (acc (ix2 r (0 : Fin 1))) ((Finset.univ : Finset (Fin 1024)).fold max (FloatOps.ofBits .f32 0xFF800000#32 : Ideal .f32)
          (fun q => src (ix2 r q))) := by
  rw [shapeCast_self]
  show max (acc (ix2 r (0 : Fin 1))) (shapeCast S1024x1 _ shapeCasts_S1024_S1024x1 (ix2 r (0 : Fin 1))) = _
  rw [shapeCast_a_a1_apply]
  refine congrArg (max _) ?_
  refine (Ideal.multiReduction_maximumf_single src 0xFF800000#32 reduces_S1024x1024_S1024 (.inl rfl) rfl (ix1 r)).trans ?_
  show (Finset.univ : Finset (Fin 1024)).fold max (FloatOps.ofBits .f32 0xFF800000#32 : Ideal .f32)
      (fun q : Fin 1024 => src (reduces_S1024x1024_S1024.lift (ix1 r) q)) = _
  refine Finset.fold_congr fun q _ => ?_
  exact congrArg src (lift1024 r q)

/-- The running minimum's update at row `r`, of any square block of candidates. -/
theorem rowMin_at (src : FVec Ideal S1024x1024 .f32) (acc : FVec Ideal S1024x1 .f32) (r : Fin 1024) :
    shapeCast S1024x1 (minimumf acc (shapeCast S1024x1 (multiReduction (F := Ideal) .minimumf [1] S1024 src 0x7F800000#32
        reduces_S1024x1024_S1024 (.inl rfl) rfl) shapeCasts_S1024_S1024x1)) shapeCasts_S1024x1_S1024x1 (ix2 r (0 : Fin 1))
      = min (acc (ix2 r (0 : Fin 1))) ((Finset.univ : Finset (Fin 1024)).fold min (FloatOps.ofBits .f32 0x7F800000#32 : Ideal .f32)
          (fun q => src (ix2 r q))) := by
  rw [shapeCast_self]
  show min (acc (ix2 r (0 : Fin 1))) (shapeCast S1024x1 _ shapeCasts_S1024_S1024x1 (ix2 r (0 : Fin 1))) = _
  rw [shapeCast_a_a1_apply]
  refine congrArg (min _) ?_
  refine (multiReduction_minimumf_single src 0x7F800000#32 reduces_S1024x1024_S1024 (.inl rfl) rfl (ix1 r)).trans ?_
  show (Finset.univ : Finset (Fin 1024)).fold min (FloatOps.ofBits .f32 0x7F800000#32 : Ideal .f32)
      (fun q : Fin 1024 => src (reduces_S1024x1024_S1024.lift (ix1 r) q)) = _
  refine Finset.fold_congr fun q _ => ?_
  exact congrArg src (lift1024 r q)

/-- The updated running maximum at row `r`. -/
theorem pay2_at (x0 x1 : Vec Ideal S1024x128 .f32) (x2 : Vec Ideal S1024x1 .i32) (x3 : Vec Ideal S1x1024 .i32)
    (acc : Vec Ideal S1024x1 .f32) (r : Fin 1024) :
    k0_pay2 (F := Ideal) (k0_pay6 x0 x1) (k0_pay7 (F := Ideal) x2) (k0_pay8 (F := Ideal) x3) acc (ix2 r (0 : Fin 1))
      = max (acc (ix2 r (0 : Fin 1))) ((Finset.univ : Finset (Fin 1024)).fold max (FloatOps.ofBits .f32 0xFF800000#32 : Ideal .f32)
          (fun q => Scalar.select (IntOp.cmpi .eq (x2 (ix2 r (0 : Fin 1))) (x3 (ix2 (0 : Fin 1) q))) (Cert.Spec.distOf (∑ k : Fin 128, x0 (ix2 r k) * x0 (ix2 r k)) (∑ k : Fin 128, x1 (ix2 q k) * x1 (ix2 q k)) (∑ k : Fin 128, x0 (ix2 r k) * x1 (ix2 q k))) (FloatOps.ofBits .f32 0xFF800000#32 : Ideal .f32))) := by
  unfold k0_pay2
  refine (rowMax_at _ acc r).trans (congrArg (max _) (Finset.fold_congr fun q _ => ?_))
  show Scalar.select (k0_pay1 (k0_pay7 (F := Ideal) x2) (k0_pay8 (F := Ideal) x3) (ix2 r q)) (k0_pay6 (F := Ideal) x0 x1 (ix2 r q)) _ = _
  rw [pay1_at, pay6_at]
  rfl

/-- The updated running minimum at row `r`. -/
theorem pay3_at (x0 x1 : Vec Ideal S1024x128 .f32) (x2 : Vec Ideal S1024x1 .i32) (x3 : Vec Ideal S1x1024 .i32)
    (acc : Vec Ideal S1024x1 .f32) (r : Fin 1024) :
    k0_pay3 (F := Ideal) (k0_pay6 x0 x1) (k0_pay7 (F := Ideal) x2) (k0_pay8 (F := Ideal) x3) acc (ix2 r (0 : Fin 1))
      = min (acc (ix2 r (0 : Fin 1))) ((Finset.univ : Finset (Fin 1024)).fold min (FloatOps.ofBits .f32 0x7F800000#32 : Ideal .f32)
          (fun q => Scalar.select (IntOp.cmpi .eq (x2 (ix2 r (0 : Fin 1))) (x3 (ix2 (0 : Fin 1) q))) (FloatOps.ofBits .f32 0x7F800000#32 : Ideal .f32) (Cert.Spec.distOf (∑ k : Fin 128, x0 (ix2 r k) * x0 (ix2 r k)) (∑ k : Fin 128, x1 (ix2 q k) * x1 (ix2 q k)) (∑ k : Fin 128, x0 (ix2 r k) * x1 (ix2 q k))))) := by
  unfold k0_pay3
  refine (rowMin_at _ acc r).trans (congrArg (min _) (Finset.fold_congr fun q _ => ?_))
  show Scalar.select (k0_pay1 (k0_pay7 (F := Ideal) x2) (k0_pay8 (F := Ideal) x3) (ix2 r q)) _ (k0_pay6 (F := Ideal) x0 x1 (ix2 r q)) = _
  rw [pay1_at, pay6_at]
  rfl

/-- The reset value of the running maximum. -/
theorem pay4_at (j : S1024x1.Idx) : k0_pay4 (F := Ideal) j = (FloatOps.ofBits .f32 0xFF800000#32 : Ideal .f32) := by
  unfold k0_pay4
  show shapeCast S1024x1 (broadcast S1024x1 (Scalar.ofBits (F := Ideal) .f32 0xFF800000#32)) shapeCasts_S1024x1_S1024x1 j = _
  rw [shapeCast_self]
  rfl

/-- The reset value of the running minimum. -/
theorem pay5_at (j : S1024x1.Idx) : k0_pay5 (F := Ideal) j = (FloatOps.ofBits .f32 0x7F800000#32 : Ideal .f32) := by
  unfold k0_pay5
  show shapeCast S1024x1 (broadcast S1024x1 (Scalar.ofBits (F := Ideal) .f32 0x7F800000#32)) shapeCasts_S1024x1_S1024x1 j = _
  rw [shapeCast_self]
  rfl

end Cert.KernelIdeal.Tile

end
-- ==== Proof.KI.Acc.lean ====
/-
  The accumulation over the column blocks, at the ideal instance: after the body at grid point `t` (row block
  `I = t / 8`, column block `J = t % 8`) the running maximum at row `r` is the maximum, over the column blocks
  `0 … J` and the 1024 columns of each, of the positive candidates of row `1024·I + r` (by induction on the point:
  the reset at `J = 0`, the update elsewhere); at `J = 7` that is the maximum over all 8192 rows — the
  specification's hardest positive —, and it is what the first output buffer receives. The same for the running
  minimum, the negative candidates and the second output buffer.
-/
import proofs.«152201_j11381663334709_1_alg».proof.Proof.KI.Blocks
import proofs.«152201_j11381663334709_1_alg».proof.Proof.KI.Pieces
import proofs.«152201_j11381663334709_1_alg».proof.Proof.KI.Tile
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (m : (ℓ : Loc nD τ sig) → Buf (Elt Ideal) ℓ)

/-! ## Folds of `max` and `min` over blocks of an index set -/

section Folds
variable {α : Type} [LinearOrder α]

/-- The maximum over blocks of the blocks' maxima is the maximum over everything the blocks reach. -/
theorem fold_max_blocks {ι β κ : Type} [Fintype β] [Fintype κ] (s : Finset ι) (b : α) (f : κ → α) (g : ι → β → κ)
    (hg : ∀ j : κ, ∃ J ∈ s, ∃ q : β, g J q = j) :
    s.fold max b (fun J => (Finset.univ : Finset β).fold max b (fun q => f (g J q)))
      = (Finset.univ : Finset κ).fold max b f := by
  apply le_antisymm
  · refine (Finset.fold_max_le _).mpr ⟨(Finset.le_fold_max _).mpr (Or.inl le_rfl), fun J _ => ?_⟩
    refine (Finset.fold_max_le _).mpr ⟨(Finset.le_fold_max _).mpr (Or.inl le_rfl), fun q _ => ?_⟩
    exact (Finset.le_fold_max _).mpr (Or.inr ⟨g J q, Finset.mem_univ _, le_rfl⟩)
  · refine (Finset.fold_max_le _).mpr ⟨(Finset.le_fold_max _).mpr (Or.inl le_rfl), fun j _ => ?_⟩
    obtain ⟨J, hJ, q, rfl⟩ := hg j
    exact (Finset.le_fold_max _).mpr (Or.inr ⟨J, hJ, (Finset.le_fold_max _).mpr (Or.inr ⟨q, Finset.mem_univ _, le_rfl⟩)⟩)

/-- The minimum over blocks of the blocks' minima is the minimum over everything the blocks reach. -/
theorem fold_min_blocks {ι β κ : Type} [Fintype β] [Fintype κ] (s : Finset ι) (b : α) (f : κ → α) (g : ι → β → κ)
    (hg : ∀ j : κ, ∃ J ∈ s, ∃ q : β, g J q = j) :
    s.fold min b (fun J => (Finset.univ : Finset β).fold min b (fun q => f (g J q)))
      = (Finset.univ : Finset κ).fold min b f := by
  apply le_antisymm
  · refine (Finset.le_fold_min _).mpr ⟨(Finset.fold_min_le _).mpr (Or.inl le_rfl), fun j _ => ?_⟩
    obtain ⟨J, hJ, q, rfl⟩ := hg j
    exact (Finset.fold_min_le _).mpr (Or.inr ⟨J, hJ, (Finset.fold_min_le _).mpr (Or.inr ⟨q, Finset.mem_univ _, le_rfl⟩)⟩)
  · refine (Finset.le_fold_min _).mpr ⟨(Finset.fold_min_le _).mpr (Or.inl le_rfl), fun J _ => ?_⟩
    refine (Finset.le_fold_min _).mpr ⟨(Finset.fold_min_le _).mpr (Or.inl le_rfl), fun q _ => ?_⟩
    exact (Finset.fold_min_le _).mpr (Or.inr ⟨g J q, Finset.mem_univ _, le_rfl⟩)

/-- One more block: the fold over `0 … k` is the block `k` against the fold over `0 … k - 1`. -/
theorem fold_max_range_succ (b : α) (g : ℕ → α) (k : ℕ) :
    (Finset.range (k + 1)).fold max b g = max (g k) ((Finset.range k).fold max b g) := by
  rw [Finset.range_add_one, Finset.fold_insert Finset.notMem_range_self]

theorem fold_min_range_succ (b : α) (g : ℕ → α) (k : ℕ) :
    (Finset.range (k + 1)).fold min b g = min (g k) ((Finset.range k).fold min b g) := by
  rw [Finset.range_add_one, Finset.fold_insert Finset.notMem_range_self]

end Folds

/-- Every row of the 8192 is row `q` of one of the eight column blocks. -/
theorem rowIdx_surj (j : Fin 8192) : ∃ J ∈ Finset.range 8, ∃ q : Fin 1024, rowIdx J q = j :=
  ⟨j.val / 1024, Finset.mem_range.mpr (by have := j.isLt; omega), ⟨j.val % 1024, Nat.mod_lt _ (by decide)⟩,
    Fin.ext (by show (1024 * (j.val / 1024) + j.val % 1024) % 8192 = j.val; have := j.isLt; omega)⟩

/-! ## One column block's candidates -/

/-- The maximum of the positive candidates the rows of column block `J` offer row `r` of row block `I`. -/
def blockMax (c : Dev nD) (I J : ℕ) (r : Fin 1024) : Ideal .f32 :=
  (Finset.univ : Finset (Fin 1024)).fold max (FloatOps.ofBits .f32 0xFF800000#32 : Ideal .f32)
    (fun q => Cert.Spec.posCand (xArr m c) (tgArr m c) (rowIdx I r) (rowIdx J q))

/-- The minimum of the negative candidates the rows of column block `J` offer row `r` of row block `I`. -/
def blockMin (c : Dev nD) (I J : ℕ) (r : Fin 1024) : Ideal .f32 :=
  (Finset.univ : Finset (Fin 1024)).fold min (FloatOps.ofBits .f32 0x7F800000#32 : Ideal .f32)
    (fun q => Cert.Spec.negCand (xArr m c) (tgArr m c) (rowIdx I r) (rowIdx J q))

/-- The body's update of a running maximum at point `t`, row `r`: the old value against the block's maximum. -/
theorem upd_pos (c : Dev nD) (t : Fin cfg0.N) (acc : Vec Ideal S1024x1 .f32) (r : Fin 1024) :
    k0_pay2 (F := Ideal) (k0_pay6 (iblk m c 0 t) (iblk m c 1 t)) (k0_pay7 (F := Ideal) (iblk m c 2 t))
        (k0_pay8 (F := Ideal) (iblk m c 3 t)) acc (ix2 r (0 : Fin 1))
      = max (acc (ix2 r (0 : Fin 1))) (blockMax m c (t.val / 8) (t.val % 8) r) := by
  refine (Tile.pay2_at (iblk m c 0 t) (iblk m c 1 t) (iblk m c 2 t) (iblk m c 3 t) acc r).trans ?_
  refine congrArg (max _) (Finset.fold_congr fun q _ => ?_)
  simp only [iblk0_at, iblk1_at, iblk2_at, iblk3_at]
  rfl

/-- The body's update of a running minimum at point `t`, row `r`: the old value against the block's minimum. -/
theorem upd_neg (c : Dev nD) (t : Fin cfg0.N) (acc : Vec Ideal S1024x1 .f32) (r : Fin 1024) :
    k0_pay3 (F := Ideal) (k0_pay6 (iblk m c 0 t) (iblk m c 1 t)) (k0_pay7 (F := Ideal) (iblk m c 2 t))
        (k0_pay8 (F := Ideal) (iblk m c 3 t)) acc (ix2 r (0 : Fin 1))
      = min (acc (ix2 r (0 : Fin 1))) (blockMin m c (t.val / 8) (t.val % 8) r) := by
  refine (Tile.pay3_at (iblk m c 0 t) (iblk m c 1 t) (iblk m c 2 t) (iblk m c 3 t) acc r).trans ?_
  refine congrArg (min _) (Finset.fold_congr fun q _ => ?_)
  simp only [iblk0_at, iblk1_at, iblk2_at, iblk3_at]
  rfl

/-- After the body at point `n` the running maximum at row `r` is the maximum over the column blocks met so far in
    the row block: the reset then the first block where the column-block coordinate is 0, one more block elsewhere. -/
theorem inv_pos (c : Dev nD) : ∀ (n : ℕ) (hn : n < cfg0.N) (r : Fin 1024),
    (outsAt0 m c n hn).2.2.1 (ix2 r (0 : Fin 1))
      = (Finset.range (n % 8 + 1)).fold max (FloatOps.ofBits .f32 0xFF800000#32 : Ideal .f32) (fun J => blockMax m c (n / 8) J r) := by
  intro n
  induction n using Nat.strong_induction_on with
  | _ n ih =>
    intro hn r
    rw [fold_max_range_succ]
    by_cases h0 : n % 8 = 0
    · have h1 : ¬ n % 8 = 7 := by omega
      rw [show outsAt0 m c n hn = _ from outsAt0_A m c ⟨n, hn⟩ h0 h1]
      dsimp only
      refine (congrFun (sout0_A_0_eq (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) (ms0_5 ⟨n, hn⟩) (hs0_5 ⟨n, hn⟩) scM0_0 (Memref.isWhole_whole _) scM0_1 (Memref.isWhole_whole _) ((hcond0_0 ⟨n, hn⟩).mpr h0) (fun h => h1 ((hcond0_1 ⟨n, hn⟩).mp h)) (iblk m c 0 ⟨n, hn⟩) (iblk m c 1 ⟨n, hn⟩) (iblk m c 2 ⟨n, hn⟩) (iblk m c 3 ⟨n, hn⟩)) (ix2 r (0 : Fin 1))).trans ?_
      rw [upd_pos]
      show max (k0_pay4 (F := Ideal) (ix2 r (0 : Fin 1))) (blockMax m c (n / 8) (n % 8) r) = _
      rw [Tile.pay4_at, h0, Finset.range_zero, Finset.fold_empty, max_comm]
    · have e8 : (n - 1) / 8 = n / 8 := by omega
      have e1 : (n - 1) % 8 + 1 = n % 8 := by omega
      have IH := ih (n - 1) (by omega) (Nat.lt_of_le_of_lt (Nat.sub_le _ _) hn) r
      rw [e8, e1] at IH
      by_cases h1 : n % 8 = 7
      · rw [show outsAt0 m c n hn = _ from outsAt0_C m c ⟨n, hn⟩ h0 h1]
        dsimp only
        refine (congrFun (sout0_C_0_eq (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) (ms0_5 ⟨n, hn⟩) (hs0_5 ⟨n, hn⟩) scM0_0 (Memref.isWhole_whole _) scM0_1 (Memref.isWhole_whole _) (fun h => h0 ((hcond0_0 ⟨n, hn⟩).mp h)) ((hcond0_1 ⟨n, hn⟩).mpr h1) (iblk m c 0 ⟨n, hn⟩) (iblk m c 1 ⟨n, hn⟩) (iblk m c 2 ⟨n, hn⟩) (iblk m c 3 ⟨n, hn⟩) (outsAt0 m c (n - 1) (Nat.lt_of_le_of_lt (Nat.sub_le _ _) hn)).2.2.1 (outsAt0 m c (n - 1) (Nat.lt_of_le_of_lt (Nat.sub_le _ _) hn)).2.2.2) (ix2 r (0 : Fin 1))).trans ?_
        rw [upd_pos]
        show max ((outsAt0 m c (n - 1) (Nat.lt_of_le_of_lt (Nat.sub_le _ _) hn)).2.2.1 (ix2 r (0 : Fin 1))) (blockMax m c (n / 8) (n % 8) r) = _
        rw [IH, max_comm]
      · rw [show outsAt0 m c n hn = _ from outsAt0_B m c ⟨n, hn⟩ h0 h1]
        dsimp only
        refine (congrFun (sout0_B_0_eq (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) (ms0_5 ⟨n, hn⟩) (hs0_5 ⟨n, hn⟩) scM0_0 (Memref.isWhole_whole _) scM0_1 (Memref.isWhole_whole _) (fun h => h0 ((hcond0_0 ⟨n, hn⟩).mp h)) (fun h => h1 ((hcond0_1 ⟨n, hn⟩).mp h)) (iblk m c 0 ⟨n, hn⟩) (iblk m c 1 ⟨n, hn⟩) (iblk m c 2 ⟨n, hn⟩) (iblk m c 3 ⟨n, hn⟩) (outsAt0 m c (n - 1) (Nat.lt_of_le_of_lt (Nat.sub_le _ _) hn)).2.2.1 (outsAt0 m c (n - 1) (Nat.lt_of_le_of_lt (Nat.sub_le _ _) hn)).2.2.2) (ix2 r (0 : Fin 1))).trans ?_
        rw [upd_pos]
        show max ((outsAt0 m c (n - 1) (Nat.lt_of_le_of_lt (Nat.sub_le _ _) hn)).2.2.1 (ix2 r (0 : Fin 1))) (blockMax m c (n / 8) (n % 8) r) = _
        rw [IH, max_comm]

/-- After the body at point `n` the running minimum at row `r` is the minimum over the column blocks met so far in
    the row block: the reset then the first block where the column-block coordinate is 0, one more block elsewhere. -/
theorem inv_neg (c : Dev nD) : ∀ (n : ℕ) (hn : n < cfg0.N) (r : Fin 1024),
    (outsAt0 m c n hn).2.2.2 (ix2 r (0 : Fin 1))
      = (Finset.range (n % 8 + 1)).fold min (FloatOps.ofBits .f32 0x7F800000#32 : Ideal .f32) (fun J => blockMin m c (n / 8) J r) := by
  intro n
  induction n using Nat.strong_induction_on with
  | _ n ih =>
    intro hn r
    rw [fold_min_range_succ]
    by_cases h0 : n % 8 = 0
    · have h1 : ¬ n % 8 = 7 := by omega
      rw [show outsAt0 m c n hn = _ from outsAt0_A m c ⟨n, hn⟩ h0 h1]
      dsimp only
      refine (congrFun (sout0_A_1_eq (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) (ms0_5 ⟨n, hn⟩) (hs0_5 ⟨n, hn⟩) scM0_0 (Memref.isWhole_whole _) scM0_1 (Memref.isWhole_whole _) ((hcond0_0 ⟨n, hn⟩).mpr h0) (fun h => h1 ((hcond0_1 ⟨n, hn⟩).mp h)) (iblk m c 0 ⟨n, hn⟩) (iblk m c 1 ⟨n, hn⟩) (iblk m c 2 ⟨n, hn⟩) (iblk m c 3 ⟨n, hn⟩)) (ix2 r (0 : Fin 1))).trans ?_
      rw [upd_neg]
      show min (k0_pay5 (F := Ideal) (ix2 r (0 : Fin 1))) (blockMin m c (n / 8) (n % 8) r) = _
      rw [Tile.pay5_at, h0, Finset.range_zero, Finset.fold_empty, min_comm]
    · have e8 : (n - 1) / 8 = n / 8 := by omega
      have e1 : (n - 1) % 8 + 1 = n % 8 := by omega
      have IH := ih (n - 1) (by omega) (Nat.lt_of_le_of_lt (Nat.sub_le _ _) hn) r
      rw [e8, e1] at IH
      by_cases h1 : n % 8 = 7
      · rw [show outsAt0 m c n hn = _ from outsAt0_C m c ⟨n, hn⟩ h0 h1]
        dsimp only
        refine (congrFun (sout0_C_1_eq (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) (ms0_5 ⟨n, hn⟩) (hs0_5 ⟨n, hn⟩) scM0_0 (Memref.isWhole_whole _) scM0_1 (Memref.isWhole_whole _) (fun h => h0 ((hcond0_0 ⟨n, hn⟩).mp h)) ((hcond0_1 ⟨n, hn⟩).mpr h1) (iblk m c 0 ⟨n, hn⟩) (iblk m c 1 ⟨n, hn⟩) (iblk m c 2 ⟨n, hn⟩) (iblk m c 3 ⟨n, hn⟩) (outsAt0 m c (n - 1) (Nat.lt_of_le_of_lt (Nat.sub_le _ _) hn)).2.2.1 (outsAt0 m c (n - 1) (Nat.lt_of_le_of_lt (Nat.sub_le _ _) hn)).2.2.2) (ix2 r (0 : Fin 1))).trans ?_
        rw [upd_neg]
        show min ((outsAt0 m c (n - 1) (Nat.lt_of_le_of_lt (Nat.sub_le _ _) hn)).2.2.2 (ix2 r (0 : Fin 1))) (blockMin m c (n / 8) (n % 8) r) = _
        rw [IH, min_comm]
      · rw [show outsAt0 m c n hn = _ from outsAt0_B m c ⟨n, hn⟩ h0 h1]
        dsimp only
        refine (congrFun (sout0_B_1_eq (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) (ms0_5 ⟨n, hn⟩) (hs0_5 ⟨n, hn⟩) scM0_0 (Memref.isWhole_whole _) scM0_1 (Memref.isWhole_whole _) (fun h => h0 ((hcond0_0 ⟨n, hn⟩).mp h)) (fun h => h1 ((hcond0_1 ⟨n, hn⟩).mp h)) (iblk m c 0 ⟨n, hn⟩) (iblk m c 1 ⟨n, hn⟩) (iblk m c 2 ⟨n, hn⟩) (iblk m c 3 ⟨n, hn⟩) (outsAt0 m c (n - 1) (Nat.lt_of_le_of_lt (Nat.sub_le _ _) hn)).2.2.1 (outsAt0 m c (n - 1) (Nat.lt_of_le_of_lt (Nat.sub_le _ _) hn)).2.2.2) (ix2 r (0 : Fin 1))).trans ?_
        rw [upd_neg]
        show min ((outsAt0 m c (n - 1) (Nat.lt_of_le_of_lt (Nat.sub_le _ _) hn)).2.2.2 (ix2 r (0 : Fin 1))) (blockMin m c (n / 8) (n % 8) r) = _
        rw [IH, min_comm]

/-- What the first output buffer receives at the last column block: the hardest positives of the row block. -/
theorem out_pos (c : Dev nD) (t : Fin cfg0.N) (h7 : t.val % 8 = 7) (r : Fin 1024) :
    (outsAt0 m c t.val t.isLt).1 (ix2 r (0 : Fin 1))
      = Cert.Spec.dpos (xArr m c) (tgArr m c) (ix1 (rowIdx (t.val / 8) r)) := by
  have h0 : ¬ t.val % 8 = 0 := by omega
  have e : (outsAt0 m c t.val t.isLt).1 (ix2 r (0 : Fin 1)) = (outsAt0 m c t.val t.isLt).2.2.1 (ix2 r (0 : Fin 1)) := by
    rw [outsAt0_C m c t h0 h7]
    dsimp only
    exact (congrFun (out0_C_4_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h7) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2) (ix2 r (0 : Fin 1))).trans
      (congrFun (sout0_C_0_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h7) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2) (ix2 r (0 : Fin 1))).symm
  rw [e, inv_pos m c t.val t.isLt r, h7]
  exact fold_max_blocks (Finset.range 8) _ (Cert.Spec.posCand (xArr m c) (tgArr m c) (rowIdx (t.val / 8) r)) rowIdx rowIdx_surj

/-- What the second output buffer receives at the last column block: the hardest negatives of the row block. -/
theorem out_neg (c : Dev nD) (t : Fin cfg0.N) (h7 : t.val % 8 = 7) (r : Fin 1024) :
    (outsAt0 m c t.val t.isLt).2.1 (ix2 r (0 : Fin 1))
      = Cert.Spec.dneg (xArr m c) (tgArr m c) (ix1 (rowIdx (t.val / 8) r)) := by
  have h0 : ¬ t.val % 8 = 0 := by omega
  have e : (outsAt0 m c t.val t.isLt).2.1 (ix2 r (0 : Fin 1)) = (outsAt0 m c t.val t.isLt).2.2.2 (ix2 r (0 : Fin 1)) := by
    rw [outsAt0_C m c t h0 h7]
    dsimp only
    exact (congrFun (out0_C_5_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h7) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2) (ix2 r (0 : Fin 1))).trans
      (congrFun (sout0_C_1_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h7) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2) (ix2 r (0 : Fin 1))).symm
  rw [e, inv_neg m c t.val t.isLt r, h7]
  exact fold_min_blocks (Finset.range 8) _ (Cert.Spec.negCand (xArr m c) (tgArr m c) (rowIdx (t.val / 8) r)) rowIdx rowIdx_surj

end Cert.KernelIdeal.Hand

end
-- ==== Proof.KI.Cover.lean ====
/-
  From blocks to arrays: the two result arrays [8192, 1] after the region. Result block `I` (rows `1024·I …`) is
  written back once, at the grid point `8·I + 7` (the last column block of row block `I`), from the output buffer;
  the eight blocks tile the array. So if at every such point the output buffer holds, row by row, a function of the
  array's row index, the array ends holding that function.
-/
import proofs.«152201_j11381663334709_1_alg».proof.Proof.KI.Blocks
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (m : (ℓ : Loc nD τ sig) → Buf (Elt Ideal) ℓ)

/-! ## The result windows' index maps, and the column of a function of the row -/

/-- The two result windows' block indices at point `t`: the row block `t / 8`, and `0` on the unit axis. -/
theorem idx_facts_out : ∀ t : Fin cfg0.N,
    win0_4.index t (0 : Fin 2) = t.val / 8 ∧ win0_4.index t (1 : Fin 2) = 0
    ∧ win0_5.index t (0 : Fin 2) = t.val / 8 ∧ win0_5.index t (1 : Fin 2) = 0 :=
  (by decide +kernel : ∀ t : Fin grid0.N, _)

/-- A function of the row index, as a whole [8192, 1] array. -/
def colOf (g : Fin 8192 → Ideal .f32) : S8192x1.Idx → Ideal .f32 := fun j => g ⟨(j 0).val, idx2_lt0 j⟩

/-- What point `t` writes back through result window 4, where it writes back, is its block of the column of `g`. -/
theorem flushed4_eq (c : Dev nD) (g : Fin 8192 → Ideal .f32)
    (hg : ∀ (t : Fin cfg0.N), t.val % 8 = 7 → ∀ r : Fin 1024,
      (outsAt0 m c t.val t.isLt).1 (ix2 r (0 : Fin 1)) = g (rowIdx (t.val / 8) r))
    (t : Fin cfg0.N) (hf : (cfg0.win 4).flush t = true) :
    (dats m 0 c).flushed 4 t = ((cfg0.win 4).blk t).view.read (Elt Ideal) (colOf g) := by
  have h7 : t.val % 8 = 7 := (flush0_4 t).mp hf
  obtain ⟨e40, e41, e50, e51⟩ := idx_facts_out t
  have ht := t_lt t
  show (cfg0.win 4).cut (grid0.coords t) ((dats m 0 c).after 4 t) = _
  rw [after0_4]
  funext y
  have hy0 : (y 0).val < 1024 := (y 0).isLt
  have hy1 : (y 1).val < 1 := (y 1).isLt
  have hx : (cfg0.win 4).xinj (grid0.coords t) y = ix2 (⟨(y 0).val, hy0⟩ : Fin 1024) (0 : Fin 1) := by
    funext a; apply Fin.ext
    match a with
    | ⟨0, _⟩ => rfl
    | ⟨1, _⟩ => show (y 1).val = 0; omega
  show (outsAt0 m c t.val t.isLt).1 ((cfg0.win 4).xinj (grid0.coords t) y) = colOf g (((cfg0.win 4).blk t).view.emb y)
  rw [hx, hg t h7]
  refine congrArg g (Fin.ext ?_)
  show (1024 * (t.val / 8) + (y 0).val) % 8192 = win0_4.index t (0 : Fin 2) * 1024 + 1 * (y 0).val
  omega

/-- What point `t` writes back through result window 5, where it writes back, is its block of the column of `g`. -/
theorem flushed5_eq (c : Dev nD) (g : Fin 8192 → Ideal .f32)
    (hg : ∀ (t : Fin cfg0.N), t.val % 8 = 7 → ∀ r : Fin 1024,
      (outsAt0 m c t.val t.isLt).2.1 (ix2 r (0 : Fin 1)) = g (rowIdx (t.val / 8) r))
    (t : Fin cfg0.N) (hf : (cfg0.win 5).flush t = true) :
    (dats m 0 c).flushed 5 t = ((cfg0.win 5).blk t).view.read (Elt Ideal) (colOf g) := by
  have h7 : t.val % 8 = 7 := (flush0_5 t).mp hf
  obtain ⟨e40, e41, e50, e51⟩ := idx_facts_out t
  have ht := t_lt t
  show (cfg0.win 5).cut (grid0.coords t) ((dats m 0 c).after 5 t) = _
  rw [after0_5]
  funext y
  have hy0 : (y 0).val < 1024 := (y 0).isLt
  have hy1 : (y 1).val < 1 := (y 1).isLt
  have hx : (cfg0.win 5).xinj (grid0.coords t) y = ix2 (⟨(y 0).val, hy0⟩ : Fin 1024) (0 : Fin 1) := by
    funext a; apply Fin.ext
    match a with
    | ⟨0, _⟩ => rfl
    | ⟨1, _⟩ => show (y 1).val = 0; omega
  show (outsAt0 m c t.val t.isLt).2.1 ((cfg0.win 5).xinj (grid0.coords t) y) = colOf g (((cfg0.win 5).blk t).view.emb y)
  rw [hx, hg t h7]
  refine congrArg g (Fin.ext ?_)
  show (1024 * (t.val / 8) + (y 0).val) % 8192 = win0_5.index t (0 : Fin 2) * 1024 + 1 * (y 0).val
  omega

/-- The first result array after the region, row by row, from what the first output buffer holds at the eight
    write-back points. -/
theorem arr4_of (c : Dev nD) (g : Fin 8192 → Ideal .f32)
    (hg : ∀ (t : Fin cfg0.N), t.val % 8 = 7 → ∀ r : Fin 1024,
      (outsAt0 m c t.val t.isLt).1 (ix2 r (0 : Fin 1)) = g (rowIdx (t.val / 8) r))
    (i : Fin 8192) :
    ((dats m 0 c).arrAt 4 cfg0.N : S8192x1.Idx → Ideal .f32) (ix2 i (0 : Fin 1)) = g i := by
  have hi := i.isLt
  have hI : 8 * (i.val / 1024) + 7 < cfg0.N := by rw [show cfg0.N = 64 from N_0]; omega
  obtain ⟨t, htv⟩ : ∃ t : Fin cfg0.N, t.val = 8 * (i.val / 1024) + 7 := ⟨⟨_, hI⟩, rfl⟩
  have hf : (cfg0.win 4).flush t = true := (flush0_4 t).mpr (by omega)
  obtain ⟨e40, e41, e50, e51⟩ := idx_facts_out t
  have hr : i.val % 1024 < 1024 := Nat.mod_lt _ (by decide)
  have hemb : ((cfg0.win 4).blk t).view.emb (ix2 (⟨i.val % 1024, hr⟩ : Fin 1024) (0 : Fin 1)) = ix2 i (0 : Fin 1) := by
    funext a; apply Fin.ext
    match a with
    | ⟨0, _⟩ =>
      show win0_4.index t (0 : Fin 2) * 1024 + 1 * (i.val % 1024) = i.val
      omega
    | ⟨1, _⟩ =>
      show win0_4.index t (1 : Fin 2) * 1 + 1 * 0 = 0
      omega
  have h : (dats m 0 c).arrAt 4 cfg0.N (((cfg0.win 4).blk t).view.emb (ix2 (⟨i.val % 1024, hr⟩ : Fin 1024) (0 : Fin 1)))
      = colOf g (((cfg0.win 4).blk t).view.emb (ix2 (⟨i.val % 1024, hr⟩ : Fin 1024) (0 : Fin 1))) :=
    congrFun ((dats m 0 c).read_blk_arrAt 4 (colOf g) (fun t hf => flushed4_eq m c g hg t hf) t hf) _
  refine (congrArg ((dats m 0 c).arrAt 4 cfg0.N) hemb.symm).trans (h.trans ?_)
  exact congrArg (colOf g) hemb

/-- The second result array likewise, from the second output buffer. -/
theorem arr5_of (c : Dev nD) (g : Fin 8192 → Ideal .f32)
    (hg : ∀ (t : Fin cfg0.N), t.val % 8 = 7 → ∀ r : Fin 1024,
      (outsAt0 m c t.val t.isLt).2.1 (ix2 r (0 : Fin 1)) = g (rowIdx (t.val / 8) r))
    (i : Fin 8192) :
    ((dats m 0 c).arrAt 5 cfg0.N : S8192x1.Idx → Ideal .f32) (ix2 i (0 : Fin 1)) = g i := by
  have hi := i.isLt
  have hI : 8 * (i.val / 1024) + 7 < cfg0.N := by rw [show cfg0.N = 64 from N_0]; omega
  obtain ⟨t, htv⟩ : ∃ t : Fin cfg0.N, t.val = 8 * (i.val / 1024) + 7 := ⟨⟨_, hI⟩, rfl⟩
  have hf : (cfg0.win 5).flush t = true := (flush0_5 t).mpr (by omega)
  obtain ⟨e40, e41, e50, e51⟩ := idx_facts_out t
  have hr : i.val % 1024 < 1024 := Nat.mod_lt _ (by decide)
  have hemb : ((cfg0.win 5).blk t).view.emb (ix2 (⟨i.val % 1024, hr⟩ : Fin 1024) (0 : Fin 1)) = ix2 i (0 : Fin 1) := by
    funext a; apply Fin.ext
    match a with
    | ⟨0, _⟩ =>
      show win0_5.index t (0 : Fin 2) * 1024 + 1 * (i.val % 1024) = i.val
      omega
    | ⟨1, _⟩ =>
      show win0_5.index t (1 : Fin 2) * 1 + 1 * 0 = 0
      omega
  have h : (dats m 0 c).arrAt 5 cfg0.N (((cfg0.win 5).blk t).view.emb (ix2 (⟨i.val % 1024, hr⟩ : Fin 1024) (0 : Fin 1)))
      = colOf g (((cfg0.win 5).blk t).view.emb (ix2 (⟨i.val % 1024, hr⟩ : Fin 1024) (0 : Fin 1))) :=
    congrFun ((dats m 0 c).read_blk_arrAt 5 (colOf g) (fun t hf => flushed5_eq m c g hg t hf) t hf) _
  refine (congrArg ((dats m 0 c).arrAt 5 cfg0.N) hemb.symm).trans (h.trans ?_)
  exact congrArg (colOf g) hemb

end Cert.KernelIdeal.Hand

end
-- ==== Proof.KI.Final.lean ====
/-
  The value of the idealized kernel program: its result is the specification's loss of its two arguments.

  The run ends with the result at what the thirteen host operations after the region compute from the two result
  arrays of the pipeline: the mean over the rows of `max (pos − neg + 0.3) 0`, the specification's last lines, of
  the two arrays read as vectors. The first array holds the hardest positive of every row (each block written back
  once, at the last column block of its row block, from the running maximum accumulated over the eight column
  blocks), the second the hardest negatives.
-/
import proofs.«152201_j11381663334709_1_alg».proof.Proof.KI.Launch
import proofs.«152201_j11381663334709_1_alg».proof.Proof.KI.Acc
import proofs.«152201_j11381663334709_1_alg».proof.Proof.KI.Cover
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (m : (ℓ : Loc nD τ sig) → Buf (Elt Ideal) ℓ)

/-- An `[a, 1]` array read as a vector: entry `i` is the one column's entry `i`. -/
theorem shapeCast_a1_a_apply {α : Type} {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- The first result array, read as a vector, is the specification's hardest positives. -/
theorem pos_eq (c : Dev nD) :
    shapeCast S8192 ((dats m 0 c).arrAt 4 cfg0.N : S8192x1.Idx → Ideal .f32) shapeCasts_S8192x1_S8192
      = Cert.Spec.dpos (xArr m c) (tgArr m c) := by
  funext i
  obtain ⟨p, rfl⟩ : ∃ p : Fin 8192, i = ix1 p := ⟨i 0, eq_ix1 i⟩
  refine (shapeCast_a1_a_apply _ _ p).trans ?_
  exact arr4_of m c (fun j => Cert.Spec.dpos (xArr m c) (tgArr m c) (ix1 j)) (fun t h7 r => out_pos m c t h7 r) p

/-- The second result array, read as a vector, is the specification's hardest negatives. -/
theorem neg_eq (c : Dev nD) :
    shapeCast S8192 ((dats m 0 c).arrAt 5 cfg0.N : S8192x1.Idx → Ideal .f32) shapeCasts_S8192x1_S8192
      = Cert.Spec.dneg (xArr m c) (tgArr m c) := by
  funext i
  obtain ⟨p, rfl⟩ : ∃ p : Fin 8192, i = ix1 p := ⟨i 0, eq_ix1 i⟩
  refine (shapeCast_a1_a_apply _ _ p).trans ?_
  exact arr5_of m c (fun j => Cert.Spec.dneg (xArr m c) (tgArr m c) (ix1 j)) (fun t h7 r => out_neg m c t h7 r) p

/-- The host operations after the region compute the specification's last lines of the two result arrays. -/
theorem Vend_v11 (c : Dev nD) :
    (Vend m c (Proc.devRef .tc main_v11) : S_.Idx → Ideal .f32)
      = Cert.Spec.lossOf (shapeCast S8192 ((dats m 0 c).arrAt 4 cfg0.N : S8192x1.Idx → Ideal .f32) shapeCasts_S8192x1_S8192)
          (shapeCast S8192 ((dats m 0 c).arrAt 5 cfg0.N : S8192x1.Idx → Ideal .f32) shapeCasts_S8192x1_S8192) := by
  rw [← Vx_v2_0, ← Vx_v2_1]
  dsimp only [Vend, hostOps1]
  after_results
  rfl

/-- The program's result is the loss of its two arguments. -/
theorem kernel_value (c : Dev nD) :
    (Vend m c (Proc.devRef .tc main_v11) : S_.Idx → Ideal .f32) = Cert.Spec.loss (xArr m c) (tgArr m c) := by
  rw [Vend_v11, pos_eq, neg_eq]; rfl

end Cert.KernelIdeal.Hand

end
-- ==== Proof.K.Setup.lean ====
/-
  What the hand frame of the word-level kernel program shares: the buffers' contents when the region is entered
  (the two reshapes of the labels have run), each window's block of its array at a grid point, the two branch
  conditions of the body decided over the grid (the accumulators are reset where the column-block coordinate is 0
  and copied to the outputs where it is 7), where the output windows are idle, and the memrefs the body is called on.
-/
import proofs.«152201_j11381663334709_1_alg».proof.Proof.Gen.Kernel.Launch
import proofs.«152201_j11381663334709_1_alg».proof.Proof.Gen.Kernel.Skeleton
import proofs.«152201_j11381663334709_1_alg».proof.Proof.Gen.Kernel.Points
import Idealize.ShloMosaic.Lib.Pipeline.FrameBody
import Idealize.ShloMosaic.Lib.Pipeline.Regions
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the region is entered -/

/-- Core `c`'s buffers at launch, as a valuation. -/
abbrev V₀ (c : Dev nD) : Valuation τ sig (Elt F) := fun b => m (c, b)
/-- Core `c`'s buffers when the region is entered: the two reshapes of the label vector have run. -/
abbrev V0 (c : Dev nD) : Valuation τ sig (Elt F) := StableHlo.after hostOps0 (V₀ m c)
/-- The same read at a TensorCore reference. -/
abbrev V (c : Dev nD) (b : Ref sig .tc) : Buf (Elt F) ((c : Thread nD τ).loc b) := V0 m c (Proc.devRef .tc b)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's two branch conditions -/

/-- The accumulators are reset: the column-block coordinate is 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- The accumulators are copied to the outputs: the column-block coordinate is 7. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Where the accumulators are not copied out the output windows are idle and not written back. -/
theorem idleAt0_4 : ∀ t : Fin cfg0.N, ¬cond0_1 (grid0.coords t) → cfg0.idle 4 (grid0.coords t) = true := by decide +kernel
theorem idleAt0_5 : ∀ t : Fin cfg0.N, ¬cond0_1 (grid0.coords t) → cfg0.idle 5 (grid0.coords t) = true := by decide +kernel
theorem noFlush0_4 : ∀ t : Fin cfg0.N, ¬cond0_1 (grid0.coords t) → (cfg0.win 4).flush t = false := by decide +kernel
theorem noFlush0_5 : ∀ t : Fin cfg0.N, ¬cond0_1 (grid0.coords t) → (cfg0.win 5).flush t = false := by decide +kernel
theorem liveAt0_4 : ∀ t : Fin cfg0.N, cond0_1 (grid0.coords t) → cfg0.idle 4 (grid0.coords t) = false := by decide +kernel
theorem liveAt0_5 : ∀ t : Fin cfg0.N, cond0_1 (grid0.coords t) → cfg0.idle 5 (grid0.coords t) = false := by decide +kernel

/-! ## The memrefs the body is called on -/

abbrev ms0_0 (t : Fin cfg0.N) : Memref sig .tc .vmem S1024x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x1 .f32 := win0_5.stage (cfg0.slots t 5)
abbrev hs0_5 (t : Fin cfg0.N) : (ms0_5 t).IsWhole := hstage0_5 ((cfg0.slots t 5).cast nbuf0_5)
/-- The running maximum and the running minimum live in the two scratch buffers. -/
abbrev scM0_0 : Memref sig .tc .vmem S1024x1 .f32 := Memref.whole cc0_scratch0
abbrev scM0_1 : Memref sig .tc .vmem S1024x1 .f32 := Memref.whole cc0_scratch1
/-- Views through which the contents of a [1024, 1] buffer are stated. -/
abbrev VS0_0 : View sig .tc .vmem S1024x1 .f32 := scM0_0.view
abbrev VS0_1 : View sig .tc .vmem S1024x1 .f32 := scM0_1.view
abbrev VO0_4 : View sig .tc .vmem S1024x1 .f32 := (Memref.whole cc0_stg4_0 : Memref sig .tc .vmem S1024x1 .f32).view
abbrev VO0_5 : View sig .tc .vmem S1024x1 .f32 := (Memref.whole cc0_stg5_0 : Memref sig .tc .vmem S1024x1 .f32).view

/-- The scoped buffers that are no staging buffer are the two scratch buffers, as memrefs owned at some contents. -/
theorem scopedRest0_owns (c : Dev nD) :
    (Pipeline.scopedRest (Ix := Unit) (Name := ℕ) (U := UR sig nD τ) (Lvl := ℕ) (Val := Elt F) spec0 c : sProp 𝕄)
      = iprop((∃ d, owns (c : Thread nD τ) scM0_0 fullShare d) ∗ (∃ d, owns (c : Thread nD τ) scM0_1 fullShare d)) := by
  rw [scopedRest0_eq]; simp only [scM0_0, scM0_1, owns_whole]; try rfl

end Cert.Kernel.Hand

end
-- ==== Proof.K.RunB.lean ====
/-
  The body of the kernel at a point where the column-block coordinate is neither 0 nor 7: the accumulators are
  neither reset nor copied out. On whole memrefs, the four input blocks at their contents, the two output buffers
  at anything (handed back untouched), the two scratch buffers at what the point before left, the body runs and
  leaves the scratch buffers with the pieces its stores wrote.
-/
import proofs.«152201_j11381663334709_1_alg».proof.Proof.K.Setup

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the two scratch buffers in this case, with the body's triple. -/
noncomputable def kernelRun0_B (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : ¬cond0_1 i)
    (x0 : Vec F S1024x128 .f32) (x1 : Vec F S1024x128 .f32) (x2 : Vec F S1024x1 .i32) (x3 : Vec F S1x1024 .i32)
    (xs0 : Vec F S1024x1 .f32) (xs1 : Vec F S1024x1 .f32) :
    Σ' (LS0 : List (View.Piece (Elt F) S1024x1 .f32)), { LS1 : List (View.Piece (Elt F) S1024x1 .f32) //
      ∀ (xi4 xi5 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi4 ∗ owns (c : Thread nD τ) arg7 fullShare xi5
            ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3
                ∗ owns (c : Thread nD τ) arg6 fullShare xi4 ∗ owns (c : Thread nD τ) arg7 fullShare xi5
                ∗ (∃ f, arg8.view.loc (c : Thread nD τ) ↦[arg8.view.set]{fullShare} arg8.view.writes (Elt F) f LS0)
                ∗ (∃ f, arg9.view.loc (c : Thread nD τ) ↦[arg9.view.set]{fullShare} arg9.view.writes (Elt F) f LS1)) -∗ K ⟨⟩))
          ⊢ wp frame (wpE (defs₀ (F := F)) Variants.none c none) E (cc0__mining_kernel i arg2 harg2 arg3 harg3 arg4 harg4 arg5 harg5 arg6 harg6 arg7 harg7 arg8 harg8 arg9 harg9) K } := by
  refine ⟨?_, ?_, fun xi4 xi5 E K => ?run⟩
  case run =>
    simp only [cc0__mining_kernel_eq_skeleton]; unfold cc0__mining_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5; obtain rfl := harg8.eq_unread hfs0; obtain rfl := harg9.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]
    · iexists _; iexact HS0
    iexists _; iexact HS1

end Cert.Kernel.Hand

end
-- ==== Proof.K.RunA.lean ====
/-
  The body of the kernel at a point where the column-block coordinate is 0: the accumulators are reset (to -∞ and
  +∞) and then updated with this block's row maxima and minima; nothing is copied out. On whole memrefs, the four
  input blocks at their contents, the two output buffers at anything (handed back untouched), the two scratch
  buffers at anything, the body runs and leaves the scratch buffers with the pieces its stores wrote.
-/
import proofs.«152201_j11381663334709_1_alg».proof.Proof.K.RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the two scratch buffers in this case, with the body's triple. -/
noncomputable def kernelRun0_A (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond0_0 i) (hc1 : ¬cond0_1 i)
    (x0 : Vec F S1024x128 .f32) (x1 : Vec F S1024x128 .f32) (x2 : Vec F S1024x1 .i32) (x3 : Vec F S1x1024 .i32) :
    Σ' (LS0 : List (View.Piece (Elt F) S1024x1 .f32)), { LS1 : List (View.Piece (Elt F) S1024x1 .f32) //
      ∀ (xi4 xi5 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi4 ∗ owns (c : Thread nD τ) arg7 fullShare xi5
            ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3
                ∗ owns (c : Thread nD τ) arg6 fullShare xi4 ∗ owns (c : Thread nD τ) arg7 fullShare xi5
                ∗ (∃ f, arg8.view.loc (c : Thread nD τ) ↦[arg8.view.set]{fullShare} arg8.view.writes (Elt F) f LS0)
                ∗ (∃ f, arg9.view.loc (c : Thread nD τ) ↦[arg9.view.set]{fullShare} arg9.view.writes (Elt F) f LS1)) -∗ K ⟨⟩))
          ⊢ wp frame (wpE (defs₀ (F := F)) Variants.none c none) E (cc0__mining_kernel i arg2 harg2 arg3 harg3 arg4 harg4 arg5 harg5 arg6 harg6 arg7 harg7 arg8 harg8 arg9 harg9) K } := by
  refine ⟨?_, ?_, fun xi4 xi5 E K => ?run⟩
  case run =>
    simp only [cc0__mining_kernel_eq_skeleton]; unfold cc0__mining_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]
    · iexists _; iexact HS0
    iexists _; iexact HS1

end Cert.Kernel.Hand

end
-- ==== Proof.K.RunC.lean ====
/-
  The body of the kernel at a point where the column-block coordinate is 7: the accumulators are updated with this
  block's row maxima and minima and then copied to the two output buffers. On whole memrefs, the four input blocks
  at their contents, the two output buffers at anything, the two scratch buffers at what the point before left,
  the body runs and leaves the scratch buffers and the output buffers with the pieces its stores wrote.
-/
import proofs.«152201_j11381663334709_1_alg».proof.Proof.K.RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the two output buffers and the two scratch buffers in this case, with the
    body's triple. -/
noncomputable def kernelRun0_C (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i)
    (x0 : Vec F S1024x128 .f32) (x1 : Vec F S1024x128 .f32) (x2 : Vec F S1024x1 .i32) (x3 : Vec F S1x1024 .i32)
    (xs0 : Vec F S1024x1 .f32) (xs1 : Vec F S1024x1 .f32) :
    Σ' (L4 : List (View.Piece (Elt F) S1024x1 .f32)) (L5 : List (View.Piece (Elt F) S1024x1 .f32)) (LS0 : List (View.Piece (Elt F) S1024x1 .f32)), { LS1 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ (∃ d, owns (c : Thread nD τ) arg7 fullShare d)
            ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f L5)
                ∗ (∃ f, arg8.view.loc (c : Thread nD τ) ↦[arg8.view.set]{fullShare} arg8.view.writes (Elt F) f LS0)
                ∗ (∃ f, arg9.view.loc (c : Thread nD τ) ↦[arg9.view.set]{fullShare} arg9.view.writes (Elt F) f LS1)) -∗ K ⟨⟩))
          ⊢ wp frame (wpE (defs₀ (F := F)) Variants.none c none) E (cc0__mining_kernel i arg2 harg2 arg3 harg3 arg4 harg4 arg5 harg5 arg6 harg6 arg7 harg7 arg8 harg8 arg9 harg9) K } := by
  refine ⟨?_, ?_, ?_, ?_, fun E K => ?run⟩
  case run =>
    simp only [cc0__mining_kernel_eq_skeleton]; unfold cc0__mining_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3
    obtain rfl := harg8.eq_unread hfs0; obtain rfl := harg9.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    isplitl [H5]
    · iexists _; iexact H5
    isplitl [HS0]
    · iexists _; iexact HS0
    iexists _; iexact HS1

end Cert.Kernel.Hand

end
-- ==== Proof.K.Data.lean ====
/-
  The proof data of the kernel's pipeline and its body obligation.

  What the two scratch buffers hold after each grid point (the running row maxima of the same-label distances and
  the running row minima of the other-label distances over the column blocks met so far in the current row block)
  is defined by recursion on the point: where the column-block coordinate is 0 the body's stores start from the
  reset values, elsewhere from what the point before left. Where the column-block coordinate is 7 the two output
  buffers receive the accumulators; elsewhere the output windows are idle. The region invariant after a point is
  the two scratch buffers at those contents; the body obligation is, point by point, the body's run in the
  point's case.
-/
import proofs.«152201_j11381663334709_1_alg».proof.Proof.K.RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case's stores leave -/

/-- The pieces the reset case leaves in the running-maximum buffer cover the buffer (one whole-buffer store last). -/
theorem scover0_A_0 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond0_0 i) (hc1 : ¬cond0_1 i) (x0 : Vec F S1024x128 .f32) (x1 : Vec F S1024x128 .f32) (x2 : Vec F S1024x1 .i32) (x3 : Vec F S1x1024 .i32)  (y : S1024x1.Idx) :
    ∃ pc ∈ (kernelRun0_A c i arg2 harg2 arg3 harg3 arg4 harg4 arg5 harg5 arg6 harg6 arg7 harg7 arg8 harg8 arg9 harg9 hc0 hc1 x0 x1 x2 x3).1, y ∈ pc.1.set :=
  View.cover_of_tiledL (kernelRun0_A c i arg2 harg2 arg3 harg3 arg4 harg4 arg5 harg5 arg6 harg6 arg7 harg7 arg8 harg8 arg9 harg9 hc0 hc1 x0 x1 x2 x3).1 S1024x1.size (by sl_kernel_rfl) y

/-- The pieces the reset case leaves in the running-maximum buffer read back. -/
def sout0_A_0 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond0_0 i) (hc1 : ¬cond0_1 i) (x0 : Vec F S1024x128 .f32) (x1 : Vec F S1024x128 .f32) (x2 : Vec F S1024x1 .i32) (x3 : Vec F S1x1024 .i32)  : Vec F S1024x1 .f32 :=
  VS0_0.read (Elt F) (VS0_0.writes (Elt F) VS0_0.junk (kernelRun0_A c i arg2 harg2 arg3 harg3 arg4 harg4 arg5 harg5 arg6 harg6 arg7 harg7 arg8 harg8 arg9 harg9 hc0 hc1 x0 x1 x2 x3).1)

/-- The pieces the reset case leaves in the running-minimum buffer cover the buffer (one whole-buffer store last). -/
theorem scover0_A_1 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond0_0 i) (hc1 : ¬cond0_1 i) (x0 : Vec F S1024x128 .f32) (x1 : Vec F S1024x128 .f32) (x2 : Vec F S1024x1 .i32) (x3 : Vec F S1x1024 .i32)  (y : S1024x1.Idx) :
    ∃ pc ∈ (kernelRun0_A c i arg2 harg2 arg3 harg3 arg4 harg4 arg5 harg5 arg6 harg6 arg7 harg7 arg8 harg8 arg9 harg9 hc0 hc1 x0 x1 x2 x3).2.1, y ∈ pc.1.set :=
  View.cover_of_tiledL (kernelRun0_A c i arg2 harg2 arg3 harg3 arg4 harg4 arg5 harg5 arg6 harg6 arg7 harg7 arg8 harg8 arg9 harg9 hc0 hc1 x0 x1 x2 x3).2.1 S1024x1.size (by sl_kernel_rfl) y

/-- The pieces the reset case leaves in the running-minimum buffer read back. -/
def sout0_A_1 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond0_0 i) (hc1 : ¬cond0_1 i) (x0 : Vec F S1024x128 .f32) (x1 : Vec F S1024x128 .f32) (x2 : Vec F S1024x1 .i32) (x3 : Vec F S1x1024 .i32)  : Vec F S1024x1 .f32 :=
  VS0_1.read (Elt F) (VS0_1.writes (Elt F) VS0_1.junk (kernelRun0_A c i arg2 harg2 arg3 harg3 arg4 harg4 arg5 harg5 arg6 harg6 arg7 harg7 arg8 harg8 arg9 harg9 hc0 hc1 x0 x1 x2 x3).2.1)

/-- The pieces the middle case leaves in the running-maximum buffer cover the buffer (one whole-buffer store last). -/
theorem scover0_B_0 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : ¬cond0_1 i) (x0 : Vec F S1024x128 .f32) (x1 : Vec F S1024x128 .f32) (x2 : Vec F S1024x1 .i32) (x3 : Vec F S1x1024 .i32) (xs0 : Vec F S1024x1 .f32) (xs1 : Vec F S1024x1 .f32) (y : S1024x1.Idx) :
    ∃ pc ∈ (kernelRun0_B c i arg2 harg2 arg3 harg3 arg4 harg4 arg5 harg5 arg6 harg6 arg7 harg7 arg8 harg8 arg9 harg9 hc0 hc1 x0 x1 x2 x3 xs0 xs1).1, y ∈ pc.1.set :=
  View.cover_of_tiledL (kernelRun0_B c i arg2 harg2 arg3 harg3 arg4 harg4 arg5 harg5 arg6 harg6 arg7 harg7 arg8 harg8 arg9 harg9 hc0 hc1 x0 x1 x2 x3 xs0 xs1).1 S1024x1.size (by sl_kernel_rfl) y

/-- The pieces the middle case leaves in the running-maximum buffer read back. -/
def sout0_B_0 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : ¬cond0_1 i) (x0 : Vec F S1024x128 .f32) (x1 : Vec F S1024x128 .f32) (x2 : Vec F S1024x1 .i32) (x3 : Vec F S1x1024 .i32) (xs0 : Vec F S1024x1 .f32) (xs1 : Vec F S1024x1 .f32) : Vec F S1024x1 .f32 :=
  VS0_0.read (Elt F) (VS0_0.writes (Elt F) VS0_0.junk (kernelRun0_B c i arg2 harg2 arg3 harg3 arg4 harg4 arg5 harg5 arg6 harg6 arg7 harg7 arg8 harg8 arg9 harg9 hc0 hc1 x0 x1 x2 x3 xs0 xs1).1)

/-- The pieces the middle case leaves in the running-minimum buffer cover the buffer (one whole-buffer store last). -/
theorem scover0_B_1 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : ¬cond0_1 i) (x0 : Vec F S1024x128 .f32) (x1 : Vec F S1024x128 .f32) (x2 : Vec F S1024x1 .i32) (x3 : Vec F S1x1024 .i32) (xs0 : Vec F S1024x1 .f32) (xs1 : Vec F S1024x1 .f32) (y : S1024x1.Idx) :
    ∃ pc ∈ (kernelRun0_B c i arg2 harg2 arg3 harg3 arg4 harg4 arg5 harg5 arg6 harg6 arg7 harg7 arg8 harg8 arg9 harg9 hc0 hc1 x0 x1 x2 x3 xs0 xs1).2.1, y ∈ pc.1.set :=
  View.cover_of_tiledL (kernelRun0_B c i arg2 harg2 arg3 harg3 arg4 harg4 arg5 harg5 arg6 harg6 arg7 harg7 arg8 harg8 arg9 harg9 hc0 hc1 x0 x1 x2 x3 xs0 xs1).2.1 S1024x1.size (by sl_kernel_rfl) y

/-- The pieces the middle case leaves in the running-minimum buffer read back. -/
def sout0_B_1 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : ¬cond0_1 i) (x0 : Vec F S1024x128 .f32) (x1 : Vec F S1024x128 .f32) (x2 : Vec F S1024x1 .i32) (x3 : Vec F S1x1024 .i32) (xs0 : Vec F S1024x1 .f32) (xs1 : Vec F S1024x1 .f32) : Vec F S1024x1 .f32 :=
  VS0_1.read (Elt F) (VS0_1.writes (Elt F) VS0_1.junk (kernelRun0_B c i arg2 harg2 arg3 harg3 arg4 harg4 arg5 harg5 arg6 harg6 arg7 harg7 arg8 harg8 arg9 harg9 hc0 hc1 x0 x1 x2 x3 xs0 xs1).2.1)

/-- The pieces the last-column-block case leaves in the first output buffer cover the buffer (one whole-buffer store last). -/
theorem cover0_C_4 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i) (x0 : Vec F S1024x128 .f32) (x1 : Vec F S1024x128 .f32) (x2 : Vec F S1024x1 .i32) (x3 : Vec F S1x1024 .i32) (xs0 : Vec F S1024x1 .f32) (xs1 : Vec F S1024x1 .f32) (y : S1024x1.Idx) :
    ∃ pc ∈ (kernelRun0_C c i arg2 harg2 arg3 harg3 arg4 harg4 arg5 harg5 arg6 harg6 arg7 harg7 arg8 harg8 arg9 harg9 hc0 hc1 x0 x1 x2 x3 xs0 xs1).1, y ∈ pc.1.set :=
  View.cover_of_tiledL (kernelRun0_C c i arg2 harg2 arg3 harg3 arg4 harg4 arg5 harg5 arg6 harg6 arg7 harg7 arg8 harg8 arg9 harg9 hc0 hc1 x0 x1 x2 x3 xs0 xs1).1 S1024x1.size (by sl_kernel_rfl) y

/-- The pieces the last-column-block case leaves in the first output buffer read back. -/
def out0_C_4 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i) (x0 : Vec F S1024x128 .f32) (x1 : Vec F S1024x128 .f32) (x2 : Vec F S1024x1 .i32) (x3 : Vec F S1x1024 .i32) (xs0 : Vec F S1024x1 .f32) (xs1 : Vec F S1024x1 .f32) : Vec F S1024x1 .f32 :=
  VO0_4.read (Elt F) (VO0_4.writes (Elt F) VO0_4.junk (kernelRun0_C c i arg2 harg2 arg3 harg3 arg4 harg4 arg5 harg5 arg6 harg6 arg7 harg7 arg8 harg8 arg9 harg9 hc0 hc1 x0 x1 x2 x3 xs0 xs1).1)

/-- The pieces the last-column-block case leaves in the second output buffer cover the buffer (one whole-buffer store last). -/
theorem cover0_C_5 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i) (x0 : Vec F S1024x128 .f32) (x1 : Vec F S1024x128 .f32) (x2 : Vec F S1024x1 .i32) (x3 : Vec F S1x1024 .i32) (xs0 : Vec F S1024x1 .f32) (xs1 : Vec F S1024x1 .f32) (y : S1024x1.Idx) :
    ∃ pc ∈ (kernelRun0_C c i arg2 harg2 arg3 harg3 arg4 harg4 arg5 harg5 arg6 harg6 arg7 harg7 arg8 harg8 arg9 harg9 hc0 hc1 x0 x1 x2 x3 xs0 xs1).2.1, y ∈ pc.1.set :=
  View.cover_of_tiledL (kernelRun0_C c i arg2 harg2 arg3 harg3 arg4 harg4 arg5 harg5 arg6 harg6 arg7 harg7 arg8 harg8 arg9 harg9 hc0 hc1 x0 x1 x2 x3 xs0 xs1).2.1 S1024x1.size (by sl_kernel_rfl) y

/-- The pieces the last-column-block case leaves in the second output buffer read back. -/
def out0_C_5 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i) (x0 : Vec F S1024x128 .f32) (x1 : Vec F S1024x128 .f32) (x2 : Vec F S1024x1 .i32) (x3 : Vec F S1x1024 .i32) (xs0 : Vec F S1024x1 .f32) (xs1 : Vec F S1024x1 .f32) : Vec F S1024x1 .f32 :=
  VO0_5.read (Elt F) (VO0_5.writes (Elt F) VO0_5.junk (kernelRun0_C c i arg2 harg2 arg3 harg3 arg4 harg4 arg5 harg5 arg6 harg6 arg7 harg7 arg8 harg8 arg9 harg9 hc0 hc1 x0 x1 x2 x3 xs0 xs1).2.1)

/-- The pieces the last-column-block case leaves in the running-maximum buffer cover the buffer (one whole-buffer store last). -/
theorem scover0_C_0 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i) (x0 : Vec F S1024x128 .f32) (x1 : Vec F S1024x128 .f32) (x2 : Vec F S1024x1 .i32) (x3 : Vec F S1x1024 .i32) (xs0 : Vec F S1024x1 .f32) (xs1 : Vec F S1024x1 .f32) (y : S1024x1.Idx) :
    ∃ pc ∈ (kernelRun0_C c i arg2 harg2 arg3 harg3 arg4 harg4 arg5 harg5 arg6 harg6 arg7 harg7 arg8 harg8 arg9 harg9 hc0 hc1 x0 x1 x2 x3 xs0 xs1).2.2.1, y ∈ pc.1.set :=
  View.cover_of_tiledL (kernelRun0_C c i arg2 harg2 arg3 harg3 arg4 harg4 arg5 harg5 arg6 harg6 arg7 harg7 arg8 harg8 arg9 harg9 hc0 hc1 x0 x1 x2 x3 xs0 xs1).2.2.1 S1024x1.size (by sl_kernel_rfl) y

/-- The pieces the last-column-block case leaves in the running-maximum buffer read back. -/
def sout0_C_0 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i) (x0 : Vec F S1024x128 .f32) (x1 : Vec F S1024x128 .f32) (x2 : Vec F S1024x1 .i32) (x3 : Vec F S1x1024 .i32) (xs0 : Vec F S1024x1 .f32) (xs1 : Vec F S1024x1 .f32) : Vec F S1024x1 .f32 :=
  VS0_0.read (Elt F) (VS0_0.writes (Elt F) VS0_0.junk (kernelRun0_C c i arg2 harg2 arg3 harg3 arg4 harg4 arg5 harg5 arg6 harg6 arg7 harg7 arg8 harg8 arg9 harg9 hc0 hc1 x0 x1 x2 x3 xs0 xs1).2.2.1)

/-- The pieces the last-column-block case leaves in the running-minimum buffer cover the buffer (one whole-buffer store last). -/
theorem scover0_C_1 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i) (x0 : Vec F S1024x128 .f32) (x1 : Vec F S1024x128 .f32) (x2 : Vec F S1024x1 .i32) (x3 : Vec F S1x1024 .i32) (xs0 : Vec F S1024x1 .f32) (xs1 : Vec F S1024x1 .f32) (y : S1024x1.Idx) :
    ∃ pc ∈ (kernelRun0_C c i arg2 harg2 arg3 harg3 arg4 harg4 arg5 harg5 arg6 harg6 arg7 harg7 arg8 harg8 arg9 harg9 hc0 hc1 x0 x1 x2 x3 xs0 xs1).2.2.2.1, y ∈ pc.1.set :=
  View.cover_of_tiledL (kernelRun0_C c i arg2 harg2 arg3 harg3 arg4 harg4 arg5 harg5 arg6 harg6 arg7 harg7 arg8 harg8 arg9 harg9 hc0 hc1 x0 x1 x2 x3 xs0 xs1).2.2.2.1 S1024x1.size (by sl_kernel_rfl) y

/-- The pieces the last-column-block case leaves in the running-minimum buffer read back. -/
def sout0_C_1 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i) (x0 : Vec F S1024x128 .f32) (x1 : Vec F S1024x128 .f32) (x2 : Vec F S1024x1 .i32) (x3 : Vec F S1x1024 .i32) (xs0 : Vec F S1024x1 .f32) (xs1 : Vec F S1024x1 .f32) : Vec F S1024x1 .f32 :=
  VS0_1.read (Elt F) (VS0_1.writes (Elt F) VS0_1.junk (kernelRun0_C c i arg2 harg2 arg3 harg3 arg4 harg4 arg5 harg5 arg6 harg6 arg7 harg7 arg8 harg8 arg9 harg9 hc0 hc1 x0 x1 x2 x3 xs0 xs1).2.2.2.1)

/-! ## What the buffers hold after each point -/

/-- After the body at position `n`: (first output buffer, second output buffer, running maximum, running minimum).
    The output components matter only where the column-block coordinate is 7 (elsewhere the windows are idle and
    the components are placeholders nothing consults). -/
def outsAt0 (c : Dev nD) : (n : ℕ) → n < cfg0.N → Vec F S1024x1 .f32 × Vec F S1024x1 .f32 × Vec F S1024x1 .f32 × Vec F S1024x1 .f32
  | 0, hn => (sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩))
  | n + 1, hn =>
    if h0 : (n + 1) % 8 = 0 then
      if h1 : (n + 1) % 8 = 7 then
        False.elim (by omega)
      else
        (sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩))
    else
      if h1 : (n + 1) % 8 = 7 then
        (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.1 (outsAt0 c n (Nat.lt_of_succ_lt hn)).2.2.2, out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.1 (outsAt0 c n (Nat.lt_of_succ_lt hn)).2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.1 (outsAt0 c n (Nat.lt_of_succ_lt hn)).2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.1 (outsAt0 c n (Nat.lt_of_succ_lt hn)).2.2.2)
      else
        (sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.1 (outsAt0 c n (Nat.lt_of_succ_lt hn)).2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.1 (outsAt0 c n (Nat.lt_of_succ_lt hn)).2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.1 (outsAt0 c n (Nat.lt_of_succ_lt hn)).2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.1 (outsAt0 c n (Nat.lt_of_succ_lt hn)).2.2.2)

theorem outsAt0_A (c : Dev nD) (t : Fin cfg0.N) (h0 : t.val % 8 = 0) (h1 : ¬t.val % 8 = 7) :
    outsAt0 m c t.val t.isLt = (sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t)) := by
  obtain ⟨n, hn⟩ := t
  cases n with
  | zero => exact rfl
  | succ n => exact (dif_pos h0).trans ((dif_neg h1).trans rfl)

theorem outsAt0_B (c : Dev nD) (t : Fin cfg0.N) (h0 : ¬t.val % 8 = 0) (h1 : ¬t.val % 8 = 7) :
    outsAt0 m c t.val t.isLt = (sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 8 = 0) (h1 : t.val % 8 = 7) :
    outsAt0 m c t.val t.isLt = (out0_C_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2, out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the two scratch buffers at anything;
    afterwards at what the point before left in them. -/
def PhiS (c : Dev nD) : (n : ℕ) → n ≤ cfg0.N → sProp 𝕄
  | 0, _ => Pipeline.scopedRest (Ix := Unit) (Name := ℕ) (U := UR sig nD τ) (Lvl := ℕ) (Val := Elt F) spec0 c
  | n + 1, hn => iprop(owns (c : Thread nD τ) scM0_0 fullShare ((outsAt0 m c n hn).2.2.1) ∗ owns (c : Thread nD τ) scM0_1 fullShare ((outsAt0 m c n hn).2.2.2))

theorem PhiS_zero (c : Dev nD) (n : ℕ) (h : n ≤ cfg0.N) (hz : n = 0) :
    PhiS m c n h = Pipeline.scopedRest (Ix := Unit) (Name := ℕ) (U := UR sig nD τ) (Lvl := ℕ) (Val := Elt F) spec0 c := by
  subst hz; rfl

theorem PhiS_succ (c : Dev nD) (n : ℕ) (hn : n < cfg0.N) :
    PhiS m c (n + 1) hn = iprop(owns (c : Thread nD τ) scM0_0 fullShare ((outsAt0 m c n hn).2.2.1) ∗ owns (c : Thread nD τ) scM0_1 fullShare ((outsAt0 m c n hn).2.2.2)) := rfl

theorem PhiS_pos (c : Dev nD) (n : ℕ) (h : n ≤ cfg0.N) (hz : n ≠ 0) :
    PhiS m c n h = iprop(owns (c : Thread nD τ) scM0_0 fullShare ((outsAt0 m c (n - 1) (by omega)).2.2.1) ∗ owns (c : Thread nD τ) scM0_1 fullShare ((outsAt0 m c (n - 1) (by omega)).2.2.2)) := by
  cases n with
  | zero => exact absurd rfl hz
  | succ n => rfl

/-! ## The pipeline's proof data -/

/-- The proof data on core `c`: the arrays as the region finds them; after the body at point `t` each input's
    buffer at its block, the outputs' at `outsAt0`'s first two components; the invariant `PhiS`; nothing owed;
    the feature matrix, which two windows read, held by each at one half of the full share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
    | ⟨5, _⟩ => (outsAt0 m c t.val t.isLt).2.1
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]
theorem after0_5 (c : Dev nD) (t : Fin cfg0.N) : (dats m 0 c).after 5 t = (outsAt0 m c t.val t.isLt).2.1 := by dsimp only [dats]

/-- Input window 0's current staging buffer holds its block at every point, fetched there or not. -/
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)

/-- Input window 1's current staging buffer holds its block at every point, fetched there or not. -/
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)

/-- Input window 2's current staging buffer holds its block at every point, fetched there or not. -/
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)

/-- Input window 3's current staging buffer holds its block at every point, fetched there or not. -/
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 4800000 in
/-- The body at any point: the inputs' buffers hold their blocks; the closed forms of the two conditions say which
    case the point is in; the invariant hands the body the scratch buffers at what the point before left (at
    anything at the first point) and takes them back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  by_cases h0 : t.val % 8 = 0
  · by_cases h1 : t.val % 8 = 7
    · exfalso; omega
    · rw [Dat.leavesExact_idle (dats m 0 c) 4 t (idleAt0_4 t (fun h => h1 ((hcond0_1 t).mp h))) (noFlush0_4 t (fun h => h1 ((hcond0_1 t).mp h)))]
      rw [Dat.leavesExact_idle (dats m 0 c) 5 t (idleAt0_5 t (fun h => h1 ((hcond0_1 t).mp h))) (noFlush0_5 t (fun h => h1 ((hcond0_1 t).mp h)))]
      rw [outsAt0_A m c t h0 h1]
      unfold sout0_A_0 sout0_A_1; (try dsimp only)
      by_cases hz : t.val = 0
      · rw [PhiS_castSucc m c t, PhiS_zero m c _ _ hz, scopedRest0_owns]
        iintro ⟨⟨HS0, HS1⟩, Ho, ⟨%d0, H0⟩, ⟨%d1, H1⟩, ⟨%d2, H2⟩, ⟨%d3, H3⟩, ⟨%d4, H4⟩, ⟨%d5, H5⟩⟩
        iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t)).2.2 _ _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        iintro ⟨H0, H1, H2, H3, H4, H5, ⟨%es0, HS0⟩, ⟨%es1, HS1⟩⟩
        isplitl [HS0 HS1]
        isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _)
        · unfold owns; iexists _; isplitr
          swap; · iexact HS1
          ipureintro; exact View.read_writes_of_cover _ _ _ _ _ (scover0_A_1 c _ _ _ _ _ _ _ _ _ _ _ _ _ _ _ _ _ _ _ _ _ _ _)
        isplitl [Ho]; · iexact Ho
        isplitl [H0]; · iexact H0
        isplitl [H1]; · iexact H1
        isplitl [H2]; · iexact H2
        isplitl [H3]; · iexact H3
        isplitl [H4]; · iexists _; iexact H4
        iexists _; iexact H5
      · rw [PhiS_castSucc m c t, PhiS_pos m c _ _ hz]
        iintro ⟨⟨HS0, HS1⟩, Ho, ⟨%d0, H0⟩, ⟨%d1, H1⟩, ⟨%d2, H2⟩, ⟨%d3, H3⟩, ⟨%d4, H4⟩, ⟨%d5, H5⟩⟩
        iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t)).2.2 _ _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        isplitl [HS1]; · iexists _; iexact HS1
        iintro ⟨H0, H1, H2, H3, H4, H5, ⟨%es0, HS0⟩, ⟨%es1, HS1⟩⟩
        isplitl [HS0 HS1]
        isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _)
        · unfold owns; iexists _; isplitr
          swap; · iexact HS1
          ipureintro; exact View.read_writes_of_cover _ _ _ _ _ (scover0_A_1 c _ _ _ _ _ _ _ _ _ _ _ _ _ _ _ _ _ _ _ _ _ _ _)
        isplitl [Ho]; · iexact Ho
        isplitl [H0]; · iexact H0
        isplitl [H1]; · iexact H1
        isplitl [H2]; · iexact H2
        isplitl [H3]; · iexact H3
        isplitl [H4]; · iexists _; iexact H4
        iexists _; iexact H5
  · have hz : t.val ≠ 0 := fun hz => h0 (by rw [hz])
    by_cases h1 : t.val % 8 = 7
    · rw [show (dats m 0 c).leavesExact 4 t = owns (c : Thread nD τ) (ms0_4 t) fullShare ((dats m 0 c).after 4 t) from by
        unfold Dat.leavesExact; rw [liveAt0_4 t ((hcond0_1 t).mpr h1)], after0_4]
      rw [show (dats m 0 c).leavesExact 5 t = owns (c : Thread nD τ) (ms0_5 t) fullShare ((dats m 0 c).after 5 t) from by
        unfold Dat.leavesExact; rw [liveAt0_5 t ((hcond0_1 t).mpr h1)], after0_5]
      rw [outsAt0_C m c t h0 h1]
      unfold out0_C_4 out0_C_5 sout0_C_0 sout0_C_1; (try dsimp only)
      rw [PhiS_castSucc m c t, PhiS_pos m c _ _ hz]
      iintro ⟨⟨HS0, HS1⟩, Ho, ⟨%d0, H0⟩, ⟨%d1, H1⟩, ⟨%d2, H2⟩, ⟨%d3, H3⟩, ⟨%d4, H4⟩, ⟨%d5, H5⟩⟩
      iapply ((kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) _ _).2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      isplitl [HS1]; · iexact HS1
      iintro ⟨H0, H1, H2, H3, ⟨%e4, H4⟩, ⟨%e5, H5⟩, ⟨%es0, HS0⟩, ⟨%es1, HS1⟩⟩
      isplitl [HS0 HS1]
      isplitl [HS0]
      · unfold owns; iexists _; isplitr
        swap; · iexact HS0
        ipureintro; exact View.read_writes_of_cover _ _ _ _ _ (scover0_C_0 c _ _ _ _ _ _ _ _ _ _ _ _ _ _ _ _ _ _ _ _ _ _ _ _ _)
      · unfold owns; iexists _; isplitr
        swap; · iexact HS1
        ipureintro; exact View.read_writes_of_cover _ _ _ _ _ (scover0_C_1 c _ _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover0_C_4 c _ _ _ _ _ _ _ _ _ _ _ _ _ _ _ _ _ _ _ _ _ _ _ _ _)
      · unfold owns; iexists _; isplitr
        swap; · iexact H5
        ipureintro; exact View.read_writes_of_cover _ _ _ _ _ (cover0_C_5 c _ _ _ _ _ _ _ _ _ _ _ _ _ _ _ _ _ _ _ _ _ _ _ _ _)
    · rw [Dat.leavesExact_idle (dats m 0 c) 4 t (idleAt0_4 t (fun h => h1 ((hcond0_1 t).mp h))) (noFlush0_4 t (fun h => h1 ((hcond0_1 t).mp h)))]
      rw [Dat.leavesExact_idle (dats m 0 c) 5 t (idleAt0_5 t (fun h => h1 ((hcond0_1 t).mp h))) (noFlush0_5 t (fun h => h1 ((hcond0_1 t).mp h)))]
      rw [outsAt0_B m c t h0 h1]
      unfold sout0_B_0 sout0_B_1; (try dsimp only)
      rw [PhiS_castSucc m c t, PhiS_pos m c _ _ hz]
      iintro ⟨⟨HS0, HS1⟩, Ho, ⟨%d0, H0⟩, ⟨%d1, H1⟩, ⟨%d2, H2⟩, ⟨%d3, H3⟩, ⟨%d4, H4⟩, ⟨%d5, H5⟩⟩
      iapply ((kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) _ _).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, ⟨%es0, HS0⟩, ⟨%es1, HS1⟩⟩
      isplitl [HS0 HS1]
      isplitl [HS0]
      · unfold owns; iexists _; isplitr
        swap; · iexact HS0
        ipureintro; exact View.read_writes_of_cover _ _ _ _ _ (scover0_B_0 c _ _ _ _ _ _ _ _ _ _ _ _ _ _ _ _ _ _ _ _ _ _ _ _ _)
      · unfold owns; iexists _; isplitr
        swap; · iexact HS1
        ipureintro; exact View.read_writes_of_cover _ _ _ _ _ (scover0_B_1 c _ _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexists _; iexact H4
      iexists _; iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-- Before the first point the invariant is the two scratch buffers at anything. -/
theorem Phi_zero (c : Dev nD) :
    (dats m 0 c).Φ 0 = Pipeline.scopedRest (Ix := Unit) (Name := ℕ) (U := UR sig nD τ) (Lvl := ℕ) (Val := Elt F) spec0 c := rfl

/-- After the last point the invariant gives the two scratch buffers back, their contents forgotten. -/
theorem Phi_last (c : Dev nD) :
    (dats m 0 c).Φ (Fin.last cfg0.N) ⊢ (Pipeline.scopedRest (Ix := Unit) (Name := ℕ) (U := UR sig nD τ) (Lvl := ℕ) (Val := Elt F) spec0 c : sProp 𝕄) := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 64 := N_0; omega), scopedRest0_owns]
  iintro ⟨HS0, HS1⟩
  isplitl [HS0]
  · iexists _; iexact HS0
  · iexists _; iexact HS1

end Cert.Kernel.Hand

end
-- ==== Proof.K.Launch.lean ====
/-
  The run of the word-level kernel program: @main as the two reshapes of the labels, the kernel region, the thirteen
  host operations after it, composed by the library's theorem for an @main given as a list of segments.

  Between segments core `c` holds every unscoped buffer whole at a valuation. The region is entered by handing the
  pipeline its five arrays — the feature matrix, which two windows read, split into two half shares —, and left by
  taking them back, the two results at what the pipeline's write-backs left there (stated as the valuation after two
  fictitious constant operations that write exactly those contents), every other buffer as it was.
-/
import proofs.«152201_j11381663334709_1_alg».proof.Proof.K.Data

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pipeline library's algebra is the certificate's. -/
abbrev EP : Emb (UR sig nD τ) (MT nD τ sig Unit (Elt F) ℕ (UR sig nD τ) ℕ) := emb₁
/-- No core owes another anything: no level is assigned. -/
abbrev L : GSem nD τ sig → Finset Unit := fun _ => ∅
abbrev lv : GSem nD τ sig → Unit → ℕ := fun _ _ => 0
/-- No prefetched table. -/
abbrev adm : (p : Fin 1) → (pcfgs (F := F) p).Adm := fun p => (cfgs p).toPCfg_adm
abbrev 𝒱₀ : Variants := Variants.none
/-- What rides beside the buffers: the core owes nothing. -/
abbrev R (c : Dev nD) : sProp 𝕄 := iprop(∃ W, owes (c : Thread nD τ) (0 : CellTallies nD τ sig Unit) W)

/-! ## The buffers when the region is left -/

/-- Two constant operations writing the two results' final contents: the valuation after them is the region's exit. -/
abbrev exitOps (c : Dev nD) : List (HloOp τ sig (Elt F)) :=
  [ StableHlo.nullary main_v2_0 ((dats m 0 c).arrAt 4 cfg0.N),
    StableHlo.nullary main_v2_1 ((dats m 0 c).arrAt 5 cfg0.N) ]
/-- Core `c`'s buffers when the region is left. -/
abbrev Vx (c : Dev nD) : Valuation τ sig (Elt F) := StableHlo.after (exitOps m c) (V0 m c)
/-- Core `c`'s buffers at the end. -/
abbrev Vend (c : Dev nD) : Valuation τ sig (Elt F) := StableHlo.after hostOps1 (Vx m c)

/-! ## The arrays, listed -/

/-- The distinct buffers behind the windows' arrays. -/
theorem arrBufs0_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_arg0) ↦{fullShare} W main_arg0) ∗ (((c : Thread nD τ).loc main_v0) ↦{fullShare} W main_v0) ∗ (((c : Thread nD τ).loc main_v1) ↦{fullShare} W main_v1) ∗ (((c : Thread nD τ).loc main_v2_0) ↦{fullShare} W main_v2_0) ∗ (((c : Thread nD τ).loc main_v2_1) ↦{fullShare} W main_v2_1)) := by
  unfold Pipeline.arrBufs
  exact bigSep_eq_bigSepL_of_eq [main_arg0, main_v0, main_v1, main_v2_0, main_v2_1] (by decide) (by decide) _

/-- Every window's array is a whole buffer. -/
theorem arrSet0_0 : (cfg0.win 0).arr.view.set = Finset.univ := (arr_whole0 0).set_eq_univ
theorem arrSet0_1 : (cfg0.win 1).arr.view.set = Finset.univ := (arr_whole0 1).set_eq_univ
theorem arrSet0_2 : (cfg0.win 2).arr.view.set = Finset.univ := (arr_whole0 2).set_eq_univ
theorem arrSet0_3 : (cfg0.win 3).arr.view.set = Finset.univ := (arr_whole0 3).set_eq_univ
theorem arrSet0_4 : (cfg0.win 4).arr.view.set = Finset.univ := (arr_whole0 4).set_eq_univ
theorem arrSet0_5 : (cfg0.win 5).arr.view.set = Finset.univ := (arr_whole0 5).set_eq_univ
/-- The shares the windows hold their arrays at: the feature matrix's two readers a half each. -/
theorem share0_0 (c : Dev nD) : (dats m 0 c).share 0 = fullShare.left := rfl
theorem share0_1 (c : Dev nD) : (dats m 0 c).share 1 = fullShare.right := rfl
theorem share0_2 (c : Dev nD) : (dats m 0 c).share 2 = fullShare := rfl
theorem share0_3 (c : Dev nD) : (dats m 0 c).share 3 = fullShare := rfl
theorem share0_4 (c : Dev nD) : (dats m 0 c).share 4 = fullShare := rfl
theorem share0_5 (c : Dev nD) : (dats m 0 c).share 5 = fullShare := rfl

/-- The pipeline's arrays at contents `G`, window by window: the feature matrix twice, at the two halves. -/
theorem arrays0_eq (c : Dev nD) (G : (w : Fin cfg0.W) → Buf (Elt F) ((cfg0.win w).arr.view.loc (c : Thread nD τ))) :
    ((dats m 0 c).arrays G : sProp 𝕄)
      = iprop((((c : Thread nD τ).loc main_arg0) ↦{fullShare.left} G 0) ∗ (((c : Thread nD τ).loc main_arg0) ↦{fullShare.right} G 1) ∗ (((c : Thread nD τ).loc main_v0) ↦{fullShare} G 2) ∗ (((c : Thread nD τ).loc main_v1) ↦{fullShare} G 3) ∗ (((c : Thread nD τ).loc main_v2_0) ↦{fullShare} G 4) ∗ (((c : Thread nD τ).loc main_v2_1) ↦{fullShare} G 5)) := by
  unfold Dat.arrays
  rw [bigSep_W0, arrSet0_0, arrSet0_2, arrSet0_3, arrSet0_4, arrSet0_5, share0_0, share0_1, share0_2, share0_3, share0_4, share0_5]
  try rfl

/-- Every unscoped buffer of the core, listed: the five arrays of the pipeline, then the buffers that bypass it. -/
theorem unscopedBufs0_eq (c : Dev nD) (W : (b : Ref sig .tc) → Buf (Elt F) ((c : Thread nD τ).loc b)) :
    (unscopedBufs (Ix := Unit) (Name := ℕ) (U := UR sig nD τ) (Lvl := ℕ) c W : sProp 𝕄)
      = iprop((((c : Thread nD τ).loc main_arg0) ↦{fullShare} W main_arg0) ∗ (((c : Thread nD τ).loc main_v0) ↦{fullShare} W main_v0) ∗ (((c : Thread nD τ).loc main_v1) ↦{fullShare} W main_v1) ∗ (((c : Thread nD τ).loc main_v2_0) ↦{fullShare} W main_v2_0) ∗ (((c : Thread nD τ).loc main_v2_1) ↦{fullShare} W main_v2_1) ∗ (((c : Thread nD τ).loc main_arg1) ↦{fullShare} W main_arg1) ∗ (((c : Thread nD τ).loc main_v3) ↦{fullShare} W main_v3) ∗ (((c : Thread nD τ).loc main_v4) ↦{fullShare} W main_v4) ∗ (((c : Thread nD τ).loc main_v5) ↦{fullShare} W main_v5) ∗ (((c : Thread nD τ).loc main_cst) ↦{fullShare} W main_cst) ∗ (((c : Thread nD τ).loc main_v6) ↦{fullShare} W main_v6) ∗ (((c : Thread nD τ).loc main_v7) ↦{fullShare} W main_v7) ∗ (((c : Thread nD τ).loc main_cst_0) ↦{fullShare} W main_cst_0) ∗ (((c : Thread nD τ).loc main_v8) ↦{fullShare} W main_v8) ∗ (((c : Thread nD τ).loc main_v9) ↦{fullShare} W main_v9) ∗ (((c : Thread nD τ).loc main_cst_1) ↦{fullShare} W main_cst_1) ∗ (((c : Thread nD τ).loc main_v10) ↦{fullShare} W main_v10) ∗ (((c : Thread nD τ).loc main_cst_2) ↦{fullShare} W main_cst_2) ∗ (((c : Thread nD τ).loc main_v11) ↦{fullShare} W main_v11)) := by
  unfold unscopedBufs
  exact bigSep_eq_bigSepL_of_eq [main_arg0, main_v0, main_v1, main_v2_0, main_v2_1, main_arg1, main_v3, main_v4, main_v5, main_cst, main_v6, main_v7, main_cst_0, main_v8, main_v9, main_cst_1, main_v10, main_cst_2, main_v11] (by decide) (by decide) _

/-! ## What the exit valuation holds -/

/-- A buffer that is neither result keeps its region-entry contents. -/
theorem Vx_of_ne (c : Dev nD) (b : Ref sig .tc) (h0 : b ≠ main_v2_0) (h1 : b ≠ main_v2_1) :
    Vx m c (Proc.devRef .tc b) = V0 m c (Proc.devRef .tc b) :=
  StableHlo.after_of_forall_not_mem _ _ fun op hop => by
    simp only [List.mem_cons, List.mem_nil_iff, or_false] at hop
    rcases hop with rfl | rfl <;> simp only [StableHlo.nullary_writes, Finset.mem_singleton] <;>
      exact StableHlo.devRef_ne_of_ne ‹_›

theorem Vx_v2_0 (c : Dev nD) : Vx m c (Proc.devRef .tc main_v2_0) = (dats m 0 c).arrAt 4 cfg0.N := by
  dsimp only [Vx, exitOps]; after_results
theorem Vx_v2_1 (c : Dev nD) : Vx m c (Proc.devRef .tc main_v2_1) = (dats m 0 c).arrAt 5 cfg0.N := by
  dsimp only [Vx, exitOps]; after_results

/-- No host operation before the region writes an argument. -/
theorem V0_of_ne (c : Dev nD) (b : Ref sig .tc) (h0 : b ≠ main_v0) (h1 : b ≠ main_v1) :
    V0 m c (Proc.devRef .tc b) = m ((c : Thread nD τ).loc b) :=
  StableHlo.after_of_forall_not_mem (b := Proc.devRef .tc b) hostOps0 (V₀ m c) fun op hop => by
    simp only [List.mem_cons, List.mem_nil_iff, or_false] at hop
    rcases hop with rfl | rfl <;> simp only [StableHlo.reshape_writes, Finset.mem_singleton] <;>
      exact StableHlo.devRef_ne_of_ne ‹_›

/-- The feature matrix's full share is its two halves. -/
theorem arg0_split (c : Dev nD) (f : Buf (Elt F) ((c : Thread nD τ).loc main_arg0)) :
    ((((c : Thread nD τ).loc main_arg0) ↦{fullShare} f) : sProp 𝕄)
      ⊣⊢ iprop((((c : Thread nD τ).loc main_arg0) ↦{fullShare.left} f) ∗ (((c : Thread nD τ).loc main_arg0) ↦{fullShare.right} f)) :=
  pointsTo_share (PosShare.mem_left_op_right fullShare)

/-! ## @main as segments -/

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The two reshapes of the label vector, over the unscoped buffers. -/
def seg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (V₀ m) R

/-- The thirteen operations after the region, from the region's exit. -/
def seg1 : Pipeline.HostSeg (Name := ℕ) (U := UR sig nD τ) (pcfgs (F := F)) defs₀ 𝒱₀ L lv :=
  Pipeline.HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (Vx m) R

/-- The unscoped buffers held at a valuation, as the launch's set. -/
theorem held_eq (c : Dev nD) (W : Valuation τ sig (Elt F)) :
    (StableHlo.held (c : Thread nD τ) (Pipeline.ucRefs τ sig) W : sProp 𝕄)
      = unscopedBufs (Ix := Unit) (Name := ℕ) (U := UR sig nD τ) (Lvl := ℕ) c (fun b => W (Proc.devRef .tc b)) :=
  (Pipeline.unscopedBufs_held c W).symm

set_option backward.isDefEq.respectTransparency.types false in
set_option maxHeartbeats 1600000 in
/-- The region: entered from the buffers after the reshapes — the five arrays to the pipeline, the feature matrix
    halved between its two readers, the rest bypassing —, left with the arrays taken back, the halves rejoined. -/
def reg0 : Pipeline.RegionSeg (pcfgs (F := F)) adm (dats m) () defs₀ 𝒱₀ L lv 0 where
  win := winFacts₀0
  block_pos := block_pos0
  stage_whole := stage_whole0
  K := PEmpty
  osem := fun k => k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (V0 m c) ∗ R c)
  post c := iprop(StableHlo.held (c : Thread nD τ) (Pipeline.ucRefs τ sig) (Vx m c) ∗ R c)
  X c := iprop(emp)
  Y c := iprop(emp)
  Z c := iprop((((c : Thread nD τ).loc main_arg1) ↦{fullShare} V m c main_arg1) ∗ (((c : Thread nD τ).loc main_v3) ↦{fullShare} V m c main_v3) ∗ (((c : Thread nD τ).loc main_v4) ↦{fullShare} V m c main_v4) ∗ (((c : Thread nD τ).loc main_v5) ↦{fullShare} V m c main_v5) ∗ (((c : Thread nD τ).loc main_cst) ↦{fullShare} V m c main_cst) ∗ (((c : Thread nD τ).loc main_v6) ↦{fullShare} V m c main_v6) ∗ (((c : Thread nD τ).loc main_v7) ↦{fullShare} V m c main_v7) ∗ (((c : Thread nD τ).loc main_cst_0) ↦{fullShare} V m c main_cst_0) ∗ (((c : Thread nD τ).loc main_v8) ↦{fullShare} V m c main_v8) ∗ (((c : Thread nD τ).loc main_v9) ↦{fullShare} V m c main_v9) ∗ (((c : Thread nD τ).loc main_cst_1) ↦{fullShare} V m c main_cst_1) ∗ (((c : Thread nD τ).loc main_v10) ↦{fullShare} V m c main_v10) ∗ (((c : Thread nD τ).loc main_cst_2) ↦{fullShare} V m c main_cst_2) ∗ (((c : Thread nD τ).loc main_v11) ↦{fullShare} V m c main_v11))
  hentry c := by
    rw [held_eq, unscopedBufs0_eq, arrays0_eq]
    refine (sep_mono (sep_mono (sep_mono (arg0_split (F := F) c _).1 .rfl) .rfl) .rfl).trans ?_
    iintro ⟨⟨⟨⟨HL, HR⟩, H_v0, H_v1, H_v2_0, H_v2_1, H_arg1, H_v3, H_v4, H_v5, H_cst, H_v6, H_v7, H_cst_0, H_v8, H_v9, H_cst_1, H_v10, H_cst_2, H_v11⟩, HO⟩, -, -⟩
    imodintro
    isplitl [HL HR H_v0 H_v1 H_v2_0 H_v2_1]
    · isplitl [HL]; · iexact HL
      isplitl [HR]; · iexact HR
      isplitl [H_v0]; · iexact H_v0
      isplitl [H_v1]; · iexact H_v1
      isplitl [H_v2_0]; · iexact H_v2_0
      iexact H_v2_1
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [H_arg1]; · iexact H_arg1
    isplitl [H_v3]; · iexact H_v3
    isplitl [H_v4]; · iexact H_v4
    isplitl [H_v5]; · iexact H_v5
    isplitl [H_cst]; · iexact H_cst
    isplitl [H_v6]; · iexact H_v6
    isplitl [H_v7]; · iexact H_v7
    isplitl [H_cst_0]; · iexact H_cst_0
    isplitl [H_v8]; · iexact H_v8
    isplitl [H_v9]; · iexact H_v9
    isplitl [H_cst_1]; · iexact H_cst_1
    isplitl [H_v10]; · iexact H_v10
    isplitl [H_cst_2]; · iexact H_cst_2
    iexact H_v11
  hin c := by
    rw [Phi_zero]
    iintro ⟨-, -, Hr⟩; iexact Hr
  hout c := by
    refine (Phi_last m c).trans ?_
    rw [Pipeline.ownSems0_none]
    iintro Hr
    isplitr; · iempintro
    isplitr; · iempintro
    iexact Hr
  hexit c := by
    rw [held_eq, unscopedBufs0_eq, arrays0_eq]
    rw [Vx_of_ne m c main_arg0 (by decide) (by decide), Vx_v2_0, Vx_v2_1,
      Vx_of_ne m c main_v0 (by decide) (by decide), Vx_of_ne m c main_v1 (by decide) (by decide),
      Vx_of_ne m c main_arg1 (by decide) (by decide), Vx_of_ne m c main_v3 (by decide) (by decide), Vx_of_ne m c main_v4 (by decide) (by decide), Vx_of_ne m c main_v5 (by decide) (by decide), Vx_of_ne m c main_cst (by decide) (by decide), Vx_of_ne m c main_v6 (by decide) (by decide), Vx_of_ne m c main_v7 (by decide) (by decide), Vx_of_ne m c main_cst_0 (by decide) (by decide), Vx_of_ne m c main_v8 (by decide) (by decide), Vx_of_ne m c main_v9 (by decide) (by decide), Vx_of_ne m c main_cst_1 (by decide) (by decide), Vx_of_ne m c main_v10 (by decide) (by decide), Vx_of_ne m c main_cst_2 (by decide) (by decide), Vx_of_ne m c main_v11 (by decide) (by decide)]
    rw [(dats m 0 c).arrAt_in 0 rfl _, (dats m 0 c).arrAt_in 1 rfl _, (dats m 0 c).arrAt_in 2 rfl _, (dats m 0 c).arrAt_in 3 rfl _]
    iintro ⟨⟨HL, HR, H_v0, H_v1, H_v2_0, H_v2_1⟩, HO, -, ⟨H_arg1, H_v3, H_v4, H_v5, H_cst, H_v6, H_v7, H_cst_0, H_v8, H_v9, H_cst_1, H_v10, H_cst_2, H_v11⟩⟩
    imodintro
    isplitr [HO]
    · isplitl [HL HR]
      · iapply (arg0_split (F := F) c _).2
        isplitl [HL]; · iexact HL
        iexact HR
      isplitl [H_v0]; · iexact H_v0
      isplitl [H_v1]; · iexact H_v1
      isplitl [H_v2_0]; · iexact H_v2_0
      isplitl [H_v2_1]; · iexact H_v2_1
      isplitl [H_arg1]; · iexact H_arg1
      isplitl [H_v3]; · iexact H_v3
      isplitl [H_v4]; · iexact H_v4
      isplitl [H_v5]; · iexact H_v5
      isplitl [H_cst]; · iexact H_cst
      isplitl [H_v6]; · iexact H_v6
      isplitl [H_v7]; · iexact H_v7
      isplitl [H_cst_0]; · iexact H_cst_0
      isplitl [H_v8]; · iexact H_v8
      isplitl [H_v9]; · iexact H_v9
      isplitl [H_cst_1]; · iexact H_cst_1
      isplitl [H_v10]; · iexact H_v10
      isplitl [H_cst_2]; · iexact H_cst_2
      iexact H_v11
    · unfold Pipeline.Dat.owesAt Pipeline.owesWithin
      icases HO with ⟨%W, -, HO⟩; iexists W; iexact HO

/-! ## The run -/

/-- No host operation after the region writes an argument. -/
theorem Vend_of_arg (c : Dev nD) (b : Ref sig .tc) (hb : b = main_arg0 ∨ b = main_arg1) :
    Vend m c (Proc.devRef .tc b) = Vx m c (Proc.devRef .tc b) :=
  StableHlo.after_of_forall_not_mem (b := Proc.devRef .tc b) hostOps1 (Vx m c) fun op hop => by
    simp only [List.mem_cons, List.mem_nil_iff, or_false] at hop
    rcases hb with rfl | rfl <;>
    rcases hop with rfl | rfl | rfl | rfl | rfl | rfl | rfl | rfl | rfl | rfl | rfl | rfl | rfl <;>
      simp only [StableHlo.unary_writes, StableHlo.binary_writes, StableHlo.nullary_writes, StableHlo.reshape_writes, Finset.mem_singleton] <;>
      exact StableHlo.devRef_ne_of_ne (by decide)

/-- The arguments end as launched. -/
theorem Vend_arg0 (c : Dev nD) : Vend m c (Proc.devRef .tc main_arg0) = m ((c : Thread nD τ).loc main_arg0) :=
  (Vend_of_arg m c main_arg0 (.inl rfl)).trans ((Vx_of_ne m c main_arg0 (by decide) (by decide)).trans (V0_of_ne m c main_arg0 (by decide) (by decide)))
theorem Vend_arg1 (c : Dev nD) : Vend m c (Proc.devRef .tc main_arg1) = m ((c : Thread nD τ).loc main_arg1) :=
  (Vend_of_arg m c main_arg1 (.inr rfl)).trans ((Vx_of_ne m c main_arg1 (by decide) (by decide)).trans (V0_of_ne m c main_arg1 (by decide) (by decide)))

/-- @main as the list of its three segments. -/
abbrev segs : List (Pipeline.Seg (pcfgs (F := F)) adm (dats m) () defs₀ 𝒱₀ L lv) := [.host (seg0 m), .region (reg0 m), .host (seg1 m)]

/-- The launch element: the pipeline library's at the staging cells and the pipeline's transfers. -/
def u₀ : UR sig nD τ := initOf (Pipeline.cells cfgs cellOf_inj) (Pipeline.launchToks cfgs cellOf_inj)

/-- The run's post: the result at the valuation the three segments end with, the arguments as launched. -/
def QC : PUnit × MemSt nD τ sig (Elt F) → Prop := fun r => ∀ c : Dev nD,
  r.2.mem ((c : Thread nD τ).loc main_v11) = Vend m c (Proc.devRef .tc main_v11)
    ∧ r.2.mem ((c : Thread nD τ).loc main_arg0) = m ((c : Thread nD τ).loc main_arg0)
    ∧ r.2.mem ((c : Thread nD τ).loc main_arg1) = m ((c : Thread nD τ).loc main_arg1)

set_option backward.isDefEq.respectTransparency.types false in
set_option maxHeartbeats 1600000 in
/-- At the compiled mesh, for any float values, from any memory with zero counters: every weakly fair execution of
    @main terminates, the result holding what the host operations after the region compute from the pipeline's two
    results, the two arguments unchanged. -/
theorem run_main : θ_run defs (onTc (τ := τ) (main (F := F))) ⟨m, fun _ => 0, ρ⟩ (QC m) :=
  Pipeline.θ_run_regions_kit (pcfgs (F := F)) adm (dats m) () cellOf_inj EP defs₀ 𝒱₀ L lv m ρ main (segs m)
    (fun c Q => by rw [main_segs adm (dats m) () 𝒱₀ L lv (seg0 m) (seg1 m) (reg0 m) rfl rfl c])
    (by simp only [Pipeline.Seg.pipes_host, Pipeline.Seg.pipes_region, Pipeline.Seg.pipes_nil]; decide) (O₀ := 0) (hL := fun _ _ => rfl) (G := fun _ => iprop(emp)) (u₀ := u₀)
    (hu₀ := by
      unfold u₀
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m c) ∗ R c))
    (Tₙ := fun c => StableHlo.held (c : Thread nD τ) (Pipeline.ucRefs τ sig) (Vend m c))
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V₀ m c) from Pipeline.unscopedBufs_held c (V₀ m c)]
      iintro ⟨⟨Hh, -, HO, -, -, -⟩, -⟩
      imodintro
      isplitl [Hh]; · iexact Hh
      iexists ∅; iexact HO)
    (QY := fun c s => s.mem ((c : Thread nD τ).loc main_v11) = Vend m c (Proc.devRef .tc main_v11)
      ∧ s.mem ((c : Thread nD τ).loc main_arg0) = m ((c : Thread nD τ).loc main_arg0)
      ∧ s.mem ((c : Thread nD τ).loc main_arg1) = m ((c : Thread nD τ).loc main_arg1))
    (hfin := fun c s' => by
      rw [held_eq, unscopedBufs0_eq]
      iintro ⟨⟨H_arg0, H_v0, H_v1, H_v2_0, H_v2_1, H_arg1, H_v3, H_v4, H_v5, H_cst, H_v6, H_v7, H_cst_0, H_v8, H_v9, H_cst_1, H_v10, H_cst_2, H_v11⟩, HSI⟩
      icombine HSI H_arg0 gives %h0
      icombine HSI H_arg1 gives %h1
      icombine HSI H_v11 gives %h11
      imodintro
      isplitr
      · ipureintro
        exact ⟨Buf.eq_of_forall_mem_univ h11, (Buf.eq_of_forall_mem_univ h0).trans (Vend_arg0 m c), (Buf.eq_of_forall_mem_univ h1).trans (Vend_arg1 m c)⟩
      iexact HSI)
    (hQ := fun _ h => h)

end Cert.Kernel.Hand

end
-- ==== Proof.lean ====
/-
  The certificate of the hard-batch-mining triplet loss kernel against its jnp reference.

  Both programs take a feature matrix `x` [8192, 128] and a label vector [8192] and return one number: with
  `d(i, j)` the Euclidean distance of rows `i` and `j` (from the squared norms and the inner product, clamped at zero,
  the square root guarded at zero), `pos i` the largest `d(i, j)` over the rows `j` with `i`'s label and `neg i` the
  smallest over the rows with another label, the mean over `i` of `max (pos i − neg i + 0.3) 0` (Spec.lean).
  The reference computes the whole [8192, 8192] distance matrix and reduces its rows. The kernel walks an 8 × 8 grid
  of [1024, 1024] tiles, keeping for the current row block a running row maximum and a running row minimum in two
  scratch buffers: reset at the first column block, updated at every tile, written out at the last column block.
  Over the extended reals the two agree because a maximum (minimum) over 8192 columns is the maximum (minimum) over
  the eight column blocks of the blocks' maxima (minima), and the tile's entries are the matrix's entries: the
  kernel's matrix product of the bf16-rounded blocks is, at the ideal instance, the exact inner product.

  Frames: each kernel program is run as its list of segments — the two reshapes of the labels, the kernel region,
  the thirteen host operations after it —, the region by the body's run in each of its three cases (KI/, and K/ for
  the word-level program); the reference's by its generated run. `preserves` is trivial: the idealization rewrote
  nothing.
-/
import proofs.«152201_j11381663334709_1_alg».proof.Defs
import proofs.«152201_j11381663334709_1_alg».proof.Proof.Gen.Kernel
import proofs.«152201_j11381663334709_1_alg».proof.Proof.Gen.KernelIdeal
import proofs.«152201_j11381663334709_1_alg».proof.Proof.Gen.ReferenceIdeal
import proofs.«152201_j11381663334709_1_alg».proof.Proof.Gen.Pre_finite_inputs
import proofs.«152201_j11381663334709_1_alg».proof.Proof.Gen.ReferenceIdeal.Run
import proofs.«152201_j11381663334709_1_alg».proof.Proof.RefValue
import proofs.«152201_j11381663334709_1_alg».proof.Proof.KI.Final
import proofs.«152201_j11381663334709_1_alg».proof.Proof.K.Launch

noncomputable section

namespace Cert.Proof

open Idealize.ShloMosaic Idealize.ShloMosaic.TcCoe Idealize.SL.Sem

/-- The word-level kernel program runs and leaves its arguments unchanged. -/
theorem frame_k : Cert.frame_Kernel := fun m ρ _ =>
  (θ_run Cert.Kernel.defs _ _).mono (fun _ h c => ⟨(h c).2.1, (h c).2.2⟩) (Cert.Kernel.Hand.run_main (F := Bits) m ρ)

/-- The idealized kernel program runs and leaves its arguments unchanged. -/
theorem frame_ki : Cert.frame_KernelIdeal := fun m ρ _ =>
  (θ_run Cert.KernelIdeal.defs _ _).mono (fun _ h c => ⟨(h c).2.1, (h c).2.2⟩) (Cert.KernelIdeal.Hand.run_main (F := Ideal) m ρ)

/-- The reference runs and leaves its arguments unchanged. -/
theorem frame_ri : Cert.frame_ReferenceIdeal := fun m ρ _ =>
  (θ_run Cert.ReferenceIdeal.defs _ _).mono (fun _ h c => (h c).2) (Cert.ReferenceIdeal.Value.run (F := Ideal) m ρ)

/-- Both idealized programs end with the specification's loss of the arguments they agree on. -/
theorem algebraic : Cert.algebraic_KernelIdeal_ReferenceIdeal := by
  intro m ρ m' ρ' _ hagree
  refine ⟨fun c => Cert.Spec.loss (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact (θ_run Cert.KernelIdeal.defs _ _).mono
      (fun _ h c => ⟨(h c).1.trans (Cert.KernelIdeal.Hand.kernel_value m c), (h c).2.1, (h c).2.2⟩)
      (Cert.KernelIdeal.Hand.run_main (F := Ideal) m ρ)
  · refine (θ_run Cert.ReferenceIdeal.defs _ _).mono (fun _ h c => ⟨(h c).1.trans ?_, (h c).2⟩)
      (Cert.ReferenceIdeal.Value.run (F := Ideal) m' ρ')
    rw [show Cert.ReferenceIdeal.Value.res_main_v36 m' c = Cert.ReferenceIdeal.Value.res_out0 m' c from rfl,
      Cert.ReferenceIdeal.RefValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
